-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S_ : Shape := ⟨0, ![]⟩
abbrev S10000 : Shape := ⟨1, ![10000]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S10000_d1 : S10000x10000.ReducesTo [1] S10000
  reducesTo_S10000_S_d0 : S10000.ReducesTo [0] S_

variable [Facts]

def fn {F : FTy → Type} [FloatOps F] (main_arg0 : FVec F S10000x512 .f32) (main_arg1 : IVec S10000x10000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_c_0 : IVec S_ 32 := constantI S_ 32 0#32
  let main_v4 : IVec S10000x10000 32 := broadcastInDim S10000x10000 ![] bcast_S_S10000x10000 main_c_0
  let main_v5 : IVec S10000x10000 1 := cmpi .sgt main_arg1 main_v4
  let main_c_1 : IVec S_ 1 := constantI S_ 1 1#1
  let main_v6 : IVec S10000 1 := (fun x v => Host.reduce IntOp.andi x v reducesTo_S10000x10000_S10000_d1 h_S_) main_v5 main_c_1
  let main_v7 : IVec S10000 1 := noti main_v6
  let main_c_2 : IVec S_ 1 := constantI S_ 1 1#1
  let main_v8 : IVec S_ 1 := (fun x v => Host.reduce IntOp.andi x v reducesTo_S10000_S_d0 h_S_) main_v7 main_c_2
  let main_v9 : IVec S_ 1 := andi main_v3 main_v8
  main_v9
-- ==== Kernel.lean ====
abbrev S10000x512 : Shape := ⟨2, ![10000, 512]⟩
abbrev S10000x10000 : Shape := ⟨2, ![10000, 10000]⟩
abbrev S2000x512 : Shape := ⟨2, ![2000, 512]⟩
abbrev S2000 : Shape := ⟨1, ![2000]⟩
abbrev S2000x1 : Shape := ⟨2, ![2000, 1]⟩
abbrev S1024x512 : Shape := ⟨2, ![1024, 512]⟩
abbrev S1024x1024 : Shape := ⟨2, ![1024, 1024]⟩
abbrev S1024x1 : Shape := ⟨2, ![1024, 1]⟩
abbrev S512x1024 : Shape := ⟨2, ![512, 1024]⟩
abbrev S1024 : Shape := ⟨1, ![1024]⟩

abbrev nBuf : Space → Nat
  | .hbm => 5
  | .vmem => 20
  | .smem => 0
  | _ => 0

abbrev bufTy : (tb : Table) → Fin (tcTables nBuf tb) → BufTy
  | .hbm, ⟨0, _⟩ => ⟨S10000x512, .f32⟩
  | .hbm, ⟨1, _⟩ => ⟨S10000x10000, .i32⟩
  | .hbm, ⟨2, _⟩ => ⟨S10000x512, .bf16⟩
  | .hbm, ⟨3, _⟩ => ⟨S10000x512, .bf16⟩
  | .hbm, ⟨4, _⟩ => ⟨S10000x512, .f32⟩
  | .local _ .vmem, ⟨0, _⟩ => ⟨S2000x512, .f32⟩
  | .local _ .vmem, ⟨1, _⟩ => ⟨S2000x512, .f32⟩
  | .local _ .vmem, ⟨2, _⟩ => ⟨S2000x512, .bf16⟩
  | .local _ .vmem, ⟨3, _⟩ => ⟨S2000x512, .bf16⟩
  | .local _ .vmem, ⟨4, _⟩ => ⟨S2000x512, .bf16⟩
  | .local _ .vmem, ⟨5, _⟩ => ⟨S2000x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x1024, .i32⟩
  | .local _ .vmem, ⟨13, _⟩ => ⟨S1024x1024, .i32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x1, .f32⟩
  | .local _ .vmem, ⟨19, _⟩ => ⟨S1024x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![10, 10], ![false, false]⟩

def k1_cond2 (i : grid1.Coords) : BitVec 1 :=
  let arg1 : BitVec 32 := BitVec.ofNat 32 (i 1).val
  let c9_i32 : BitVec 32 := 9#32
  let v40 : BitVec 1 := Scalar.cmpi .eq arg1 c9_i32
  let v41 : BitVec 32 := Scalar.extui v40
  let c0_i32_21 : BitVec 32 := 0#32
  let v42 : BitVec 1 := Scalar.cmpi .ne v41 c0_i32_21
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  broadcasts_S2000x1_S2000x512 : S2000x1.Broadcasts S2000x512
  bitsLt_bf16_f32 : FTy.bits .bf16 < FTy.bits .f32
  packedbf16_S2000x512_S2000x512_0_0 : (Rect.unit (s := S2000x512) ![0, 0] S2000x512.size inb_S2000x512_S2000x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S1024x1024_S1024x1024_0_0 : ∀ a, (![0, 0] : Fin 2 → Nat) a + S1024x1024.size a ≤ S1024x1024.size a
  h_S1024x1024 : 0 < S1024x1024.numel
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x512 : S1024x1.Broadcasts S1024x512
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S10000x512.size a
  hwx0_1 : ∀ i : grid0.Coords, EltTy.bits .bf16 = 32 ∨ (Rect.block (s := S10000x512) S2000x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S10000x512.size a
  hwx0_2 : ∀ i : grid0.Coords, EltTy.bits .bf16 = 32 ∨ (Rect.block (s := S10000x512) S2000x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1024x512.size a < S10000x512.size a
  hwx1_0 : ∀ i : grid1.Coords, EltTy.bits .bf16 = 32 ∨ (Rect.unit (s := S10000x512) (fun a => cc1_transform_0 i a * S1024x512.size a) (fun a => (Pipeline.Clip.of (cc1_transform_0 i a) (S1024x512.size a) (S10000x512.size a)).extent (S1024x512.size a)) fun a => Pipeline.Clip.inb (Pipeline.Clip.ok_of (hstart1_0 i a))).WholeWords (EltTy.packing .bf16)
  hwxs1_0 : ∀ i : grid1.Coords, EltTy.bits .bf16 = 32 ∨ (Rect.unit (s := S1024x512) (fun _ => 0) (fun a => (Pipeline.Clip.of (cc1_transform_0 i a) (S1024x512.size a) (S10000x512.size a)).extent (S1024x512.size a)) fun a => (Nat.zero_add _).trans_le (Pipeline.Clip.extent_le (Pipeline.Clip.ok_of (hstart1_0 i a)))).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1024x512.size a < S10000x512.size a
  hwx1_1 : ∀ i : grid1.Coords, EltTy.bits .bf16 = 32 ∨ (Rect.unit (s := S10000x512) (fun a => cc1_transform_1 i a * S1024x512.size a) (fun a => (Pipeline.Clip.of (cc1_transform_1 i a) (S1024x512.size a) (S10000x512.size a)).extent (S1024x512.size a)) fun a => Pipeline.Clip.inb (Pipeline.Clip.ok_of (hstart1_1 i a))).WholeWords (EltTy.packing .bf16)
  hwxs1_1 : ∀ i : grid1.Coords, EltTy.bits .bf16 = 32 ∨ (Rect.unit (s := S1024x512) (fun _ => 0) (fun a => (Pipeline.Clip.of (cc1_transform_1 i a) (S1024x512.size a) (S10000x512.size a)).extent (S1024x512.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1024x512.size a < S10000x512.size a
  hwx1_2 : ∀ i : grid1.Coords, EltTy.bits .bf16 = 32 ∨ (Rect.unit (s := S10000x512) (fun a => cc1_transform_2 i a * S1024x512.size a) (fun a => (Pipeline.Clip.of (cc1_transform_2 i a) (S1024x512.size a) (S10000x512.size a)).extent (S1024x512.size a)) fun a => Pipeline.Clip.inb (Pipeline.Clip.ok_of (hstart1_2 i a))).WholeWords (EltTy.packing .bf16)
  hwxs1_2 : ∀ i : grid1.Coords, EltTy.bits .bf16 = 32 ∨ (Rect.unit (s := S1024x512) (fun _ => 0) (fun a => (Pipeline.Clip.of (cc1_transform_2 i a) (S1024x512.size a) (S10000x512.size a)).extent (S1024x512.size a)) fun a => (Nat.zero_add _).trans_le (Pipeline.Clip.extent_le (Pipeline.Clip.ok_of (hstart1_2 i a)))).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1024x1024.size a < S10000x10000.size a
  hwx1_3 : ∀ i : grid1.Coords, EltTy.bits .i32 = 32 ∨ (Rect.unit (s := S10000x10000) (fun a => cc1_transform_3 i a * S1024x1024.size a) (fun a => (Pipeline.Clip.of (cc1_transform_3 i a) (S1024x1024.size a) (S10000x10000.size a)).extent (S1024x1024.size a)) fun a => Pipeline.Clip.inb (Pipeline.Clip.ok_of (hstart1_3 i a))).WholeWords (EltTy.packing .i32)
  hwxs1_3 : ∀ i : grid1.Coords, EltTy.bits .i32 = 32 ∨ (Rect.unit (s := S1024x1024) (fun _ => 0) (fun a => (Pipeline.Clip.of (cc1_transform_3 i a) (S1024x1024.size a) (S10000x10000.size a)).extent (S1024x1024.size a)) fun a => (Nat.zero_add _).trans_le (Pipeline.Clip.extent_le (Pipeline.Clip.ok_of (hstart1_3 i a)))).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S1024x512.size a < S10000x512.size a
  hwx1_4 : ∀ i : grid1.Coords, EltTy.bits .f32 = 32 ∨ (Rect.unit (s := S10000x512) (fun a => cc1_transform_4 i a * S1024x512.size a) (fun a => (Pipeline.Clip.of (cc1_transform_4 i a) (S1024x512.size a) (S10000x512.size a)).extent (S1024x512.size a)) fun a => Pipeline.Clip.inb (Pipeline.Clip.ok_of (hstart1_4 i a))).WholeWords (EltTy.packing .f32)
  hwxs1_4 : ∀ i : grid1.Coords, EltTy.bits .f32 = 32 ∨ (Rect.unit (s := S1024x512) (fun _ => 0) (fun a => (Pipeline.Clip.of (cc1_transform_4 i a) (S1024x512.size a) (S10000x512.size a)).extent (S1024x512.size a)) fun a => (Nat.zero_add _).trans_le (Pipeline.Clip.extent_le (Pipeline.Clip.ok_of (hstart1_4 i a)))).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S1024x512.size a < S10000x512.size a
  hwx1_5 : ∀ i : grid1.Coords, EltTy.bits .f32 = 32 ∨ (Rect.unit (s := S10000x512) (fun a => cc1_transform_5 i a * S1024x512.size a) (fun a => (Pipeline.Clip.of (cc1_transform_5 i a) (S1024x512.size a) (S10000x512.size a)).extent (S1024x512.size a)) fun a => Pipeline.Clip.inb (Pipeline.Clip.ok_of (hstart1_5 i a))).WholeWords (EltTy.packing .f32)
  hwxs1_5 : ∀ i : grid1.Coords, EltTy.bits .f32 = 32 ∨ (Rect.unit (s := S1024x512) (fun _ => 0) (fun a => (Pipeline.Clip.of (cc1_transform_5 i a) (S1024x512.size a) (S10000x512.size a)).extent (S1024x512.size a)) fun a => (Nat.zero_add _).trans_le (Pipeline.Clip.extent_le (Pipeline.Clip.ok_of (hstart1_5 i a)))).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S2000x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v0_0) S1024x512.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v0_0) S1024x512.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v0_1) S1024x512.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_arg1) S1024x1024.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpecClip (Memref.whole main_arg0) S1024x512.size cc1_transform_4 reads1_4 false false 2 stage1_4 sem1_4
    hrank1 hreads1_4 hstart1_4 nbuf1_4 (Memref.isWhole_whole _) hwx1_4 hwxs1_4 hstage1_4

abbrev win1_5 : Pipeline.Window sig grid1 :=
  Pipeline.Window.ofSpecClip (Memref.whole main_v1) S1024x512.size cc1_transform_5 reads1_5 true false 2 stage1_5 sem1_5
    hrank1 hreads1_5 hstart1_5 nbuf1_5 (Memref.isWhole_whole _) hwx1_5 hwxs1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S10000x512 : Shape := ⟨2, ![10000, 512]⟩
abbrev S10000x10000 : Shape := ⟨2, ![10000, 10000]⟩
abbrev S_ : Shape := ⟨0, ![]⟩
abbrev S10000 : Shape := ⟨1, ![10000]⟩
abbrev S10000x1 : Shape := ⟨2, ![10000, 1]⟩
abbrev S512x10000 : Shape := ⟨2, ![512, 10000]⟩

abbrev nBuf : Space → Nat
  | .hbm => 47
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .i32⟩
  | .hbm, ⟨2, _⟩ => ⟨S10000x512, .f32⟩
  | .hbm, ⟨3, _⟩ => ⟨S_, .f32⟩
  | .hbm, ⟨4, _⟩ => ⟨S10000, .f32⟩
  | .hbm, ⟨5, _⟩ => ⟨S10000x1, .f32⟩
  | .hbm, ⟨6, _⟩ => ⟨S10000x1, .f32⟩
  | .hbm, ⟨7, _⟩ => ⟨S_, .f32⟩
  | .hbm, ⟨8, _⟩ => ⟨S10000x1, .f32⟩
  | .hbm, ⟨9, _⟩ => ⟨S10000x1, .f32⟩
  | .hbm, ⟨10, _⟩ => ⟨S10000x512, .f32⟩
  | .hbm, ⟨11, _⟩ => ⟨S10000x512, .f32⟩
  | .hbm, ⟨12, _⟩ => ⟨S512x10000, .f32⟩
  | .hbm, ⟨13, _⟩ => ⟨S10000x10000, .f32⟩
  | .hbm, ⟨14, _⟩ => ⟨S_, .f32⟩
  | .hbm, ⟨15, _⟩ => ⟨S10000x10000, .f32⟩
  | .hbm, ⟨16, _⟩ => ⟨S10000x10000, .f32⟩
  | .hbm, ⟨17, _⟩ => ⟨S10000x10000, .f32⟩
  | .hbm, ⟨18, _⟩ => ⟨S_, .f32⟩
  | .hbm, ⟨19, _⟩ => ⟨S10000x10000, .f32⟩
  | .hbm, ⟨20, _⟩ => ⟨S10000x10000, .i1⟩
  | .hbm, ⟨21, _⟩ => ⟨S_, .f32⟩
  | .hbm, ⟨22, _⟩ => ⟨S_, .f32⟩
  | .hbm, ⟨23, _⟩ => ⟨S10000x10000, .f32⟩
  | .hbm, ⟨24, _⟩ => ⟨S10000x10000, .f32⟩
  | .hbm, ⟨25, _⟩ => ⟨S_, .f32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x10000, .f32⟩
  | .hbm, ⟨32, _⟩ => ⟨S10000x10000, .f32⟩
  | .hbm, ⟨33, _⟩ => ⟨S10000x10000, .f32⟩
  | .hbm, ⟨34, _⟩ => ⟨S_, .f32⟩
  | .hbm, ⟨35, _⟩ => ⟨S10000, .f32⟩
  | .hbm, ⟨36, _⟩ => ⟨S10000x1, .f32⟩
  | .hbm, ⟨37, _⟩ => ⟨S10000x10000, .f32⟩
  | .hbm, ⟨38, _⟩ => ⟨S10000x10000, .f32⟩
  | .hbm, ⟨39, _⟩ => ⟨S10000x512, .f32⟩
  | .hbm, ⟨40, _⟩ => ⟨S_, .f32⟩
  | .hbm, ⟨41, _⟩ => ⟨S10000x512, .f32⟩
  | .hbm, ⟨42, _⟩ => ⟨S10000x512, .f32⟩
  | .hbm, ⟨43, _⟩ => ⟨S_, .f32⟩
  | .hbm, ⟨44, _⟩ => ⟨S10000x512, .f32⟩
  | .hbm, ⟨45, _⟩ => ⟨S10000x512, .f32⟩
  | .hbm, ⟨46, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  reducesTo_S10000x512_S10000_d1 : S10000x512.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x512_0_1 : S10000x1.BroadcastsInDim S10000x512 (![0, 1] : Fin 2 → Fin S10000x512.rank)
  transposes_S10000x512_S512x10000_1_0 : S10000x512.Transposes [1, 0] S512x10000
  bcast_S_S10000x10000 : S_.BroadcastsInDim S10000x10000 (![] : Fin 0 → Fin S10000x10000.rank)
  reducesTo_S10000x10000_S10000_d1 : S10000x10000.ReducesTo [1] S10000
  bcast_S_S10000 : S_.BroadcastsInDim S10000 (![] : Fin 0 → Fin S10000.rank)
  bcast_S10000x1_S10000x10000_0_1 : S10000x1.BroadcastsInDim S10000x10000 (![0, 1] : Fin 2 → Fin S10000x10000.rank)
  bcast_S_S10000x512 : S_.BroadcastsInDim S10000x512 (![] : Fin 0 → Fin S10000x512.rank)
  dot_S10000x512_S512x10000_S10000x10000_1_0_0_1_n_n_wf : DotDims.WF S10000x512 S512x10000 S10000x10000 [1] [0] [0] [1] [] []
  dot_S10000x10000_S10000x512_S10000x512_1_0_0_1_n_n_wf : DotDims.WF S10000x10000 S10000x512 S10000x512 [1] [0] [0] [1] [] []

variable [Facts₀]

def dot_S10000x512_S512x10000_S10000x10000_1_0_0_1_n_n : DotDims S10000x512 S512x10000 S10000x10000 where
  lhsContracting := [1]
  rhsContracting := [0]
  lhsNonContracting := [0]
  rhsNonContracting := [1]
  lhsBatch := []
  rhsBatch := []
  wf := dot_S10000x512_S512x10000_S10000x10000_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.Forms.lean ====
/- The result both programs compute, as one function of the argument arrays on the extended reals, and the
   float literals the programs spell, as the extended reals their words denote.

   For x : [10000, 512] and an integer mask adj : [10000, 10000] (an entry > 0 masks its pair):
     n_i    = max (sqrt (Σ_c x_ic²)) ε                      the row norms, clamped below by ε = f32(1e-12)
     nx_ic  = x_ic / n_i                                     the normalized rows
     s_ij   = (Σ_c nx_ic · nx_jc) / 1                        cosine similarities
     p_ij   = 0 if adj_ij > 0, else exp s_ij                 softmax numerators at the fixed shift 0
     G_id   = 2 · x_id − 1 · ((Σ_j p_ij · x_jd) / (Σ_j p_ij))
   The literals 2 and 1 of the last line are kept as the words the programs spell: the same word stands on both sides. -/
import Idealize.ShloMosaic.PureOps.Ideal

noncomputable section

namespace Cert.Spec

open Idealize.ShloMosaic

/-- The clamp of the row norms, f32(1e-12). -/
abbrev epsW : EReal := Ideal.ofBits .f32 0x2B8CBCCC#32
/-- The words 1.0 and 2.0. -/
abbrev oneW : EReal := Ideal.ofBits .f32 0x3F800000#32
abbrev twoW : EReal := Ideal.ofBits .f32 0x40000000#32
/-- The reference's mask threshold, f32(1e-5), and its fill, −∞. -/
abbrev thrW : EReal := Ideal.ofBits .f32 0x3727C5AC#32
abbrev negInfW : EReal := Ideal.ofBits .f32 0xFF800000#32
abbrev zeroW : EReal := Ideal.ofBits .f32 0x00000000#32

theorem zeroW_eq : zeroW = 0 := by
  simp [zeroW, Ideal.ofBits, Ideal.ieee]

theorem oneW_eq : oneW = ((1 : ℝ) : EReal) := by
  simp [oneW, Ideal.ofBits, Ideal.ieee, -EReal.coe_mul]; norm_num

theorem negInfW_eq : negInfW = ⊥ := by
  simp [negInfW, Ideal.ofBits, Ideal.ieee]

/-- The clamp is a positive real. -/
theorem epsW_pos : ∃ e : ℝ, 0 < e ∧ epsW = ((e : ℝ) : EReal) := by
  refine ⟨_, ?_, by simp [epsW, Ideal.ofBits, Ideal.ieee, -EReal.coe_mul]; rfl⟩
  norm_num

/-- The threshold lies strictly between 0 and 1: an integer exceeds it exactly when it is positive. -/
theorem thrW_between : ∃ t : ℝ, 0 < t ∧ t < 1 ∧ thrW = ((t : ℝ) : EReal) := by
  refine ⟨_, ?_, ?_, by simp [thrW, Ideal.ofBits, Ideal.ieee, -EReal.coe_mul]; rfl⟩ <;> norm_num

variable (x : Fin 10000 → Fin 512 → EReal) (adj : Fin 10000 → Fin 10000 → BitVec 32)

/-- The clamped norm of row i. -/
def rowNorm (i : Fin 10000) : EReal := max (Ideal.sqrt (∑ c, x i c * x i c)) epsW
/-- The normalized rows. -/
def nx (i : Fin 10000) (c : Fin 512) : EReal := Ideal.div (x i c) (rowNorm x i)
/-- The cosine similarity of rows i and j (divided by the temperature 1, as both programs do). -/
def sim (i j : Fin 10000) : EReal := Ideal.div (∑ c, nx x i c * nx x j c) oneW
/-- Pair (i, j) is masked: the mask's entry is positive, read signed. -/
def masked (i j : Fin 10000) : Prop := 0 < (adj i j).toInt
instance (i j : Fin 10000) : Decidable (masked adj i j) := by unfold masked; infer_instance
/-- The softmax numerator of pair (i, j) at the fixed shift 0. -/
def pw (i j : Fin 10000) : EReal := if masked adj i j then 0 else Ideal.exp (sim x i j)
/-- The result at row i, column d. -/
def G (i : Fin 10000) (d : Fin 512) : EReal :=
  twoW * x i d - oneW * Ideal.div (∑ j, pw x adj i j * x j d) (∑ j, pw x adj i j)

end Cert.Spec

end
-- ==== Proof.SoftmaxLaw.lean ====
/- Algebra on the extended reals for a softmax taken two ways. With every score and value a real number and at least
   one entry unmasked, Σ_j (u_j / U) · v_j with u_j = exp (z_j − M), z_j = −∞ on masked entries, U = 0 + Σ_j u_j, equals
   (Σ_j p_j · v_j) / (Σ_j p_j) with p_j = 0 on masked entries and exp s_j otherwise, for ANY real shift M: the factor
   exp (−M) cancels, and the denominator is a positive real. Beside it: coercion through finite sums, x · (1/n) = x / n
   for a positive real n, the maximum of finitely many values each −∞ or real (one of them real) is real, and ten
   tiles of 1024 columns cover 10000 columns when the 240 past the end contribute nothing. -/
import Idealize.ShloMosaic.PureOps.Ideal
import Idealize.ShloMosaic.PureOps.Ideal.Laws
import Mathlib.Algebra.BigOperators.Fin
import Mathlib.Data.EReal.Operations
import Mathlib.Data.EReal.Inv
import Mathlib.Analysis.SpecialFunctions.Exp
import Mathlib.Analysis.SpecialFunctions.Sqrt
import Mathlib.Logic.Equiv.Fin.Basic

/-!
# The softmax law on the extended reals

Pure mathematics at the exact reading of float arithmetic, where a value is an extended real and every operation is
its textbook one. The main fact: with real scores and values, and at least one column unmasked, a softmax-weighted
average does not depend on the shift subtracted from the scores, and may be computed as the quotient of a weighted
sum by the total weight. Around it: finite sums and quotients of reals stay real, the running maximum of a row with
a real entry is real, and tiles of columns that reach past the end of a row sum to the sum over the row.
-/

noncomputable section

namespace Cert.Spec

open Idealize.ShloMosaic

/-! ### Finite sums, products and quotients of real numbers inside the extended reals -/

/-- The inclusion of the reals into the extended reals carries a finite sum to the sum of the images. -/
theorem coe_sum {ι : Type} (S : Finset ι) (f : ι → ℝ) :
    ((∑ k ∈ S, f k : ℝ) : EReal) = ∑ k ∈ S, ((f k : ℝ) : EReal) := by
  classical
  induction S using Finset.induction_on with
  | empty => simp
  | insert a s ha ih => rw [Finset.sum_insert ha, Finset.sum_insert ha, EReal.coe_add, ih]

/-- The quotient of two reals, the divisor not zero, is the real quotient. -/
theorem div_coe_coe (x n : ℝ) (hn : n ≠ 0) : Ideal.div (x : EReal) (n : EReal) = ((x / n : ℝ) : EReal) := by
  rw [Ideal.div_coe hn, ← EReal.coe_mul, mul_one_div]

/-- Multiplying by the reciprocal of a positive real is dividing by it. -/
theorem mul_inv_eq_div (x n : ℝ) (hn : 0 < n) :
    (x : EReal) * Ideal.div 1 (n : EReal) = Ideal.div (x : EReal) (n : EReal) := by
  rw [Ideal.div_coe hn.ne', Ideal.div_coe hn.ne', one_mul]

/-- Dividing by one changes nothing, at the infinities too. -/
theorem div_one (x : EReal) : Ideal.div x 1 = x := by
  rw [Ideal.div, if_neg one_ne_zero, ← EReal.coe_one, ← EReal.coe_inv, inv_one, EReal.coe_one, mul_one]

/-- The square root of a real that is not negative is the real square root. -/
theorem sqrt_coe_nonneg (r : ℝ) (hr : 0 ≤ r) : Ideal.sqrt ((r : ℝ) : EReal) = ((Real.sqrt r : ℝ) : EReal) := by
  rw [Ideal.sqrt_coe, if_neg (not_lt.mpr hr)]

/-- An extended real that is neither infinity is a real number. -/
theorem exists_real_of_ne {x : EReal} (ht : x ≠ ⊤) (hb : x ≠ ⊥) : ∃ r : ℝ, x = (r : EReal) :=
  ⟨x.toReal, (EReal.coe_toReal ht hb).symm⟩

/-! ### The softmax law -/

/-- The shifted exponential of a masked score: the mask's minus infinity stays minus infinity under the shift and
    its exponential is zero; an unmasked score's is the real exponential of the shifted score. -/
theorem exp_masked_sub {J : Type} (mask : J → Prop) [DecidablePred mask] (s : J → ℝ) (M : ℝ) (j : J) :
    Ideal.exp ((if mask j then (⊥ : EReal) else ((s j : ℝ) : EReal)) - ((M : ℝ) : EReal))
      = (((if mask j then 0 else Real.exp (s j) * Real.exp (-M)) : ℝ) : EReal) := by
  by_cases hm : mask j
  · rw [if_pos hm, if_pos hm, EReal.bot_sub, Ideal.exp_bot, EReal.coe_zero]
  · rw [if_neg hm, if_neg hm, ← EReal.coe_sub, Ideal.exp_coe, sub_eq_add_neg, Real.exp_add]

/-- The unshifted weight of a masked score: zero on the mask, the real exponential off it. -/
theorem weight_masked {J : Type} (mask : J → Prop) [DecidablePred mask] (s : J → ℝ) (j : J) :
    (if mask j then (0 : EReal) else Ideal.exp ((s j : ℝ) : EReal))
      = (((if mask j then 0 else Real.exp (s j)) : ℝ) : EReal) := by
  by_cases hm : mask j
  · rw [if_pos hm, if_pos hm, EReal.coe_zero]
  · rw [if_neg hm, if_neg hm, Ideal.exp_coe]

/-- The law in the reals: weights with a positive total, all scaled by one positive factor, give the same
    normalised average. -/
theorem real_softmax_shift {J : Type} [Fintype J] (p v : J → ℝ) (c : ℝ) (hc : 0 < c) (hP : 0 < ∑ k, p k) :
    ∑ j, (p j * c) / (∑ k, p k * c) * v j = (∑ j, p j * v j) / (∑ k, p k) := by
  rw [← Finset.sum_mul, Finset.sum_div]
  refine Finset.sum_congr rfl fun j _ => ?_
  have hP' : (∑ k, p k) ≠ 0 := hP.ne'
  have hc' : c ≠ 0 := hc.ne'
  field_simp

/-- Softmax is shift invariant. With real scores and values and at least one column unmasked, the average of the
    values weighted by the normalised shifted exponentials (minus infinity on the mask, whatever real shift is used)
    is the quotient of the weighted sum by the total weight, both taken with the unshifted exponentials and a zero
    weight on the mask. The unmasked column makes both totals positive reals, so neither quotient meets a zero
    divisor. -/
theorem softmax_shift {J : Type} [Fintype J] (mask : J → Prop) [DecidablePred mask] (s v : J → ℝ) (M : ℝ)
    (h : ∃ j, ¬ mask j) :
    (∑ j, Ideal.div (Ideal.exp ((if mask j then (⊥ : EReal) else ((s j : ℝ) : EReal)) - ((M : ℝ) : EReal)))
            ((0 : EReal) + ∑ k, Ideal.exp ((if mask k then (⊥ : EReal) else ((s k : ℝ) : EReal)) - ((M : ℝ) : EReal)))
          * ((v j : ℝ) : EReal))
    = Ideal.div (∑ j, (if mask j then (0 : EReal) else Ideal.exp ((s j : ℝ) : EReal)) * ((v j : ℝ) : EReal))
                (∑ j, (if mask j then (0 : EReal) else Ideal.exp ((s j : ℝ) : EReal))) := by
  -- the unshifted weights, as reals
  let p : J → ℝ := fun j => if mask j then 0 else Real.exp (s j)
  have hc : 0 < Real.exp (-M) := Real.exp_pos _
  have hnn : ∀ k ∈ (Finset.univ : Finset J), 0 ≤ p k := by
    intro k _
    show 0 ≤ (if mask k then 0 else Real.exp (s k))
    split_ifs
    · exact le_rfl
    · exact (Real.exp_pos _).le
  have hP : 0 < ∑ k, p k := by
    obtain ⟨j0, hj0⟩ := h
    have h0 : 0 < p j0 := by
      show 0 < (if mask j0 then 0 else Real.exp (s j0))
      rw [if_neg hj0]; exact Real.exp_pos _
    exact lt_of_lt_of_le h0 (Finset.single_le_sum hnn (Finset.mem_univ j0))
  have hU : (∑ k, p k * Real.exp (-M)) ≠ 0 := by
    rw [← Finset.sum_mul]; exact (mul_pos hP hc).ne'
  -- every shifted exponential is the unshifted weight times the one factor exp (-M)
  have hE : ∀ j, Ideal.exp ((if mask j then (⊥ : EReal) else ((s j : ℝ) : EReal)) - ((M : ℝ) : EReal))
      = ((p j * Real.exp (-M) : ℝ) : EReal) := by
    intro j
    rw [exp_masked_sub]
    congr 1
    show (if mask j then 0 else Real.exp (s j) * Real.exp (-M)) = (if mask j then 0 else Real.exp (s j)) * Real.exp (-M)
    split_ifs
    · rw [zero_mul]
    · rfl
  have hW : ∀ j, (if mask j then (0 : EReal) else Ideal.exp ((s j : ℝ) : EReal)) = ((p j : ℝ) : EReal) :=
    fun j => weight_masked mask s j
  have hL : (∑ j, Ideal.div (Ideal.exp ((if mask j then (⊥ : EReal) else ((s j : ℝ) : EReal)) - ((M : ℝ) : EReal)))
            ((0 : EReal) + ∑ k, Ideal.exp ((if mask k then (⊥ : EReal) else ((s k : ℝ) : EReal)) - ((M : ℝ) : EReal)))
          * ((v j : ℝ) : EReal))
      = ((∑ j, (p j * Real.exp (-M)) / (∑ k, p k * Real.exp (-M)) * v j : ℝ) : EReal) := by
    rw [coe_sum]
    refine Finset.sum_congr rfl fun j _ => ?_
    rw [zero_add, hE j, Finset.sum_congr rfl (fun k _ => hE k), ← coe_sum, div_coe_coe _ _ hU, ← EReal.coe_mul]
  have hR : Ideal.div (∑ j, (if mask j then (0 : EReal) else Ideal.exp ((s j : ℝ) : EReal)) * ((v j : ℝ) : EReal))
                (∑ j, (if mask j then (0 : EReal) else Ideal.exp ((s j : ℝ) : EReal)))
      = (((∑ j, p j * v j) / (∑ k, p k) : ℝ) : EReal) := by
    rw [Finset.sum_congr rfl (fun j _ => hW j),
      Finset.sum_congr rfl (fun j _ => show (if mask j then (0 : EReal) else Ideal.exp ((s j : ℝ) : EReal)) * ((v j : ℝ) : EReal)
        = ((p j * v j : ℝ) : EReal) by rw [hW j, ← EReal.coe_mul]),
      ← coe_sum, ← coe_sum, div_coe_coe _ _ hP.ne']
  rw [hL, hR, real_softmax_shift p v _ hc hP]

/-! ### Tiles of columns -/

/-- Tiles of a fixed width that together reach at least to the end cover the columns: summing, tile by tile, the
    entries whose column lies before the end, gives the sum over all columns. The columns past the end contribute
    nothing. -/
theorem sum_tiles_gen {A : Type} [AddCommMonoid A] (T W N : ℕ) (hN : N ≤ T * W) (g : ℕ → A) :
    (∑ k : Fin T, ∑ jj : Fin W, (if k.val * W + jj.val < N then g (k.val * W + jj.val) else 0))
      = ∑ j : Fin N, g j.val := by
  have h1 : (∑ k : Fin T, ∑ jj : Fin W, (if k.val * W + jj.val < N then g (k.val * W + jj.val) else 0))
      = ∑ n : Fin (T * W), (if n.val < N then g n.val else 0) := by
    rw [← Fintype.sum_prod_type']
    refine Fintype.sum_equiv finProdFinEquiv _ _ fun x => ?_
    have hx : (finProdFinEquiv x).val = x.1.val * W + x.2.val := by
      rcases x with ⟨a, b⟩
      simp [finProdFinEquiv, Nat.mul_comm, Nat.add_comm]
    rw [hx]
  rw [h1, Fin.sum_univ_eq_sum_range (fun n => if n < N then g n else 0) (T * W),
    Fin.sum_univ_eq_sum_range g N, ← Finset.sum_filter]
  congr 1
  ext n
  simp only [Finset.mem_filter, Finset.mem_range]
  omega

/-- Ten tiles of 1024 columns cover the 10000 columns, the 240 past the end contributing nothing. -/
theorem sum_tiles {A : Type} [AddCommMonoid A] (g : ℕ → A) :
    (∑ k : Fin 10, ∑ jj : Fin 1024, (if k.val * 1024 + jj.val < 10000 then g (k.val * 1024 + jj.val) else 0))
      = ∑ j : Fin 10000, g j.val :=
  sum_tiles_gen 10 1024 10000 (by norm_num) g

/-! ### The running maximum of a row is a real number -/

theorem foldl_max_ne_top (l : List EReal) : ∀ (acc : EReal), acc ≠ ⊤ → (∀ a ∈ l, a ≠ ⊤) → l.foldl max acc ≠ ⊤ := by
  induction l with
  | nil => intro acc hacc _; simpa using hacc
  | cons b l ih =>
    intro acc hacc hl
    rw [List.foldl_cons]
    refine ih _ ?_ (fun a ha => hl a (List.mem_cons_of_mem _ ha))
    rcases max_choice acc b with hm | hm
    · rw [hm]; exact hacc
    · rw [hm]; exact hl b (List.mem_cons_self)

theorem le_foldl_max_acc (l : List EReal) : ∀ (acc : EReal), acc ≤ l.foldl max acc := by
  induction l with
  | nil => intro acc; simp
  | cons b l ih =>
    intro acc
    rw [List.foldl_cons]
    exact le_trans (le_max_left _ _) (ih _)

theorem le_foldl_max_mem (l : List EReal) : ∀ (acc a : EReal), a ∈ l → a ≤ l.foldl max acc := by
  induction l with
  | nil => intro acc a ha; simp at ha
  | cons b l ih =>
    intro acc a ha
    rw [List.foldl_cons]
    rcases List.mem_cons.mp ha with hab | hal
    · rw [hab]; exact le_trans (le_max_right _ _) (le_foldl_max_acc l _)
    · exact ih _ a hal

/-- The running maximum, started at minus infinity, of entries each minus infinity or real, one of them real, is a
    real number: it is no entry's plus infinity and it is at least the real entry. -/
theorem foldl_max_real (l : List EReal) (hl : ∀ a ∈ l, a = ⊥ ∨ ∃ r : ℝ, a = (r : EReal))
    (h : ∃ a ∈ l, ∃ r : ℝ, a = (r : EReal)) : ∃ r : ℝ, l.foldl max (⊥ : EReal) = (r : EReal) := by
  refine exists_real_of_ne ?_ ?_
  · refine foldl_max_ne_top l ⊥ bot_ne_top fun a ha => ?_
    rcases hl a ha with h0 | ⟨r, hr⟩
    · rw [h0]; exact bot_ne_top
    · rw [hr]; exact EReal.coe_ne_top r
  · obtain ⟨a, ha, r, hr⟩ := h
    have hle : ((r : ℝ) : EReal) ≤ l.foldl max ⊥ := hr ▸ le_foldl_max_mem l ⊥ a ha
    exact ne_of_gt (lt_of_lt_of_le (EReal.bot_lt_coe r) hle)

/-- The supremum over a finite index set of entries each minus infinity or real, one of them real, is a real
    number. -/
theorem sup_real {J : Type} [Fintype J] (z : J → EReal) (hz : ∀ j, z j = ⊥ ∨ ∃ r : ℝ, z j = (r : EReal))
    (h : ∃ j, ∃ r : ℝ, z j = (r : EReal)) : ∃ r : ℝ, (Finset.univ.sup z) = (r : EReal) := by
  refine exists_real_of_ne ?_ ?_
  · refine ne_of_lt ((Finset.sup_lt_iff (bot_lt_top)).mpr fun j _ => ?_)
    rcases hz j with h0 | ⟨r, hr⟩
    · rw [h0]; exact bot_lt_top
    · rw [hr]; exact EReal.coe_lt_top r
  · obtain ⟨j, r, hr⟩ := h
    have hle : ((r : ℝ) : EReal) ≤ Finset.univ.sup z := hr ▸ Finset.le_sup (f := z) (Finset.mem_univ j)
    exact ne_of_gt (lt_of_lt_of_le (EReal.bot_lt_coe r) hle)

/-! ### Real numbers are closed under the operations

Each lemma says: when the arguments are real numbers, so is the result. They let a proof carry the fact that a value
is real through an expression, one operation at a time. -/

theorem exists_real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem exists_real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem exists_real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem exists_real_neg {x : EReal} (hx : ∃ r : ℝ, x = (r : EReal)) : ∃ r : ℝ, -x = (r : EReal) := by
  obtain ⟨a, rfl⟩ := hx; exact ⟨-a, (EReal.coe_neg a).symm⟩

theorem exists_real_max {x y : EReal} (hx : ∃ r : ℝ, x = (r : EReal)) (hy : ∃ r : ℝ, y = (r : EReal)) :
    ∃ r : ℝ, max x y = (r : EReal) := by
  rcases max_choice x y with h | h
  · rw [h]; exact hx
  · rw [h]; exact hy

theorem exists_real_min {x y : EReal} (hx : ∃ r : ℝ, x = (r : EReal)) (hy : ∃ r : ℝ, y = (r : EReal)) :
    ∃ r : ℝ, min x y = (r : EReal) := by
  rcases min_choice x y with h | h
  · rw [h]; exact hx
  · rw [h]; exact hy

/-- The quotient by a real that is not zero. -/
theorem exists_real_div {x y : EReal} (hx : ∃ r : ℝ, x = (r : EReal)) (hy : ∃ r : ℝ, y = (r : EReal) ∧ r ≠ 0) :
    ∃ r : ℝ, Ideal.div x y = (r : EReal) := by
  obtain ⟨a, rfl⟩ := hx; obtain ⟨b, rfl, hb⟩ := hy; exact ⟨a / b, div_coe_coe a b hb⟩

theorem exists_real_exp {x : EReal} (hx : ∃ r : ℝ, x = (r : EReal)) : ∃ r : ℝ, Ideal.exp x = (r : EReal) := by
  obtain ⟨a, rfl⟩ := hx; exact ⟨Real.exp a, Ideal.exp_coe a⟩

/-- The square root of a real that is not negative. -/
theorem exists_real_sqrt {x : EReal} (hx : ∃ r : ℝ, x = (r : EReal) ∧ 0 ≤ r) :
    ∃ r : ℝ, Ideal.sqrt x = (r : EReal) := by
  obtain ⟨a, rfl, ha⟩ := hx; exact ⟨Real.sqrt a, sqrt_coe_nonneg a ha⟩

/-- A finite sum of coerced reals. -/
theorem exists_real_sum {ι : Type} (S : Finset ι) (f : ι → ℝ) :
    ∃ r : ℝ, (∑ k ∈ S, ((f k : ℝ) : EReal)) = (r : EReal) :=
  ⟨∑ k ∈ S, f k, (coe_sum S f).symm⟩

/-- A finite sum whose every term is a real number. -/
theorem exists_real_sum_of {ι : Type} (S : Finset ι) (f : ι → EReal) (hf : ∀ k ∈ S, ∃ r : ℝ, f k = (r : EReal)) :
    ∃ r : ℝ, (∑ k ∈ S, f k) = (r : EReal) := by
  have hc : ∀ k ∈ S, f k = (((f k).toReal : ℝ) : EReal) := by
    intro k hk
    obtain ⟨r, hr⟩ := hf k hk
    rw [hr, EReal.toReal_coe]
  exact ⟨∑ k ∈ S, (f k).toReal, by rw [coe_sum, Finset.sum_congr rfl hc]⟩

end Cert.Spec
-- ==== Proof.RefValue.lean ====
/- The reference program's result, read at an index, is the specification's function G of the two argument arrays:
   the normalized rows, the similarities, the mask, the row maximum (a real number when the row has an unmasked
   pair), the softmax quotient by the shift law, and the last affine step. -/
import proofs.«424991_j3564822856140_2_alg».proof.Defs
import proofs.«424991_j3564822856140_2_alg».proof.Proof.RefRun
import proofs.«424991_j3564822856140_2_alg».proof.Proof.RefRead
import proofs.«424991_j3564822856140_2_alg».proof.Proof.Forms
import proofs.«424991_j3564822856140_2_alg».proof.Proof.SoftmaxLaw

noncomputable section

namespace Cert.RefValue

open Cert.ReferenceIdeal Cert.ReferenceIdeal.Read Idealize.ShloMosaic Idealize.ShloMosaic.ValueIdx Cert.Spec

/-- The argument arrays read by coordinates. -/
abbrev xf (x0 : (⟨S10000x512, .f32⟩ : BufTy).Contents (Elt Ideal)) : Fin 10000 → Fin 512 → EReal :=
  fun a b => x0 (ix2 a b)
abbrev af (x1 : (⟨S10000x10000, .i32⟩ : BufTy).Contents (Elt Ideal)) : Fin 10000 → Fin 10000 → BitVec 32 :=
  fun a b => x1 (ix2 a b)

/-- The reference's normalized rows are the specification's. -/
theorem nx_eq (x0 : (⟨S10000x512, .f32⟩ : BufTy).Contents (Elt Ideal)) (a : Fin 10000) (c : Fin 512) :
    val_main_v4 (F := Ideal) x0 (ix2 a c) = nx (xf x0) a c := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, Ideal.mulf_def, Ideal.hostDivf_def, Ideal.maximumf_def, Ideal.hostUnary_sqrt_def,
    Ideal.ofBits_def]
  have hi : ∀ k : Fin 512, idx_main_call0_v1 (idx_main_call0_v2 (idx_main_v3 (ix2 a c))) k = ix2 a k := fun k =>
    funext fun d => Fin.ext (by match d with | ⟨0, _⟩ => rfl | ⟨1, _⟩ => rfl)
  have h0 : Ideal.ofBits FTy.f32 0#32 = 0 := zeroW_eq
  simp only [hi, h0, zero_add]
  rfl

/-- The reference's similarities are the specification's. -/
theorem sim_eq (x0 : (⟨S10000x512, .f32⟩ : BufTy).Contents (Elt Ideal)) (a b : Fin 10000) :
    val_main_v8 (F := Ideal) x0 (ix2 a b) = sim (xf x0) a b := by
  rw [val_main_v8_apply, val_main_v6_apply, val_main_v7_apply, val_main_cst_0_apply]
  simp only [val_main_v5_apply, Ideal.hostDivf_def, Ideal.ofBits_def]
  have hl : ∀ k : Fin 512, lidx_main_v6 (ix2 a b) k = ix2 a k := fun k =>
    funext fun d => Fin.ext (by match d with | ⟨0, _⟩ => rfl | ⟨1, _⟩ => rfl)
  have hr : ∀ k : Fin 512, idx_main_v5 (ridx_main_v6 (ix2 a b) k) = ix2 b k := fun k =>
    funext fun d => Fin.ext (by match d with | ⟨0, _⟩ => rfl | ⟨1, _⟩ => rfl)
  simp only [hl, hr, nx_eq]
  rfl

/-- The reference's mask bit is set exactly on the masked pairs: an integer exceeds a threshold strictly between
    0 and 1 exactly when it is positive. -/
theorem mask_eq (x1 : (⟨S10000x10000, .i32⟩ : BufTy).Contents (Elt Ideal)) (a b : Fin 10000) :
    val_main_v11 (F := Ideal) x1 (ix2 a b) = 1#1 ↔ masked (af x1) a b := by
  rw [val_main_v11_apply, val_main_v9_apply, val_main_v10_apply, val_main_cst_1_apply]
  obtain ⟨t, ht0, ht1, ht⟩ := thrW_between
  have hw : FloatOps.ofBits (F := Ideal) FTy.f32 925353388#32 = ((t : ℝ) : EReal) := ht
  have hs : FloatOps.sitofp (F := Ideal) FTy.f32 (x1 (ix2 a b)) = (((x1 (ix2 a b)).toInt : ℝ) : EReal) := rfl
  rw [hw, hs, Ideal.cmpf_def]
  show _ ↔ 0 < (x1 (ix2 a b)).toInt
  generalize (x1 (ix2 a b)).toInt = n
  have key : ((t : ℝ) : EReal) < ((n : ℝ) : EReal) ↔ 0 < n := by
    rw [EReal.coe_lt_coe_iff]
    constructor
    · intro h
      have : (0 : ℝ) < n := lt_trans ht0 h
      exact_mod_cast this
    · intro h
      have : (1 : ℝ) ≤ n := by exact_mod_cast h
      linarith
  rw [← key]
  simp only [Ideal.cmp]
  by_cases h : ((t : ℝ) : EReal) < ((n : ℝ) : EReal) <;> simp [h]

/-! ### With real entries every intermediate up to the similarities is real -/

/-- With real entries the normalized rows are real: the sum of squares is not negative, its root is real, the clamp
    is positive, so the quotient is real. -/
theorem nx_real (x : Fin 10000 → Fin 512 → EReal) (hx : ∀ a c, ∃ r : ℝ, x a c = ((r : ℝ) : EReal))
    (a : Fin 10000) (c : Fin 512) : ∃ r : ℝ, nx x a c = ((r : ℝ) : EReal) := by
  choose xr hxr using hx
  obtain ⟨e, he0, he⟩ := epsW_pos
  have hs : (∑ c, x a c * x a c) = ((∑ c, xr a c * xr a c : ℝ) : EReal) := by
    rw [coe_sum]
    exact Finset.sum_congr rfl fun c _ => by rw [hxr, ← EReal.coe_mul]
  have hnn : 0 ≤ ∑ c, xr a c * xr a c := Finset.sum_nonneg fun c _ => mul_self_nonneg _
  have hrn : rowNorm x a = ((max (Real.sqrt (∑ c, xr a c * xr a c)) e : ℝ) : EReal) := by
    unfold rowNorm
    rw [hs, sqrt_coe_nonneg _ hnn, he]
    exact (EReal.coe_strictMono.monotone.map_max).symm
  refine ⟨xr a c / max (Real.sqrt (∑ c, xr a c * xr a c)) e, ?_⟩
  unfold nx
  rw [hrn, hxr, div_coe_coe _ _ (ne_of_gt (lt_of_lt_of_le he0 (le_max_right _ _)))]

/-- With real entries the similarities are real. -/
theorem sim_real (x : Fin 10000 → Fin 512 → EReal) (hx : ∀ a c, ∃ r : ℝ, x a c = ((r : ℝ) : EReal))
    (a b : Fin 10000) : ∃ r : ℝ, sim x a b = ((r : ℝ) : EReal) := by
  choose n hn using nx_real x hx
  refine ⟨∑ c, n a c * n b c, ?_⟩
  unfold sim
  rw [oneW_eq, EReal.coe_one, Cert.Spec.div_one, coe_sum]
  exact Finset.sum_congr rfl fun c _ => by rw [hn, hn, EReal.coe_mul]

/-! ### The masked similarities and their row maximum -/

/-- Row a of the masked similarities: minus infinity on the masked pairs. -/
abbrev zrow (x0 : (⟨S10000x512, .f32⟩ : BufTy).Contents (Elt Ideal)) (x1 : (⟨S10000x10000, .i32⟩ : BufTy).Contents (Elt Ideal))
    (a : Fin 10000) : Fin 10000 → EReal :=
  fun k => if masked (af x1) a k then (⊥ : EReal) else sim (xf x0) a k

/-- The select puts minus infinity on the masked pairs and keeps the similarity elsewhere. -/
theorem v12_eq (x0 : (⟨S10000x512, .f32⟩ : BufTy).Contents (Elt Ideal)) (x1 : (⟨S10000x10000, .i32⟩ : BufTy).Contents (Elt Ideal))
    (a b : Fin 10000) : val_main_v12 (F := Ideal) x0 x1 (ix2 a b) = zrow x0 x1 a b := by
  rw [val_main_v12_apply, val_main_call1_v1_apply, val_main_call1_v0_apply, val_main_cst_2_apply, sim_eq]
  by_cases h : masked (af x1) a b
  · rw [(mask_eq x1 a b).mpr h, select_one]
    show _ = if masked (af x1) a b then (⊥ : EReal) else sim (xf x0) a b
    rw [if_pos h]; exact negInfW_eq
  · rw [eq_zero_of_ne_one (fun h1 => h ((mask_eq x1 a b).mp h1)), select_zero]
    show _ = if masked (af x1) a b then (⊥ : EReal) else sim (xf x0) a b
    rw [if_neg h]

/-- A fold of the maximum from minus infinity is the supremum. -/
theorem fold_max_eq_sup {J : Type} (S : Finset J) (g : J → EReal) (b : EReal) (hb : b = ⊥) :
    S.fold (FloatOps.maximumf (F := Ideal) (φ := .f32)) b g = S.sup g := by
  subst hb; rfl

/-- The max-reduce along the row: the supremum of the row's masked similarities. -/
theorem v13_eq (x0 : (⟨S10000x512, .f32⟩ : BufTy).Contents (Elt Ideal)) (x1 : (⟨S10000x10000, .i32⟩ : BufTy).Contents (Elt Ideal))
    (a : Fin 10000) : val_main_v13 (F := Ideal) x0 x1 (ix1 a) = Finset.univ.sup (zrow x0 x1 a) := by
  unfold val_main_v13
  have h : S10000x10000.Reduces [1] S10000 := by decide
  rw [Host.reduce_eq_fold_single FloatOps.maximumf _ _ _ h _]
  have hg : (val_main_v12 (F := Ideal) x0 x1 ∘ h.lift (ix1 a)) = zrow x0 x1 a := funext fun (k : Fin 10000) => by
    have hk : h.lift (ix1 a) k = ix2 a k :=
      funext fun d => Fin.ext (by match d with | ⟨0, _⟩ => rfl | ⟨1, _⟩ => rfl)
    show val_main_v12 (F := Ideal) x0 x1 (h.lift (ix1 a) k) = _
    rw [hk, v12_eq]
  rw [hg]
  exact fold_max_eq_sup _ _ _ negInfW_eq

/-- The row maximum as the reference broadcasts it: the supremum (the maximum with minus infinity changes nothing). -/
theorem v17_eq (x0 : (⟨S10000x512, .f32⟩ : BufTy).Contents (Elt Ideal)) (x1 : (⟨S10000x10000, .i32⟩ : BufTy).Contents (Elt Ideal))
    (a b : Fin 10000) : val_main_v17 (F := Ideal) x0 x1 (ix2 a b) = Finset.univ.sup (zrow x0 x1 a) := by
  rw [val_main_v17_apply, val_main_v16_apply, val_main_v15_apply, val_main_v14_apply, val_main_cst_4_apply]
  have hi : idx_main_v16 (idx_main_v17 (ix2 a b)) = ix1 a :=
    funext fun d => Fin.ext (by match d with | ⟨0, _⟩ => rfl)
  rw [hi, v13_eq]
  show max (Ideal.ofBits .f32 0xFF800000#32) _ = _
  rw [show Ideal.ofBits .f32 0xFF800000#32 = ⊥ from negInfW_eq, max_bot_left]

/-- The row maximum is a real number when the row has an unmasked pair: every entry is minus infinity or real, and
    the unmasked one is real. -/
theorem rowmax_real (x0 : (⟨S10000x512, .f32⟩ : BufTy).Contents (Elt Ideal)) (x1 : (⟨S10000x10000, .i32⟩ : BufTy).Contents (Elt Ideal))
    (hx : ∀ i, ∃ r : ℝ, x0 i = ((r : ℝ) : EReal)) (a : Fin 10000) (hrow : ∃ q, ¬ masked (af x1) a q) :
    ∃ M : ℝ, Finset.univ.sup (zrow x0 x1 a) = ((M : ℝ) : EReal) := by
  have hx' : ∀ a c, ∃ r : ℝ, xf x0 a c = ((r : ℝ) : EReal) := fun a c => hx (ix2 a c)
  refine sup_real _ (fun j => ?_) ?_
  · by_cases h : masked (af x1) a j
    · exact Or.inl (if_pos h)
    · obtain ⟨r, hr⟩ := sim_real (xf x0) hx' a j
      exact Or.inr ⟨r, (if_neg h).trans hr⟩
  · obtain ⟨q, hq⟩ := hrow
    obtain ⟨r, hr⟩ := sim_real (xf x0) hx' a q
    exact ⟨q, r, (if_neg hq).trans hr⟩

/-- The shifted exponentials. -/
theorem v19_eq (x0 : (⟨S10000x512, .f32⟩ : BufTy).Contents (Elt Ideal)) (x1 : (⟨S10000x10000, .i32⟩ : BufTy).Contents (Elt Ideal))
    (a b : Fin 10000) :
    val_main_v19 (F := Ideal) x0 x1 (ix2 a b) = Ideal.exp (zrow x0 x1 a b - Finset.univ.sup (zrow x0 x1 a)) := by
  rw [val_main_v19_apply, val_main_v18_apply, v12_eq, v17_eq]
  rfl

/-- The softmax quotient: a shifted exponential over the row's sum of them. -/
theorem v23_eq (x0 : (⟨S10000x512, .f32⟩ : BufTy).Contents (Elt Ideal)) (x1 : (⟨S10000x10000, .i32⟩ : BufTy).Contents (Elt Ideal))
    (a b : Fin 10000) :
    val_main_v23 (F := Ideal) x0 x1 (ix2 a b)
      = Ideal.div (Ideal.exp (zrow x0 x1 a b - Finset.univ.sup (zrow x0 x1 a)))
          ((0 : EReal) + ∑ k, Ideal.exp (zrow x0 x1 a k - Finset.univ.sup (zrow x0 x1 a))) := by
  rw [val_main_v23_apply, val_main_v22_apply, val_main_v21_apply, val_main_v20_apply, val_main_cst_5_apply, v19_eq]
  have hi : ∀ k : Fin 10000, idx_main_v20 (idx_main_v21 (idx_main_v22 (ix2 a b))) k = ix2 a k := fun k =>
    funext fun d => Fin.ext (by match d with | ⟨0, _⟩ => rfl | ⟨1, _⟩ => rfl)
  simp only [hi, v19_eq, Ideal.hostDivf_def, Ideal.ofBits_def]
  rw [show Ideal.ofBits FTy.f32 0#32 = 0 from zeroW_eq]

/-- The weighted average of the rows: by the shift law, the quotient of the weighted sum by the total weight, both
    at the shift 0. -/
theorem v24_eq (x0 : (⟨S10000x512, .f32⟩ : BufTy).Contents (Elt Ideal)) (x1 : (⟨S10000x10000, .i32⟩ : BufTy).Contents (Elt Ideal))
    (hx : ∀ i, ∃ r : ℝ, x0 i = ((r : ℝ) : EReal)) (p : Fin 10000) (hrow : ∃ q, ¬ masked (af x1) p q) (d : Fin 512) :
    val_main_v24 (F := Ideal) x0 x1 (ix2 p d)
      = Ideal.div (∑ j, pw (xf x0) (af x1) p j * xf x0 j d) (∑ j, pw (xf x0) (af x1) p j) := by
  have hx' : ∀ a c, ∃ r : ℝ, xf x0 a c = ((r : ℝ) : EReal) := fun a c => hx (ix2 a c)
  obtain ⟨M, hM⟩ := rowmax_real x0 x1 hx p hrow
  choose s hs using fun j => sim_real (xf x0) hx' p j
  choose v hv using fun j => hx' j d
  rw [val_main_v24_apply]
  have hl : ∀ k : Fin 10000, lidx_main_v24 (ix2 p d) k = ix2 p k := fun k =>
    funext fun e => Fin.ext (by match e with | ⟨0, _⟩ => rfl | ⟨1, _⟩ => rfl)
  have hr : ∀ k : Fin 10000, ridx_main_v24 (ix2 p d) k = ix2 k d := fun k =>
    funext fun e => Fin.ext (by match e with | ⟨0, _⟩ => rfl | ⟨1, _⟩ => rfl)
  simp only [hl, hr, v23_eq, hM]
  have key := softmax_shift (fun j => masked (af x1) p j) s v M hrow
  simp only [← hs, ← hv] at key
  exact key

/-- THE REFERENCE'S RESULT IS G: the last affine step, the words 2 and 1 standing as the program spells them. -/
theorem ref_eq_G
    (x0 : (⟨Cert.ReferenceIdeal.S10000x512, .f32⟩ : BufTy).Contents (Elt Ideal)) (x1 : (⟨Cert.ReferenceIdeal.S10000x10000, .i32⟩ : BufTy).Contents (Elt Ideal))
    (hx : ∀ i, ∃ r : ℝ, x0 i = ((r : ℝ) : EReal))
    (hrow : ∀ p : Fin 10000, ∃ q : Fin 10000, ¬ (0 < (x1 (ValueIdx.ix2 p q)).toInt))
    (p : Fin 10000) (d : Fin 512) :
    Cert.ReferenceIdeal.Read.val_main_v29 (F := Ideal) x0 x1 (ValueIdx.ix2 p d)
      = Cert.Spec.G (fun a b => x0 (ValueIdx.ix2 a b)) (fun a b => x1 (ValueIdx.ix2 a b)) p d := by
  have hrow' : ∃ q, ¬ masked (af x1) p q := hrow p
  rw [val_main_v29_apply, val_main_v26_apply, val_main_v28_apply, val_main_v25_apply, val_main_v27_apply,
    val_main_cst_6_apply, val_main_cst_7_apply, v24_eq x0 x1 hx p hrow' d]
  rfl

end Cert.RefValue
end
-- ==== Proof.PreDecode.lean ====
/-
  The precondition of this unit, read back at the extended reals: every entry of the float operand is a real
  number, and every row of the integer mask has an entry that is not positive.
-/
import proofs.«424991_j3564822856140_2_alg».proof.Pre_finite_inputs
import Idealize.ShloMosaic.Lib.ReduceAll
import Idealize.ShloMosaic.Lib.ValueIdx
import Idealize.ShloMosaic.Lib.StableHlo.Predicate
import Idealize.ShloMosaic.PureOps.Ideal
import Idealize.ShloMosaic.PureOps.Reduce

noncomputable section

namespace Cert.PreDecode

open Idealize.ShloMosaic Cert.Pre_finite_inputs

variable [Facts]

/-- The scalar shape has one index. -/
instance : Subsingleton S_.Idx := ⟨fun _ _ => funext fun d => d.elim0⟩

/-- A left fold by `and` from 1 over a list whose every term is 1 is 1. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, hl => by
    have ha : f a = 1#1 := hl a List.mem_cons_self
    rw [List.foldl_cons, ha, show IntOp.andi 1#1 1#1 = 1#1 from rfl]
    exact foldl_andi_of_all_one f l fun n hn => hl n (List.mem_cons_of_mem a hn)

/-- A one-bit word made from a Boolean is 1 only if the Boolean is true. -/
theorem eq_true_of_ofBool {b : Bool} (h : BitVec.ofBool b = 1#1) : b = true := by
  cases b
  · exact absurd h (by decide)
  · rfl

/-- The pattern `0x7F800000` is `+∞`. -/
theorem ofBits_inf : Ideal.ofBits .f32 0x7F800000#32 = ⊤ := by simp [Ideal.ofBits, Ideal.ieee]

/-- An extended real whose absolute value `max x (-x)` is below `+∞` is a real number. -/
theorem real_of_abs_lt_top (x : EReal) (hx : max x (-x) < ⊤) : ∃ r : ℝ, x = ((r : ℝ) : EReal) := by
  induction x using EReal.rec with
  | bot => simp at hx
  | coe r => exact ⟨r, rfl⟩
  | top => simp at hx

theorem x_real (x : FVec Ideal S10000x512 .f32) (adj : IVec S10000x10000 32)
    (h : fn (F := Ideal) x adj = fun _ => 1#1) (i : S10000x512.Idx) : ∃ r : ℝ, x i = ((r : ℝ) : EReal) := by
  have h0 := congrFun h ValueIdx.ix0
  dsimp only [fn] at h0
  obtain ⟨h1, -⟩ := IntOp.andi_eq_one.1 h0
  have h2 := Host.reduce_andi_all _ _ _ _ _ h1 i
  have hb := StableHlo.Predicate.bcast_scalar (t := S10000x512) Facts.bcast_S_S10000x512 Facts.h_S_
    (constant (F := Ideal) S_ .f32 0x7F800000#32) i
  change Ideal.cmp .olt (max (x i) (-(x i)))
    (broadcastInDim S10000x512 ![] Facts.bcast_S_S10000x512 (constant (F := Ideal) S_ .f32 0x7F800000#32) i) = 1#1 at h2
  rw [hb] at h2
  change BitVec.ofBool (decide (max (x i) (-(x i)) < Ideal.ofBits .f32 0x7F800000#32)) = 1#1 at h2
  rw [ofBits_inf] at h2
  exact real_of_abs_lt_top (x i) (of_decide_eq_true (eq_true_of_ofBool h2))

theorem row_open (x : FVec Ideal S10000x512 .f32) (adj : IVec S10000x10000 32)
    (h : fn (F := Ideal) x adj = fun _ => 1#1) (p : Fin 10000) :
    ∃ q : Fin 10000, ¬ (0 < (adj (ValueIdx.ix2 p q)).toInt) := by
  have h0 := congrFun h ValueIdx.ix0
  dsimp only [fn] at h0
  obtain ⟨-, h1⟩ := IntOp.andi_eq_one.1 h0
  have h2 := Host.reduce_andi_eq_one _ _ _ _ _ h1 (ValueIdx.ix1 p) (Subsingleton.elim _ _)
  have h3 := IntOp.not_eq_one.1 h2
  by_contra hall
  push Not at hall
  apply h3
  rw [Host.reduce_eq_foldl]
  refine foldl_andi_of_all_one _ _ fun j hj => ?_
  have hd : Facts.reducesTo_S10000x10000_S10000_d1.drop j = ValueIdx.ix1 p := of_decide_eq_true (List.mem_filter.1 hj).2
  have hp : j 0 = p := by
    refine Fin.ext ?_
    rw [← Shape.ReducesTo.drop_apply_val_of_eq Facts.reducesTo_S10000x10000_S10000_d1 j 0 0, hd]
  have hj2 : j = ValueIdx.ix2 p (j 1) := by rw [← hp]; exact ValueIdx.eq_ix2 j
  rw [hj2]
  have hb := StableHlo.Predicate.bcast_scalar (t := S10000x10000) Facts.bcast_S_S10000x10000 Facts.h_S_
    (constantI S_ 32 0#32) (ValueIdx.ix2 p (j 1))
  change IntOp.cmpi .sgt (adj (ValueIdx.ix2 p (j 1)))
    (broadcastInDim S10000x10000 ![] Facts.bcast_S_S10000x10000 (constantI S_ 32 0#32) (ValueIdx.ix2 p (j 1))) = 1#1
  rw [hb]
  exact IntOp.cmpi_sgt.2 (hall (j 1))

end Cert.PreDecode

end
-- ==== Proof.KI_R0.lean ====
/-
  REGION 0 of the program: the call that normalises the rows of the float operand, on a grid of five row blocks of
  2000 rows, stated at the contents `V` the TensorCore's buffers hold when the region is entered. The body loads the
  block of window 0 whole and stores two whole blocks: into window 1 the rows scaled by the reciprocal of their clamped
  Euclidean norm, into window 2 the rows themselves, both narrowed to bf16. Below: each window's block at a point, what the
  body leaves in the two output buffers, the body's triple, the pipeline's proof data and its body obligation.
-/
import proofs.«424991_j3564822856140_2_alg».proof.Proof.Gen.KernelIdeal.Launch
import proofs.«424991_j3564822856140_2_alg».proof.Proof.Gen.KernelIdeal.Skeleton
import proofs.«424991_j3564822856140_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The one rectangle the body reads and writes through -/

/-- The whole 2000 × 512 block, as the rectangle at offsets (0, 0) of the block's own extents. -/
abbrev wholeBlock : Rect S2000x512 := Rect.unit (s := S2000x512) ![0, 0] S2000x512.size inb_S2000x512_S2000x512_0_0

/-- Its offsets are zero on both axes. -/
theorem wholeBlock_off : (![0, 0] : Fin S2000x512.rank → Nat) = fun _ => 0 := by
  funext a
  match a with
  | ⟨0, _⟩ => rfl
  | ⟨1, _⟩ => rfl

/-- A single store through it covers every index of the block. -/
theorem wholeBlock_covers {e : EltTy} (w : wholeBlock.shape.Idx → Elt F e) (y : S2000x512.Idx) :
    ∃ pc ∈ ([⟨wholeBlock, w⟩] : List (View.Piece (Elt F) S2000x512 e)), y ∈ pc.1.set :=
  ⟨_, List.mem_singleton_self _, View.mem_set_unit_zero wholeBlock_off inb_S2000x512_S2000x512_0_0 y⟩

/-! ## What the body leaves in each output window's buffer -/

/-- Window 1's buffer after the body: its one store, of the normalised rows narrowed to bf16, over the input block. -/
def out0_1 (x0 : Vec F S2000x512 .f32) : Vec F S2000x512 .bf16 :=
  View.canon [⟨wholeBlock, k0_pay1 (View.ld x0 wholeBlock)⟩]

/-- Window 2's buffer after the body: its one store, of the input block narrowed to bf16. -/
def out0_2 (x0 : Vec F S2000x512 .f32) : Vec F S2000x512 .bf16 :=
  View.canon [⟨wholeBlock, k0_pay2 (View.ld x0 wholeBlock)⟩]

/-- The store is whole and the load is whole: window 1 ends at the first payload of the block, -/
theorem out0_1_eq (x0 : Vec F S2000x512 .f32) : out0_1 x0 = k0_pay1 x0 := by
  unfold out0_1
  rw [View.canon_unit_zero wholeBlock_off, View.ld_unit_zero wholeBlock_off]

/-- and window 2 at the second. -/
theorem out0_2_eq (x0 : Vec F S2000x512 .f32) : out0_2 x0 = k0_pay2 x0 := by
  unfold out0_2
  rw [View.canon_unit_zero wholeBlock_off, View.ld_unit_zero wholeBlock_off]

/-! ## The body's triple -/

set_option maxHeartbeats 1000000 in
/-- The body on three whole staging memrefs — the input's at read contents `x0`, the two outputs' at anything — runs to
    a continuation that holds the input's as it was, the first output's at `out0_1 x0` and the second's at `out0_2 x0`. -/
theorem sound_kernel0 (c : Dev nD) (E : Set ℕ) (i : grid0.Coords)
    (src : Memref sig .tc .vmem S2000x512 .f32) (hsrc : src.IsWhole)
    (dstN : Memref sig .tc .vmem S2000x512 .bf16) (hdstN : dstN.IsWhole)
    (dstX : Memref sig .tc .vmem S2000x512 .bf16) (hdstX : dstX.IsWhole)
    (x0 : Vec F S2000x512 .f32) (K : PUnit → sProp 𝕄) :
    iprop(owns (c : Thread nD τ) src fullShare x0 ∗ (∃ d, owns (c : Thread nD τ) dstN fullShare d)
        ∗ (∃ d, owns (c : Thread nD τ) dstX fullShare d)
        ∗ (iprop(owns (c : Thread nD τ) src fullShare x0 ∗ owns (c : Thread nD τ) dstN fullShare (out0_1 x0)
            ∗ owns (c : Thread nD τ) dstX fullShare (out0_2 x0)) -∗ K ⟨⟩))
      ⊢ wp frame (wpE (defs₀ (F := F)) Variants.none c none) E (cc0__norm_kernel i src hsrc dstN hdstN dstX hdstX) K := by
  simp only [cc0__norm_kernel_eq_skeleton]; unfold cc0__norm_kernel_skel
  unfold owns
  iintro ⟨⟨%fS, %hS, HS⟩, ⟨%dN, %fN, -, HN⟩, ⟨%dX, %fX, -, HX⟩, Hk⟩
  subst hS
  sl_exec
  sl_step
  iapply Hk
  -- the input's buffer was only read; each output's holds one covering store over whatever it held
  isplitl [HS]
  · iexists fS; isplitr
    · ipureintro; rfl
    · iexact HS
  isplitl [HN]
  · iexists _; isplitr
    on_goal 2 => iexact HN
    ipureintro
    exact View.read_writes_eq_canon dstN.view fN _ (wholeBlock_covers _)
  · iexists _; isplitr
    on_goal 2 => iexact HX
    ipureintro
    exact View.read_writes_eq_canon dstX.view fX _ (wholeBlock_covers _)

/-! ## The pipeline's proof data -/

/-- The proof data of the region's pipeline on core `c`: the arrays as the region finds them; after the body at point
    `t` the input's buffer still at its block, window 1's at `out0_1` of that block and window 2's at `out0_2` of it;
    the invariant is the untouched rest of the core's scoped memory and its generator register; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- Its arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input window is fetched at every one of the five points and its blocks are uncut, so its current buffer holds
    its block whenever the body runs, whatever the buffer held before. -/
theorem before0_0 (c : Dev nD) (t : Fin cfg0.N) (d) : (dat0 V c).before 0 t d = iblk0 V c 0 t := by
  rw [(dat0 V c).before_fetched 0 t (fetch0_0 t) d]
  unfold Dat.fetched Dat.blockOf iblk0
  rw [A_eq0]
  rfl

/-! ## The body obligation -/

/-- The body at point `t`, called on the three current staging memrefs: from the invariant, the core's debt and the three
    buffers as the pipeline hands them over, to the same invariant and debt and the three buffers at what the proof data
    says the body leaves. The invariant and the debt do not depend on the point and pass through untouched. -/
theorem sound_point0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t))) := by
  have hinv : (dat0 V c).Φ t.succ = (dat0 V c).Φ t.castSucc := rfl
  have hdebt : (dat0 V c).owesAt () t.succ = (dat0 V c).owesAt () t.castSucc := rfl
  rw [hinv, hdebt]
  simp only [before0_0, after0_0, after0_1, after0_2]
  iintro ⟨Hinv, Hdebt, ⟨%d0, Hsrc⟩, ⟨%d1, HdstN⟩, ⟨%d2, HdstX⟩⟩
  iapply (sound_kernel0 c Set.univ (grid0.coords t) _ _ _ _ _ _ (iblk0 V c 0 t) _)
  isplitl [Hsrc]; · iexact Hsrc
  isplitl [HdstN]; · iexists _; iexact HdstN
  isplitl [HdstX]; · iexists _; iexact HdstX
  iintro ⟨Hsrc, HdstN, HdstX⟩
  isplitl [Hinv]; · iexact Hinv
  isplitl [Hdebt]; · iexact Hdebt
  isplitl [Hsrc]; · iexact Hsrc
  isplitl [HdstN]; · iexact HdstN
  iexact HdstX

/-- The library's body obligation, at every point. -/
theorem body_obligation0 (c : Dev nD) : BodyObligation (dat0 (F := F) V c) (defs₀ (F := F)) Variants.none () Set.univ := fun t => by
  rw [bigSep_W0, bigSep_W0]
  exact sound_point0 V c t

end Cert.KernelIdeal.Hand

end
-- ==== Proof.KI_LaunchDefs.lean ====
/-
  The buffers' contents at the boundary between the two regions of the program, and the shares at which the second
  region holds its input arrays. Region 0 leaves its three arrays at what its pipeline's write-backs make of them (its
  input as launched) and touches no other buffer; region 1 reads the normalised rows through two windows, each of which
  holds one half of the full share of that array.
-/
import proofs.«424991_j3564822856140_2_alg».proof.Proof.Gen.KernelIdeal.Launch
import proofs.«424991_j3564822856140_2_alg».proof.Proof.KI_R0
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.ShloMosaic.Pipeline (Dat RDat Cfg Window)

variable {F : FTy → Type} [FloatOps F]

variable (m : (ℓ : Loc nD τ sig) → Buf (Elt F) ℓ)

/-! ## The buffers' contents at the two region boundaries -/

/-- What the TensorCore's buffers hold at launch, read at its references. -/
abbrev V0 : (c : Dev nD) → (b : Ref sig .tc) → Buf (Elt F) ((c : Thread nD τ).loc b) := fun c b => m ((c : Thread nD τ).loc b)

/-- Every buffer of core `c` when region 1 is entered: region 0's three arrays at what its pipeline leaves (the input as
    launched, each output's write-backs folded), every other buffer as launched. -/
def W1 (c : Dev nD) : Valuation τ sig (Elt F) :=
  Pipeline.withArrays spec0 c (fun b => m (c, b)) fun w => (dat0 (V0 m) c).arrAt w cfg0.N

/-- The same read at the TensorCore's references. -/
abbrev V1 : (c : Dev nD) → (b : Ref sig .tc) → Buf (Elt F) ((c : Thread nD τ).loc b) := fun c b => W1 m c b

/-- Each array of region 0 holds what the pipeline leaves in it. -/
theorem V1_arr (c : Dev nD) (w : Fin cfg0.W) : V1 m c (Pipeline.arrRef spec0 w) = (dat0 (V0 m) c).arrAt w cfg0.N :=
  Pipeline.withArrays_arr spec0 launch0.win.arr_inj c _ _ w

/-- A buffer that is no array of region 0 is as launched. -/
theorem V1_of_ne (c : Dev nD) (b : Ref sig .tc) (hb : ∀ w, Pipeline.arrRef spec0 w ≠ b) :
    V1 m c b = m ((c : Thread nD τ).loc b) :=
  Pipeline.withArrays_of_ne spec0 c _ _ b hb

/-- The integer operand is no array of region 0. -/
theorem V1_main_arg1 (c : Dev nD) : V1 m c main_arg1 = m ((c : Thread nD τ).loc main_arg1) :=
  V1_of_ne m c main_arg1 (by decide)

/-- The float operand is region 0's input: never written back, so as launched. -/
theorem V1_main_arg0 (c : Dev nD) : V1 m c main_arg0 = m ((c : Thread nD τ).loc main_arg0) :=
  (V1_arr m c 0).trans (((dat0 (V0 m) c).arrAt_in 0 rfl _).trans (A_eq0 (V0 m) c 0))

/-! ## The shares of region 1's input arrays -/

/-- Windows 0 and 1 read one array, the normalised rows: each holds a half of the full share of it. Every other window's
    array is held whole. -/
def q1 : Fin 6 → PosShare TreeShare := fun w =>
  if w = 0 then fullShare.left else if w = 1 then fullShare.right else fullShare

/-- The two halves make the full share. -/
theorem q1_halves : fullShare ∈ PCS.op (q1 0) (q1 1) := PosShare.mem_left_op_right fullShare

end Cert.KernelIdeal.Hand

end
-- ==== Proof.KI_Launch.lean ====
/-
  THE LAUNCH of the program's two regions, for any relational proof data of region 1. @main is the two kernel regions
  and nothing else. Between them core `c` holds every unscoped buffer whole — at the launch contents before region 0, at
  `W1` after it, and after region 1 at `W1` but for the output buffer, which holds some contents region 1's data allow
  after every write-back — beside its generator register at some state and its `owes` at nothing. Region 0's three
  arrays are distinct buffers. Region 1's six arrays stand on five buffers, all the unscoped buffers the core has: the
  normalised rows are read through two windows, each holding one half of the full share; the halves are split at the
  region's entry and rejoined at its exit, and an input array is never written, so every input buffer leaves as it came.
-/
import proofs.«424991_j3564822856140_2_alg».proof.Proof.Gen.KernelIdeal.Launch
import proofs.«424991_j3564822856140_2_alg».proof.Proof.Gen.KernelIdeal.Regions
import proofs.«424991_j3564822856140_2_alg».proof.Proof.KI_R0
import proofs.«424991_j3564822856140_2_alg».proof.Proof.KI_LaunchDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

variable (rd1 : (c : Dev nD) → RDat τ (Elt F) Unit ℕ (UR sig nD τ) ℕ cfg1 c)

/-- Every pipeline's proof data: region 0's exact data at the launch contents, read relationally; region 1's the given
    relational data. -/
def rdats : (p : Fin 2) → (c : Dev nD) → RDat τ (Elt F) Unit ℕ (UR sig nD τ) ℕ (Pipeline.pin (pcfgs (F := F)) adm p) c
  | ⟨0, _⟩ => fun c => (dat0 (V0 m) c).toR
  | ⟨1, _⟩ => fun c => rd1 c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through both regions: the core's generator register at some state and its `owes`, at
    nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every buffer of core `c` when region 1 is left, if its output array then holds `F5`: that array at `F5`, every other
    buffer as region 1 found it. -/
def W2 (c : Dev nD) (F5 : Buf (Elt F) ((c : Thread nD τ).loc main_v1)) : Valuation τ sig (Elt F) :=
  Function.update (W1 m c) main_v1 F5

abbrev V2 (c : Dev nD) (F5 : Buf (Elt F) ((c : Thread nD τ).loc main_v1)) : (b : Ref sig .tc) → Buf (Elt F) ((c : Thread nD τ).loc b) :=
  fun b => W2 m c F5 b

theorem V2_main_v1 (c : Dev nD) (F5) : V2 m c F5 main_v1 = F5 := by
  show Function.update (W1 m c) (Proc.devRef .tc main_v1) F5 (Proc.devRef .tc main_v1) = F5
  exact Function.update_self ..

theorem V2_of_ne (c : Dev nD) (F5) (b : Ref sig .tc) (h : b ≠ main_v1) : V2 m c F5 b = V1 m c b := by
  show Function.update (W1 m c) (Proc.devRef .tc main_v1) F5 (Proc.devRef .tc b) = W1 m c (Proc.devRef .tc b)
  exact Function.update_of_ne (StableHlo.devRef_ne_of_ne h) ..

/-- The last thread state without the `owes`: region 1's output array at some contents it may hold after every
    write-back, every other unscoped buffer as region 1 found it, the generator register at some state. -/
abbrev Tₙ (c : Dev nD) : sProp 𝕄 :=
  iprop(∃ F5, ⌜(rd1 c).ArrAt 5 cfg1.N F5⌝ ∗ StableHlo.held (c : Thread nD τ) (Pipeline.ucRefs τ sig) (W2 m c F5) ∗ ∃ r, prngReg c r)

/-! ## The thread states as the launch's unscoped buffers -/

theorem held_launch (c : Dev nD) :
    (StableHlo.held (c : Thread nD τ) (Pipeline.ucRefs τ sig) (fun b => m (c, b)) : sProp 𝕄)
      = unscopedBufs (Ix := Unit) (Name := ℕ) (U := UR sig nD τ) (Lvl := ℕ) c (V0 m c) :=
  (Pipeline.unscopedBufs_held c (fun b => m (c, b))).symm

theorem held_W1 (c : Dev nD) :
    (StableHlo.held (c : Thread nD τ) (Pipeline.ucRefs τ sig) (W1 m c) : sProp 𝕄)
      = unscopedBufs (Ix := Unit) (Name := ℕ) (U := UR sig nD τ) (Lvl := ℕ) c (V1 m c) :=
  (Pipeline.unscopedBufs_held c (W1 m c)).symm

theorem held_W2 (c : Dev nD) (F5) :
    (StableHlo.held (c : Thread nD τ) (Pipeline.ucRefs τ sig) (W2 m c F5) : sProp 𝕄)
      = unscopedBufs (Ix := Unit) (Name := ℕ) (U := UR sig nD τ) (Lvl := ℕ) c (V2 m c F5) :=
  (Pipeline.unscopedBufs_held c (W2 m c F5)).symm

/-! ## The regions as segments -/

/-- At region 0's exit each of its arrays holds what the pipeline leaves and every other buffer what it held at launch. -/
theorem hF0 (c : Dev nD) (w : Fin cfg0.W) : (dat0 (V0 m) c).arrAt w cfg0.N = V1 m c (Pipeline.arrRef spec0 w) :=
  (V1_arr m c w).symm
theorem hrest0 (c : Dev nD) : ∀ b, b ∉ Finset.univ.image (Pipeline.arrRef spec0) → V1 m c b = V0 m c b :=
  fun b hb => V1_of_ne m c b fun w e => hb (Finset.mem_image.mpr ⟨w, Finset.mem_univ _, e⟩)

set_option backward.isDefEq.respectTransparency.types false in
/-- REGION 0 over the thread state: entered from every unscoped buffer as launched, left at `W1`. Its three arrays are
    distinct buffers, split out of the unscoped buffers at entry and put back at the exit contents; the generator register
    goes into the pipeline's invariant and comes back; nothing is owed; the kernel has no semaphore of its own. -/
def reg0 : Pipeline.RDat.RegionSeg (pcfgs (F := F)) adm (rdats m rd1) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).toR
  hwaits := Pipeline.RDat.hwaits_of_owed_zero _ _ _ _ L lv 0 fun _ _ => rfl
  pre c := iprop(StableHlo.held (c : Thread nD τ) (Pipeline.ucRefs τ sig) (fun b => m (c, b)) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none, held_launch]
    have hsplit := Pipeline.RDat.arrays_of_unscopedBufs (p := 0) (pcfgs (F := F)) adm (rdats m rd1) launch0.win launch0.arr_whole c
      ((dat0 (V0 m) c).share_full fun _ => rfl) (V0 m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m rd1 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m rd1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (P := Unit) (p := ()) (fun _ => pcfgs (F := F) 0) (fun _ => adm 0)
      (Ix := Unit) (Name := ℕ) (U := UR sig nD τ) (Lvl := ℕ)
      launch0.win launch0.arr_whole c (fun _ c => dat0 (V0 m) c) ((dat0 (V0 m) c).share_full fun _ => rfl)
      (V0 m c) (V1 m c) ((dat0 (V0 m) c).arrAt · cfg0.N) (hF0 m c) (hrest0 m c)
    have e : (rdats m rd1 0 c).arraysAt (Pipeline.pin (pcfgs (F := F)) adm 0).N
        = ((dat0 (V0 m) c).arrays ((dat0 (V0 m) c).arrAt · cfg0.N) : sProp 𝕄) := (dat0 (V0 m) c).toR_arraysAt_eq cfg0.N
    rw [held_W1, e]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## Region 1's arrays and the buffers behind them -/

/-- The distinct buffers behind region 1's six arrays are five: the normalised rows (read through windows 0 and 1), the
    narrowed rows, the integer operand, the float operand and the output. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0_0) ↦{fullShare} V main_v0_0) ∗ (((c : Thread nD τ).loc main_v0_1) ↦{fullShare} V main_v0_1)
          ∗ (((c : Thread nD τ).loc main_arg1) ↦{fullShare} V main_arg1) ∗ (((c : Thread nD τ).loc main_arg0) ↦{fullShare} V main_arg0)
          ∗ (((c : Thread nD τ).loc main_v1) ↦{fullShare} V main_v1)) := by
  unfold Pipeline.arrBufs
  exact bigSep_eq_bigSepL_of_eq [main_v0_0, main_v0_1, main_arg1, main_arg0, main_v1] (by decide) (by decide) _

/-- They are all the unscoped buffers the TensorCore has. -/
theorem unscopedBufs1_eq (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_v0_0) ↦{fullShare} V main_v0_0) ∗ (((c : Thread nD τ).loc main_v0_1) ↦{fullShare} V main_v0_1)
          ∗ (((c : Thread nD τ).loc main_arg1) ↦{fullShare} V main_arg1) ∗ (((c : Thread nD τ).loc main_arg0) ↦{fullShare} V main_arg0)
          ∗ (((c : Thread nD τ).loc main_v1) ↦{fullShare} V main_v1)) := by
  have h := Pipeline.unscopedBufs_split₀ cfgs 1 winFacts₀1.arr_unscoped (Ix := Unit) (Name := ℕ) (U := UR sig nD τ) (Lvl := ℕ) (Val := Elt F) c V
  have h' : (unscopedBufs (Ix := Unit) (Name := ℕ) (U := UR sig nD τ) (Lvl := ℕ) c V : sProp 𝕄)
      = iprop(Pipeline.arrBufs spec1 c V ∗ Pipeline.unscopedRest spec1 c V) := h
  rw [h', unscopedRest1_eq, arrBufs1_eq]
  exact equiv_iff.mp sep_emp

/-- Window `w`'s array, held by the proof data at its share, is a points-to on the whole buffer behind it: at the
    window's share of `q1` for an input, at the full share for the output. -/
theorem arr1_pt (hq : ∀ c, (rd1 c).q = q1) (c : Dev nD) (w : Fin cfg1.W)
    (G : Buf (Elt F) ((cfg1.win w).arr.view.loc (c : Thread nD τ))) :
    ((cfg1.win w).arr.view.loc (c : Thread nD τ) ↦[(cfg1.win w).arr.view.set]{(rd1 c).share w} G : sProp 𝕄)
      = (((c : Thread nD τ).loc (Pipeline.arrRef spec1 w)) ↦{if (cfg1.win w).isOut then fullShare else q1 w} G) := by
  have hwh : (cfg1.win w).arr.IsWhole := arr_whole1 w
  rw [hwh.set_eq_univ]; unfold RDat.share; rw [hq c]

/-- ENTRY of region 1, the arrays' part: the five buffers, whole at the contents region 1 is entered at, make the proof
    data's six arrays at their entry contents — the normalised rows' buffer split into its two half shares, one for each
    of the two windows that read it. -/
theorem arrays_entry1 (hA : ∀ c w, (rd1 c).A w = V1 m c (Pipeline.arrRef spec1 w)) (hq : ∀ c, (rd1 c).q = q1) (c : Dev nD) :
    (unscopedBufs (Ix := Unit) (Name := ℕ) (U := UR sig nD τ) (Lvl := ℕ) c (V1 m c) : sProp 𝕄)
      ⊢ (rd1 c).arrays (rd1 c).A := by
  rw [unscopedBufs1_eq]; unfold RDat.arrays; rw [bigSep_W1]
  rw [arr1_pt rd1 hq c 0, arr1_pt rd1 hq c 1, arr1_pt rd1 hq c 2, arr1_pt rd1 hq c 3, arr1_pt rd1 hq c 4, arr1_pt rd1 hq c 5,
    hA c 0, hA c 1, hA c 2, hA c 3, hA c 4, hA c 5]
  iintro ⟨H00, H01, Ha1, Ha0, Hv1⟩
  ihave H := (pointsTo_share q1_halves).1 $$ H00
  icases H with ⟨Hl, Hr⟩
  isplitl [Hl]; · iexact Hl
  isplitl [Hr]; · iexact Hr
  isplitl [H01]; · iexact H01
  isplitl [Ha1]; · iexact Ha1
  isplitl [Ha0]; · iexact Ha0
  iexact Hv1

/-- An input window's array after every write-back is the buffer behind it, at the window's share, as region 1 found it:
    an input array is never written. -/
theorem arr1_in_exit (hA : ∀ c w, (rd1 c).A w = V1 m c (Pipeline.arrRef spec1 w)) (hq : ∀ c, (rd1 c).q = q1) (c : Dev nD)
    (w : Fin cfg1.W) (hin : (cfg1.win w).isOut = false) :
    (iprop(∃ G, ⌜(rd1 c).ArrAt w cfg1.N G⌝ ∗ (cfg1.win w).arr.view.loc (c : Thread nD τ) ↦[(cfg1.win w).arr.view.set]{(rd1 c).share w} G) : sProp 𝕄)
      ⊢ (((c : Thread nD τ).loc (Pipeline.arrRef spec1 w)) ↦{q1 w} V1 m c (Pipeline.arrRef spec1 w)) := by
  have e := arr1_pt rd1 hq c w ((rd1 c).A w)
  rw [if_neg (by rw [hin]; exact Bool.false_ne_true)] at e
  rw [← hA c w]
  iintro ⟨%G, %hG, H⟩
  rw [(rd1 c).ArrAt_in w hin] at hG
  subst hG
  iapply (Entails.of_eq e); iexact H

/-- EXIT of region 1, the arrays' part: the six arrays after every write-back are the five buffers whole again — the two
    halves of the normalised rows' buffer rejoined, every input buffer as region 1 found it, the output buffer at some
    contents `F5` it may hold after the write-backs. -/
theorem arrays_exit1 (hA : ∀ c w, (rd1 c).A w = V1 m c (Pipeline.arrRef spec1 w)) (hq : ∀ c, (rd1 c).q = q1) (c : Dev nD) :
    (rd1 c).arraysAt cfg1.N
      ⊢ (iprop(∃ F5, ⌜(rd1 c).ArrAt 5 cfg1.N F5⌝ ∗ unscopedBufs (Ix := Unit) (Name := ℕ) (U := UR sig nD τ) (Lvl := ℕ) c (V2 m c F5)) : sProp 𝕄) := by
  have hV2 : ∀ F5, (unscopedBufs (Ix := Unit) (Name := ℕ) (U := UR sig nD τ) (Lvl := ℕ) c (V2 m c F5) : sProp 𝕄)
      = iprop((((c : Thread nD τ).loc main_v0_0) ↦{fullShare} V1 m c main_v0_0) ∗ (((c : Thread nD τ).loc main_v0_1) ↦{fullShare} V1 m c main_v0_1)
          ∗ (((c : Thread nD τ).loc main_arg1) ↦{fullShare} V1 m c main_arg1) ∗ (((c : Thread nD τ).loc main_arg0) ↦{fullShare} V1 m c main_arg0)
          ∗ (((c : Thread nD τ).loc main_v1) ↦{fullShare} F5)) := fun F5 => by
    rw [unscopedBufs1_eq, V2_of_ne m c F5 main_v0_0 (by decide), V2_of_ne m c F5 main_v0_1 (by decide),
      V2_of_ne m c F5 main_arg1 (by decide), V2_of_ne m c F5 main_arg0 (by decide), V2_main_v1]
  have h5 : ∀ F5, ((cfg1.win 5).arr.view.loc (c : Thread nD τ) ↦[(cfg1.win 5).arr.view.set]{(rd1 c).share 5} F5 : sProp 𝕄)
      = (((c : Thread nD τ).loc main_v1) ↦{fullShare} F5) := fun F5 => arr1_pt rd1 hq c 5 F5
  unfold RDat.arraysAt; rw [bigSep_W1]
  iintro ⟨H0, H1, H2, H3, H4, ⟨%F5, %hF5, H5⟩⟩
  ihave H0' := arr1_in_exit m rd1 hA hq c 0 rfl $$ H0
  ihave H1' := arr1_in_exit m rd1 hA hq c 1 rfl $$ H1
  ihave H2' := arr1_in_exit m rd1 hA hq c 2 rfl $$ H2
  ihave H3' := arr1_in_exit m rd1 hA hq c 3 rfl $$ H3
  ihave H4' := arr1_in_exit m rd1 hA hq c 4 rfl $$ H4
  ihave H5' := (Entails.of_eq (h5 F5)) $$ H5
  iexists F5
  isplitr; · ipureintro; exact hF5
  iapply (Entails.of_eq (hV2 F5).symm)
  isplitl [H0' H1']
  · iapply (pointsTo_share q1_halves).2; isplitl [H0'] <;> iassumption
  isplitl [H2']; · iexact H2'
  isplitl [H3']; · iexact H3'
  isplitl [H4']; · iexact H4'
  iexact H5'

/-! ## What the core owes around region 1 -/

/-- The core enters region 1 owing nothing, whatever pairs its waits have recorded. -/
theorem owes_entry1 (howed : ∀ c t, (rd1 c).owed t = 0) (hrec : ∀ c, (rd1 c).recorded 0 = Set.univ) (c : Dev nD) :
    (iprop(∃ W, owes (c : Thread nD τ) (0 : CellTallies nD τ sig Unit) W) : sProp 𝕄) ⊢ (rd1 c).owesAt () 0 := by
  unfold RDat.owesAt Pipeline.owesWithin RDat.bound
  rw [howed c 0, hrec c]
  iintro ⟨%W, HO⟩; iexists W; isplitr; · ipureintro; exact fun _ _ => Or.inl trivial
  iexact HO

/-- It leaves region 1 owing nothing. -/
theorem owes_exit1 (howed : ∀ c t, (rd1 c).owed t = 0) (c : Dev nD) :
    (rd1 c).owesAt () (Fin.last cfg1.N) ⊢ (iprop(∃ W, owes (c : Thread nD τ) (0 : CellTallies nD τ sig Unit) W) : sProp 𝕄) := by
  unfold RDat.owesAt Pipeline.owesWithin
  rw [howed c (Fin.last cfg1.N)]
  iintro ⟨%W, -, HO⟩; iexists W; iexact HO

set_option backward.isDefEq.respectTransparency.types false in
/-- REGION 1 over the thread state: entered from every unscoped buffer at `W1`, left with the output buffer at some
    contents it may hold after every write-back and every other buffer as found. Its six arrays stand on five buffers,
    which are all the unscoped buffers the core has: nothing bypasses the region. The generator register goes into the
    region's invariant and comes back; nothing is owed; the kernel has no semaphore of its own. -/
def reg1 (hA : ∀ c w, (rd1 c).A w = V1 m c (Pipeline.arrRef spec1 w))
    (hq : ∀ c, (rd1 c).q = q1) (howed : ∀ c t, (rd1 c).owed t = 0)
    (hΦ0 : ∀ c, iprop((∃ r, prngReg c r) ∗ Pipeline.scopedRest spec1 c) ⊢ (rd1 c).Φ 0)
    (hΦN : ∀ c, (rd1 c).Φ (Fin.last cfg1.N) ⊢ iprop((∃ r, prngReg c r) ∗ Pipeline.scopedRest spec1 c))
    (hbody : ∀ c, (rd1 c).BodyObligation (defs₀ (F := F)) Variants.none () Set.univ)
    (hrec : ∀ c, (rd1 c).recorded 0 = Set.univ) :
    Pipeline.RDat.RegionSeg (pcfgs (F := F)) adm (rdats m rd1) () defs₀ 𝒱₀ L lv 1 where
  win := winFacts₀1
  block_pos := block_pos1
  stage_whole := stage_whole1
  K := PEmpty
  osem k := k.elim
  ho := Pipeline.OwnSemFacts.none _
  hbody := hbody
  hwaits := Pipeline.RDat.hwaits_of_owed_zero _ _ _ _ L lv 1 howed
  pre c := iprop(StableHlo.held (c : Thread nD τ) (Pipeline.ucRefs τ sig) (W1 m c) ∗ R c)
  post c := iprop(Tₙ m rd1 c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none, held_W1]
    iintro ⟨⟨Hub, Hp, HO⟩, -, -⟩
    ihave Ha := arrays_entry1 m rd1 hA hq c $$ Hub
    ihave HO' := owes_entry1 rd1 howed hrec c $$ HO
    imodintro
    isplitl [Ha]; · iexact Ha
    isplitr; · unfold Pipeline.prefHeld; rw [show (Finset.univ : Finset (Fin 0)) = ∅ from rfl, BI.bigSep_empty]; iempintro
    isplitl [HO']; · iexact HO'
    isplitl [Hp]; · iexact Hp
    iempintro
  hin c := by
    refine BIBase.Entails.trans ?_ (hΦ0 c)
    iintro ⟨Hp, -, Hr⟩
    isplitl [Hp]; · iexact Hp
    iexact Hr
  hout c := by
    rw [Pipeline.ownSems0_none]
    refine BIBase.Entails.trans (hΦN c) ?_
    iintro ⟨Hp, Hr⟩
    isplitl [Hp]; · iexact Hp
    isplitr; · iempintro
    iexact Hr
  hexit c := by
    have hx : (rdats m rd1 1 c).arraysAt (Pipeline.pin (pcfgs (F := F)) adm 1).N
        ⊢ (iprop(∃ F5, ⌜(rd1 c).ArrAt 5 cfg1.N F5⌝ ∗ unscopedBufs (Ix := Unit) (Name := ℕ) (U := UR sig nD τ) (Lvl := ℕ) c (V2 m c F5)) : sProp 𝕄) :=
      arrays_exit1 m rd1 hA hq c
    have ho : (rdats m rd1 1 c).owesAt () (Fin.last (Pipeline.pin (pcfgs (F := F)) adm 1).N)
        ⊢ (iprop(∃ W, owes (c : Thread nD τ) (0 : CellTallies nD τ sig Unit) W) : sProp 𝕄) := owes_exit1 rd1 howed c
    iintro ⟨Ha, HO, HY, -⟩
    ihave Ha' := hx $$ Ha
    icases Ha' with ⟨%F5, %hF5, Hub⟩
    ihave HO' := ho $$ HO
    imodintro
    isplitl [Hub HY]
    · iexists F5
      isplitr; · ipureintro; exact hF5
      isplitl [Hub]; · iapply (Entails.of_eq (held_W2 m c F5).symm); iexact Hub
      iexact HY
    iexact HO'

/-! ## @main as segments, and the launch -/

/-- @main's two segments: the two regions in order, no host operation between them. -/
abbrev segs (hA : ∀ c w, (rd1 c).A w = V1 m c (Pipeline.arrRef spec1 w))
    (hq : ∀ c, (rd1 c).q = q1) (howed : ∀ c t, (rd1 c).owed t = 0)
    (hΦ0 : ∀ c, iprop((∃ r, prngReg c r) ∗ Pipeline.scopedRest spec1 c) ⊢ (rd1 c).Φ 0)
    (hΦN : ∀ c, (rd1 c).Φ (Fin.last cfg1.N) ⊢ iprop((∃ r, prngReg c r) ∗ Pipeline.scopedRest spec1 c))
    (hbody : ∀ c, (rd1 c).BodyObligation (defs₀ (F := F)) Variants.none () Set.univ)
    (hrec : ∀ c, (rd1 c).recorded 0 = Set.univ) :
    List (Pipeline.RDat.Seg (pcfgs (F := F)) adm (rdats m rd1) () defs₀ 𝒱₀ L lv) :=
  [ .region (reg0 m rd1), .region (reg1 m rd1 hA hq howed hΦ0 hΦN hbody hrec) ]

/-- @main IS the run of the segments. -/
theorem main_run (hA : ∀ c w, (rd1 c).A w = V1 m c (Pipeline.arrRef spec1 w))
    (hq : ∀ c, (rd1 c).q = q1) (howed : ∀ c t, (rd1 c).owed t = 0)
    (hΦ0 : ∀ c, iprop((∃ r, prngReg c r) ∗ Pipeline.scopedRest spec1 c) ⊢ (rd1 c).Φ 0)
    (hΦN : ∀ c, (rd1 c).Φ (Fin.last cfg1.N) ⊢ iprop((∃ r, prngReg c r) ∗ Pipeline.scopedRest spec1 c))
    (hbody : ∀ c, (rd1 c).BodyObligation (defs₀ (F := F)) Variants.none () Set.univ)
    (hrec : ∀ c, (rd1 c).recorded 0 = Set.univ) (c : Dev nD) :
    main (F := F) c = Pipeline.RDat.Seg.run (segs m rd1 hA hq howed hΦ0 hΦN hbody hrec) :=
  (main_chain c).trans (by chain_rfl)

set_option backward.isDefEq.respectTransparency.types false in
/-- THE LAUNCH of the two regions, for any relational proof data of region 1 that starts from the contents region 0
    leaves, holds the shared array by halves, owes nothing, takes the generator register and the scoped rest into its
    invariant and gives them back, and meets its body obligation: from any memory with zero counters every weakly fair
    execution of @main terminates, and in every final memory the output array holds some contents region 1's data allow
    after every write-back while the two operands hold what they held at launch. -/
theorem run_of (hA : ∀ c w, (rd1 c).A w = V1 m c (Pipeline.arrRef spec1 w))
    (hq : ∀ c, (rd1 c).q = q1) (howed : ∀ c t, (rd1 c).owed t = 0)
    (hΦ0 : ∀ c, iprop((∃ r, prngReg c r) ∗ Pipeline.scopedRest spec1 c) ⊢ (rd1 c).Φ 0)
    (hΦN : ∀ c, (rd1 c).Φ (Fin.last cfg1.N) ⊢ iprop((∃ r, prngReg c r) ∗ Pipeline.scopedRest spec1 c))
    (hbody : ∀ c, (rd1 c).BodyObligation (defs₀ (F := F)) Variants.none () Set.univ)
    (hrec : ∀ c, (rd1 c).recorded 0 = Set.univ) :
    θ_run defs (onTc (τ := τ) (main (F := F))) ⟨m, fun _ => 0, ρ⟩ (fun r => ∀ c : Dev nD,
      (∃ F5, (rd1 c).ArrAt 5 cfg1.N F5 ∧ r.2.mem ((cfg1.win 5).arr.view.loc (c : Thread nD τ)) = F5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.RDat.θ_run_regions_kit (pcfgs (F := F)) adm (rdats m rd1) () cellOf_inj emb₁ defs₀ 𝒱₀ L lv m ρ main (segs m rd1 hA hq howed hΦ0 hΦN hbody hrec)
    (fun c Q => by rw [main_run m rd1 hA hq howed hΦ0 hΦN hbody hrec c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c)) (Tₙ := Tₙ m rd1)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∃ F5, (rd1 c).ArrAt 5 cfg1.N F5 ∧ ∀ b ∈ Pipeline.ucRefs τ sig, s.mem (((c : Thread nD τ)).1, b) = W2 m c F5 b)
    (hfin := fun c s' => by
      iintro ⟨⟨%F5, %hF5, Hh, -⟩, HSI⟩
      ihave Hr := (pointsTo_read_all (Pipeline.ucRefs τ sig) (fun b => (((c : Thread nD τ)).1, b)) (W2 m c F5) s') $$ [Hh HSI]
      · isplitl [Hh]; · unfold StableHlo.held; iexact Hh
        iexact HSI
      icases Hr with ⟨%h, HSI⟩
      imodintro
      isplitr
      · ipureintro; exact ⟨F5, hF5, h⟩
      iexact HSI)
    (hQ := fun s h c => by
      obtain ⟨F5, hF5, hb⟩ := h c
      refine ⟨⟨F5, hF5, ?_⟩, ?_, ?_⟩
      · exact (hb _ (mem_uc main_v1 (by decide))).trans (V2_main_v1 m c F5)
      · exact (hb _ (mem_uc main_arg0 (by decide))).trans ((V2_of_ne m c F5 main_arg0 (by decide)).trans (V1_main_arg0 m c))
      · exact (hb _ (mem_uc main_arg1 (by decide))).trans ((V2_of_ne m c F5 main_arg1 (by decide)).trans (V1_main_arg1 m c)))

end Cert.KernelIdeal.Hand

end
-- ==== Proof.KI_R1Defs.lean ====
/- What one grid point of the second kernel makes of its two carried buffers and, at the last key tile, of its
   output block, as pure functions of what the point reads: the row sums `l` grow by the point's masked
   exponentials' row sums, the accumulator `acc` by their product with the point's value block, and the output block
   is `2·xf − 1·(acc / l)`. -/
import proofs.«424991_j3564822856140_2_alg».proof.Proof.Gen.KernelIdeal.Skeleton

noncomputable section

namespace Cert.KernelIdeal.Hand

open Cert.KernelIdeal Cert.KernelIdeal.Gen Idealize.ShloMosaic

variable {F : FTy → Type} [FloatOps F]

/-- The row sums after a point, from the query block `q`, the key block `k`, the mask block `a` and the row sums before it. -/
def lNext (i : grid1.Coords) (q k : Vec F S1024x512 .bf16) (a : Vec F S1024x1024 .i32) (l : Vec F S1024x1 .f32) : Vec F S1024x1 .f32 :=
  k1_pay7 i q k a l

/-- The accumulator after a point, from the same and the value block `v`. -/
def aNext (i : grid1.Coords) (q k v : Vec F S1024x512 .bf16) (a : Vec F S1024x1024 .i32) (acc : Vec F S1024x512 .f32) : Vec F S1024x512 .f32 :=
  k1_pay1 (k1_pay5 v) (k1_pay6 i q k a) acc

/-- The output block stored at the last key tile. -/
def oNext (acc : Vec F S1024x512 .f32) (l : Vec F S1024x1 .f32) (xf : Vec F S1024x512 .f32) : Vec F S1024x512 .f32 :=
  k1_pay2 acc l xf

end Cert.KernelIdeal.Hand

end
-- ==== Proof.KI_R1Spec.lean ====
/- The second kernel's carried sums in closed form, over the arrays as the kernel finds them: `NX` (the normalized
   rows, read as keys and as queries), `XV` (the rows of x, read as values) and the mask `ADJ`. A pair outside the
   arrays contributes nothing: the kernel masks key positions past the end, and rows past the end are never written back.

     Pn i j       = 0 if i or j is past the end or ADJ_ij > 0, else exp ((Σ_c NX_ic · NX_jc) / 1)
     Lsum qi n r  = Σ_{k' < n} Σ_{jj < 1024} Pn (1024 qi + r) (1024 k' + jj)                      row sums after n key tiles
     Asum qi n r d = Σ_{k' < n} Σ_{jj < 1024} Pn (1024 qi + r) (1024 k' + jj) · XVn (1024 k' + jj) d  the accumulator likewise -/
import proofs.«424991_j3564822856140_2_alg».proof.Proof.Forms
import Idealize.ShloMosaic.Lib.ValueIdx

noncomputable section

namespace Cert.Spec

open Idealize.ShloMosaic Idealize.ShloMosaic.ValueIdx

variable (NX XV : (⟨2, ![10000, 512]⟩ : Shape).Idx → EReal) (ADJ : (⟨2, ![10000, 10000]⟩ : Shape).Idx → BitVec 32)

/-- The softmax numerator of the pair (i, j) over the arrays as found, zero outside them. -/
def Pn (i j : ℕ) : EReal :=
  if h : i < 10000 ∧ j < 10000 then
    (if 0 < (ADJ (ix2 ⟨i, h.1⟩ ⟨j, h.2⟩)).toInt then 0
     else Ideal.exp (Ideal.div (∑ c : Fin 512, NX (ix2 ⟨i, h.1⟩ c) * NX (ix2 ⟨j, h.2⟩ c)) oneW))
  else 0

/-- Row j of the value array, zero past the end. -/
def XVn (j : ℕ) (d : Fin 512) : EReal := if h : j < 10000 then XV (ix2 ⟨j, h⟩ d) else 0

/-- Row r of query tile qi: its row sum over the first n key tiles. -/
def Lsum (qi n : ℕ) (r : Fin 1024) : EReal :=
  ∑ k' ∈ Finset.range n, ∑ jj : Fin 1024, Pn NX ADJ (qi * 1024 + r.val) (k' * 1024 + jj.val)

/-- Its accumulator entry at column d over the first n key tiles. -/
def Asum (qi n : ℕ) (r : Fin 1024) (d : Fin 512) : EReal :=
  ∑ k' ∈ Finset.range n, ∑ jj : Fin 1024, Pn NX ADJ (qi * 1024 + r.val) (k' * 1024 + jj.val) * XVn XV (k' * 1024 + jj.val) d

theorem Lsum_zero (qi : ℕ) (r : Fin 1024) : Lsum NX ADJ qi 0 r = 0 := by simp [Lsum]
theorem Asum_zero (qi : ℕ) (r : Fin 1024) (d : Fin 512) : Asum NX XV ADJ qi 0 r d = 0 := by simp [Asum]
theorem Lsum_succ (qi n : ℕ) (r : Fin 1024) :
    Lsum NX ADJ qi (n + 1) r = Lsum NX ADJ qi n r + ∑ jj : Fin 1024, Pn NX ADJ (qi * 1024 + r.val) (n * 1024 + jj.val) := by
  simp [Lsum, Finset.sum_range_succ]
theorem Asum_succ (qi n : ℕ) (r : Fin 1024) (d : Fin 512) :
    Asum NX XV ADJ qi (n + 1) r d
      = Asum NX XV ADJ qi n r d + ∑ jj : Fin 1024, Pn NX ADJ (qi * 1024 + r.val) (n * 1024 + jj.val) * XVn XV (n * 1024 + jj.val) d := by
  simp [Asum, Finset.sum_range_succ]

/-- The output at row r of query tile qi, column d, once all ten key tiles are in: `2·xf − 1·(acc / l)` over the
    row of `XF` the tile stages; zero for coordinates outside a tile. Coordinates are natural numbers so that it can be
    read at the indices of a block cut at the array's end. -/
def OutN (XF : (⟨2, ![10000, 512]⟩ : Shape).Idx → EReal) (qi r d : ℕ) : EReal :=
  if h : r < 1024 ∧ d < 512 then
    twoW * XVn XF (qi * 1024 + r) ⟨d, h.2⟩
      - oneW * Ideal.div (Asum NX XV ADJ qi 10 ⟨r, h.1⟩ ⟨d, h.2⟩) (Lsum NX ADJ qi 10 ⟨r, h.1⟩)
  else 0

end Cert.Spec

end
-- ==== Proof.KI_R1Dat.lean ====
/- The second kernel's proof data at the exact instance, over the buffers' contents `V` as the kernel finds them.

   Every window's block is cut at the arrays' end (10000 = 9·1024 + 784), and past the end a staged block holds words
   nothing names, so the data speak of the part inside the arrays only:
   * an input window's buffer holds, after the body, the block it was fetched;
   * the two carried buffers hold, on the rows of the query tile that lie inside the array, the sums over the key tiles
     done so far (`Inv`: the closed forms `Lsum`, `Asum` of the arrays, which count a column past the end as nothing);
     at the first key tile of a query tile they are about to be reset and nothing is said;
   * the output window's buffer holds, where the last key tile is done, `2·xf − 1·(acc / l)` at ten key tiles (`OutN`). -/
import proofs.«424991_j3564822856140_2_alg».proof.Proof.Gen.KernelIdeal.Launch
import proofs.«424991_j3564822856140_2_alg».proof.Proof.Gen.KernelIdeal.Points
import proofs.«424991_j3564822856140_2_alg».proof.Proof.KI_R1Defs
import proofs.«424991_j3564822856140_2_alg».proof.Proof.KI_R1Spec
import Idealize.ShloMosaic.Lib.Pipeline.Kit
import Idealize.ShloMosaic.Lib.Pipeline.FrameBody

noncomputable section

namespace Cert.KernelIdeal.HandValue

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Idealize.ShloMosaic.Pipeline (Dat Cfg Window)

local notation "𝕄" => MT nD τ sig Unit (Elt Ideal) ℕ (UR sig nD τ) ℕ

variable (V : (c : Dev nD) → (b : Ref sig .tc) → Buf (Elt Ideal) ((c : Thread nD τ).loc b)) (q1 : Fin 6 → PosShare TreeShare)

/-- The arrays as the kernel finds them: the normalized rows (read as queries and as keys), the rows of x as the values,
    the mask, and x as the output's first term. -/
abbrev NXa (c : Dev nD) : S10000x512.Idx → EReal := V c main_v0_0
abbrev XVa (c : Dev nD) : S10000x512.Idx → EReal := V c main_v0_1
abbrev ADJa (c : Dev nD) : S10000x10000.Idx → BitVec 32 := V c main_arg1
abbrev XFa (c : Dev nD) : S10000x512.Idx → EReal := V c main_arg0

/-- Window `w`'s block at point `t`, its part inside the array, read off the array as found. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- What the carried buffers hold before the `n`-th point (query tile `n / 10`, key tile `n % 10`) on the rows inside
    the array: the sums over the key tiles before it. Before a first key tile nothing is said. -/
def Inv (c : Dev nD) (n : ℕ) (l : Vec Ideal S1024x1 .f32) (acc : Vec Ideal S1024x512 .f32) : Prop :=
  n % 10 = 0 ∨ ∀ r : Fin 1024, (n / 10) * 1024 + r.val < 10000 →
    l (ix2 r 0) = Cert.Spec.Lsum (NXa V c) (ADJa V c) (n / 10) (n % 10) r
    ∧ ∀ d : Fin 512, acc (ix2 r d) = Cert.Spec.Asum (NXa V c) (XVa V c) (ADJa V c) (n / 10) (n % 10) r d

/-- The body's invariant before point `t`: the generator register, the other kernel's six staging buffers at
    anything, and the two carried buffers at contents satisfying `Inv`. -/
def Phi1 (c : Dev nD) (t : Fin (cfg1.N + 1)) : sProp 𝕄 :=
  iprop((∃ r, prngReg c r)
    ∗ (∃ f : Buf (Elt Ideal) ((c : Thread nD τ).loc cc0_stg0_0), ((c : Thread nD τ).loc cc0_stg0_0) ↦{fullShare} f)
    ∗ (∃ f : Buf (Elt Ideal) ((c : Thread nD τ).loc cc0_stg0_1), ((c : Thread nD τ).loc cc0_stg0_1) ↦{fullShare} f)
    ∗ (∃ f : Buf (Elt Ideal) ((c : Thread nD τ).loc cc0_stg1_0), ((c : Thread nD τ).loc cc0_stg1_0) ↦{fullShare} f)
    ∗ (∃ f : Buf (Elt Ideal) ((c : Thread nD τ).loc cc0_stg1_1), ((c : Thread nD τ).loc cc0_stg1_1) ↦{fullShare} f)
    ∗ (∃ f : Buf (Elt Ideal) ((c : Thread nD τ).loc cc0_stg2_0), ((c : Thread nD τ).loc cc0_stg2_0) ↦{fullShare} f)
    ∗ (∃ f : Buf (Elt Ideal) ((c : Thread nD τ).loc cc0_stg2_1), ((c : Thread nD τ).loc cc0_stg2_1) ↦{fullShare} f)
    ∗ ∃ (l : Vec Ideal S1024x1 .f32) (acc : Vec Ideal S1024x512 .f32),
        owns (c : Thread nD τ) (Memref.whole cc1_scratch0) fullShare l ∗ owns (c : Thread nD τ) (Memref.whole cc1_scratch1) fullShare acc
        ∗ ⌜Inv V c t.val l acc⌝)

/-- The proof data: the arrays as found; after the body each input buffer at its block (zero past the array's end) and
    the output buffer at the closed form at ten key tiles (zero past the end); the invariant `Phi1`; the given shares;
    nothing owed. -/
def dat1 (c : Dev nD) : Dat τ (Elt Ideal) Unit ℕ (UR sig nD τ) ℕ cfg1 c where
  A w := V c (Pipeline.arrRef spec1 w)
  after w t := match w with
    | ⟨0, _⟩ => win1_0.fill (grid1.coords t) (fun _ => (0 : EReal)) (iblk1 V c 0 t)
    | ⟨1, _⟩ => win1_1.fill (grid1.coords t) (fun _ => (0 : EReal)) (iblk1 V c 1 t)
    | ⟨2, _⟩ => win1_2.fill (grid1.coords t) (fun _ => (0 : EReal)) (iblk1 V c 2 t)
    | ⟨3, _⟩ => win1_3.fill (grid1.coords t) (fun _ => (0#32 : BitVec 32)) (iblk1 V c 3 t)
    | ⟨4, _⟩ => win1_4.fill (grid1.coords t) (fun _ => (0 : EReal)) (iblk1 V c 4 t)
    | ⟨5, _⟩ => win1_5.fill (grid1.coords t) (fun _ => (0 : EReal))
        (fun y => Cert.Spec.OutN (NXa V c) (XVa V c) (ADJa V c) (XFa V c) (grid1.coords t 0).val (y 0).val (y 1).val)
  Φ t := Phi1 V c t
  q := q1
  owed _ := 0

theorem A_eq1 (c : Dev nD) (w : Fin cfg1.W) : (dat1 V q1 c).A w = V c (Pipeline.arrRef spec1 w) := by
  dsimp only [dat1]
theorem q_eq1 (c : Dev nD) : (dat1 V q1 c).q = q1 := rfl
theorem owed_eq1 (c : Dev nD) (t : Fin (cfg1.N + 1)) : (dat1 V q1 c).owed t = 0 := rfl
theorem Phi_eq1 (c : Dev nD) (t : Fin (cfg1.N + 1)) : (dat1 V q1 c).Φ t = Phi1 V c t := rfl

theorem after1_0 (c : Dev nD) (t : Fin cfg1.N) : (dat1 V q1 c).after 0 t = win1_0.fill (grid1.coords t) (fun _ => (0 : EReal)) (iblk1 V c 0 t) := by dsimp only [dat1]
theorem after1_1 (c : Dev nD) (t : Fin cfg1.N) : (dat1 V q1 c).after 1 t = win1_1.fill (grid1.coords t) (fun _ => (0 : EReal)) (iblk1 V c 1 t) := by dsimp only [dat1]
theorem after1_2 (c : Dev nD) (t : Fin cfg1.N) : (dat1 V q1 c).after 2 t = win1_2.fill (grid1.coords t) (fun _ => (0 : EReal)) (iblk1 V c 2 t) := by dsimp only [dat1]
theorem after1_3 (c : Dev nD) (t : Fin cfg1.N) : (dat1 V q1 c).after 3 t = win1_3.fill (grid1.coords t) (fun _ => (0#32 : BitVec 32)) (iblk1 V c 3 t) := by dsimp only [dat1]
theorem after1_4 (c : Dev nD) (t : Fin cfg1.N) : (dat1 V q1 c).after 4 t = win1_4.fill (grid1.coords t) (fun _ => (0 : EReal)) (iblk1 V c 4 t) := by dsimp only [dat1]
theorem after1_5 (c : Dev nD) (t : Fin cfg1.N) : (dat1 V q1 c).after 5 t = win1_5.fill (grid1.coords t) (fun _ => (0 : EReal))
    (fun y => Cert.Spec.OutN (NXa V c) (XVa V c) (ADJa V c) (XFa V c) (grid1.coords t 0).val (y 0).val (y 1).val) := by dsimp only [dat1]

end Cert.KernelIdeal.HandValue

end
-- ==== Proof.KI_R1Phi.lean ====
/- The two ends of the second call's invariant at the exact instance, and the proof data's plain fields read
   relationally.

   The region is entered holding the generator register at some state and the core's scoped buffers that are no staging
   buffer of this call, each whole at some contents: the other call's six staging buffers and the two carried buffers
   (the row sums and the accumulator). That is the invariant before the first point — there the carried buffers are
   about to be reset and the invariant asks nothing of what they hold —; after the last point the invariant gives the
   same buffers back, what it knows of the carried buffers' contents dropped. -/
import proofs.«424991_j3564822856140_2_alg».proof.Proof.KI_R1Dat

noncomputable section

namespace Cert.KernelIdeal.HandValue

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

local notation "𝕄" => MT nD τ sig Unit (Elt Ideal) ℕ (UR sig nD τ) ℕ

variable (V : (c : Dev nD) → (b : Ref sig .tc) → Buf (Elt Ideal) ((c : Thread nD τ).loc b)) (q1 : Fin 6 → PosShare TreeShare)

/-- A whole buffer held as a whole memref at some contents is the buffer at some contents. -/
theorem wholeAtSome_eq (c : Dev nD) (b : Ref sig .tc) :
    (iprop(∃ X, owns (c : Thread nD τ) (Memref.whole b) fullShare X) : sProp 𝕄)
      = iprop(∃ f : Buf (Elt Ideal) ((c : Thread nD τ).loc b), ((c : Thread nD τ).loc b) ↦{fullShare} f) := by
  simp only [owns_whole]

/-- The generator register at some state and the scoped rest give the invariant before the first point: the scoped
    rest is the other call's six staging buffers and the two carried buffers, and before point 0 (a first key tile)
    the invariant asks nothing of the carried buffers' contents. -/
theorem rd1_Φ0 (c : Dev nD) :
    (iprop((∃ r, prngReg c r) ∗ Pipeline.scopedRest (Ix := Unit) (Name := ℕ) (U := UR sig nD τ) (Lvl := ℕ) (Val := Elt Ideal) spec1 c) : sProp 𝕄)
      ⊢ (dat1 V q1 c).toR.Φ 0 := by
  rw [show (dat1 V q1 c).toR.Φ 0 = Phi1 V c 0 from rfl]; unfold Phi1
  rw [Gen.scopedRest1_eq, ← wholeAtSome_eq c cc1_scratch0, ← wholeAtSome_eq c cc1_scratch1]
  iintro ⟨Hp, S0, S1, S2, S3, S4, S5, ⟨%l, Hl⟩, ⟨%a, Ha⟩⟩
  isplitl [Hp]; · iexact Hp
  isplitl [S0]; · iexact S0
  isplitl [S1]; · iexact S1
  isplitl [S2]; · iexact S2
  isplitl [S3]; · iexact S3
  isplitl [S4]; · iexact S4
  isplitl [S5]; · iexact S5
  iexists l, a
  isplitl [Hl]; · iexact Hl
  isplitl [Ha]; · iexact Ha
  ipureintro; exact Or.inl rfl

/-- The invariant after the last point gives them back: what it knows of the carried buffers' contents is dropped. -/
theorem rd1_ΦN (c : Dev nD) :
    (dat1 V q1 c).toR.Φ (Fin.last cfg1.N)
      ⊢ (iprop((∃ r, prngReg c r) ∗ Pipeline.scopedRest (Ix := Unit) (Name := ℕ) (U := UR sig nD τ) (Lvl := ℕ) (Val := Elt Ideal) spec1 c) : sProp 𝕄) := by
  rw [show (dat1 V q1 c).toR.Φ (Fin.last cfg1.N) = Phi1 V c (Fin.last cfg1.N) from rfl]; unfold Phi1
  rw [Gen.scopedRest1_eq, ← wholeAtSome_eq c cc1_scratch0, ← wholeAtSome_eq c cc1_scratch1]
  iintro ⟨Hp, S0, S1, S2, S3, S4, S5, ⟨%l, %a, Hl, Ha, -⟩⟩
  isplitl [Hp]; · iexact Hp
  isplitl [S0]; · iexact S0
  isplitl [S1]; · iexact S1
  isplitl [S2]; · iexact S2
  isplitl [S3]; · iexact S3
  isplitl [S4]; · iexact S4
  isplitl [S5]; · iexact S5
  isplitl [Hl]; · iexists l; iexact Hl
  iexists a; iexact Ha

/-- The relational data's entry arrays are the region-entry contents, -/
theorem rd1_A (c : Dev nD) (w : Fin cfg1.W) : (dat1 V q1 c).toR.A w = V c (Pipeline.arrRef spec1 w) :=
  A_eq1 V q1 c w

/-- its shares the given ones, -/
theorem rd1_q (c : Dev nD) : (dat1 V q1 c).toR.q = q1 := rfl

/-- it owes nothing at any point, -/
theorem rd1_owed (c : Dev nD) (t : Fin (cfg1.N + 1)) : (dat1 V q1 c).toR.owed t = 0 := rfl

/-- and it bounds the recorded pairs by nothing. -/
theorem rd1_rec (c : Dev nD) : (dat1 V q1 c).toR.recorded 0 = Set.univ := rfl

end Cert.KernelIdeal.HandValue

end
-- ==== Proof.KI_R1Body.lean ====
/- The body of the second kernel at one grid point, run symbolically, once per case of the key coordinate: at the
   FIRST key tile the two carried buffers (the row sums and the accumulator) are reset to zero and then grown by the
   point's contribution; at a MIDDLE key tile they are only grown; at the LAST key tile they are grown and the output
   block is stored from them. In each case every input block is left as found, and what the carried buffers and the
   output block hold afterwards is a plain function of what the point read: the row sums `lNext`, the accumulator
   `aNext`, the output block `oNext`.

   The two tests of the key coordinate are chains "equal to a literal, widened to 32 bits, not zero" over the
   coordinate's word; each holds exactly when the coordinate is that literal, the coordinate being below ten. Every
   access is of a whole buffer through the rectangle at zero offsets, so a store leaves its payload and a load after it
   reads the payload back. -/
import proofs.«424991_j3564822856140_2_alg».proof.Proof.Gen.KernelIdeal.Skeleton
import proofs.«424991_j3564822856140_2_alg».proof.Proof.KI_R1Defs
import Idealize.ShloMosaic.Lib.Pipeline.FrameBody
import Idealize.ShloMosaic.Lib.Pipeline.Value
import Idealize.ShloMosaic.Lib.Affine
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The two tests of the key coordinate -/

/-- A one-bit word widened to 32 bits differs from zero exactly when the bit is set. -/
theorem widened_ne_zero_iff (c : BitVec 1) : Scalar.cmpi .ne (Scalar.extui c) 0#32 = 1#1 ↔ c = 1#1 := by
  revert c; decide

/-- The printed test of a coordinate against a literal — the two words compared for equality, the bit widened,
    the result compared with zero — holds exactly when the two naturals are equal, both being below `2 ^ 32`
    (so that neither wraps as a word). -/
theorem coord_test_iff (x n : Nat) (hx : x < 2 ^ 32) (hn : n < 2 ^ 32) :
    Scalar.cmpi .ne (Scalar.extui (Scalar.cmpi .eq (BitVec.ofNat 32 x) (BitVec.ofNat 32 n))) 0#32 = 1#1 ↔ x = n := by
  rw [widened_ne_zero_iff]
  show IntOp.cmpi .eq _ _ = 1#1 ↔ _
  rw [IntOp.cmpi_eq]
  constructor
  · intro h
    have := congrArg BitVec.toNat h
    rwa [BitVec.toNat_ofNat, BitVec.toNat_ofNat, Nat.mod_eq_of_lt hx, Nat.mod_eq_of_lt hn] at this
  · rintro rfl; rfl

/-- The key coordinate is below ten: the grid has ten key tiles. -/
theorem key_coord_lt (i : grid1.Coords) : (i 1).val < 10 := (i 1).isLt

/-- The reset test holds exactly at the first key tile. -/
theorem first_test_iff (i : grid1.Coords) :
    Scalar.cmpi .ne (Scalar.extui (Scalar.cmpi .eq (BitVec.ofNat 32 (i 1).val) 0#32)) 0#32 = 1#1 ↔ (i 1).val = 0 :=
  coord_test_iff (i 1).val 0 (by have := key_coord_lt i; omega) (by decide)

/-- The output test holds exactly at the last key tile. -/
theorem last_test_iff (i : grid1.Coords) : k1_cond2 i = 1#1 ↔ (i 1).val = 9 :=
  coord_test_iff (i 1).val 9 (by have := key_coord_lt i; omega) (by decide)

/-! ## Whole-buffer accesses at zero offsets -/

/-- The printed zero offsets of a rank-2 access are the zero function. -/
theorem offsets_zero2 : (![0, 0] : Fin 2 → Nat) = fun _ => 0 := funext fun a => by fin_cases a <;> rfl

section WholeAccess
variable {Val : EltTy → Type} [∀ e, Nonempty (Val e)] {sg : RefSig} {κ : Kind} {sp : Space} {S : Shape} {e : EltTy}

/-- A load through the whole-shape rectangle at zero offsets reads what the view reads. -/
theorem readAt_whole_block (v : View sg κ sp S e) (f : v.ty.Contents Val) {off : Fin S.rank → Nat} (hz : off = fun _ => 0)
    (inb : ∀ a, off a + S.size a ≤ S.size a) :
    v.readAt Val (Rect.unit off S.size inb).toLoadRect f = v.read Val f :=
  (View.readAt_eq_ld v f _).trans (View.ld_unit_zero hz inb _)

/-- After a store through the whole-shape rectangle at zero offsets, made last, the view reads the stored payload,
    whatever was stored before it and whatever the buffer held. -/
theorem read_writes_whole_block (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero hz inb y⟩).trans
    (View.canon_cons_unit_zero hz inb w L)

end WholeAccess

/-! ## The body's triple, case by case

In each case the two tests are decided from the hypothesis on the key coordinate, the body runs through the
branches so chosen, and at the return each buffer is handed to the continuation: an input block at the contents it
was found with, a buffer the body stored into at the payload of its last store (the loads inside that payload read
back either the buffer's contents at entry or, after a store of this run, that store's payload). -/

set_option maxHeartbeats 1000000 in
/-- FIRST key tile: the row sums and the accumulator are reset to zero, then grown by the point's contribution; the
    output block is not touched. -/
theorem sound_kernel1_first (c : Dev nD) (E : Set ℕ) (i : grid1.Coords) (hi : (i 1).val = 0)
    (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .i32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole)
    (q k v : Vec F S1024x512 .bf16) (a : Vec F S1024x1024 .i32) (xf o : Vec F S1024x512 .f32)
    (l0 : Vec F S1024x1 .f32) (acc0 : Vec F S1024x512 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare a ∗ owns (c : Thread nD τ) arg6 fullShare xf ∗ owns (c : Thread nD τ) arg7 fullShare o
        ∗ owns (c : Thread nD τ) arg8 fullShare l0 ∗ owns (c : Thread nD τ) arg9 fullShare acc0
        ∗ (iprop(owns (c : Thread nD τ) arg2 fullShare q ∗ owns (c : Thread nD τ) arg3 fullShare k ∗ owns (c : Thread nD τ) arg4 fullShare v
            ∗ owns (c : Thread nD τ) arg5 fullShare a ∗ owns (c : Thread nD τ) arg6 fullShare xf ∗ owns (c : Thread nD τ) arg7 fullShare o
            ∗ owns (c : Thread nD τ) arg8 fullShare (lNext i q k a k1_pay3) ∗ owns (c : Thread nD τ) arg9 fullShare (aNext i q k v a k1_pay4)) -∗ K ⟨⟩))
      ⊢ wp frame (wpE (defs₀ (F := F)) Variants.none c none) E (cc1__cn_kernel i arg2 harg2 arg3 harg3 arg4 harg4 arg5 harg5 arg6 harg6 arg7 harg7 arg8 harg8 arg9 harg9) K := by
  have hc1 : Scalar.cmpi .ne (Scalar.extui (Scalar.cmpi .eq (BitVec.ofNat 32 (i 1).val) 0#32)) 0#32 = 1#1 :=
    (first_test_iff i).mpr hi
  have hc2 : ¬ (k1_cond2 i = 1#1) := fun h => by have := (last_test_iff i).mp h; omega
  simp only [cc1__cn_kernel_eq_skeleton]; unfold cc1__cn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    refine (read_writes_whole_block _ _ offsets_zero2 _ _ _).trans ?_
    sl_unfold_run_names
    rw [View.readCov_unit_zero _ offsets_zero2, readAt_whole_block _ _ offsets_zero2, readAt_whole_block _ _ offsets_zero2, readAt_whole_block _ _ offsets_zero2]
    rfl
  iexists _; isplitr
  swap; · iexact H9
  ipureintro
  refine (read_writes_whole_block _ _ offsets_zero2 _ _ _).trans ?_
  dsimp only
  sl_unfold_run_names
  rw [View.readCov_unit_zero _ offsets_zero2, readAt_whole_block _ _ offsets_zero2, readAt_whole_block _ _ offsets_zero2, readAt_whole_block _ _ offsets_zero2, readAt_whole_block _ _ offsets_zero2]
  rfl

set_option maxHeartbeats 1000000 in
/-- MIDDLE key tile: the row sums and the accumulator are grown by the point's contribution; nothing is reset and
    the output block is not touched. -/
theorem sound_kernel1_mid (c : Dev nD) (E : Set ℕ) (i : grid1.Coords) (hi0 : (i 1).val ≠ 0) (hi9 : (i 1).val ≠ 9)
    (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .i32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole)
    (q k v : Vec F S1024x512 .bf16) (a : Vec F S1024x1024 .i32) (xf o : Vec F S1024x512 .f32)
    (l0 : Vec F S1024x1 .f32) (acc0 : Vec F S1024x512 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare a ∗ owns (c : Thread nD τ) arg6 fullShare xf ∗ owns (c : Thread nD τ) arg7 fullShare o
        ∗ owns (c : Thread nD τ) arg8 fullShare l0 ∗ owns (c : Thread nD τ) arg9 fullShare acc0
        ∗ (iprop(owns (c : Thread nD τ) arg2 fullShare q ∗ owns (c : Thread nD τ) arg3 fullShare k ∗ owns (c : Thread nD τ) arg4 fullShare v
            ∗ owns (c : Thread nD τ) arg5 fullShare a ∗ owns (c : Thread nD τ) arg6 fullShare xf ∗ owns (c : Thread nD τ) arg7 fullShare o
            ∗ owns (c : Thread nD τ) arg8 fullShare (lNext i q k a l0) ∗ owns (c : Thread nD τ) arg9 fullShare (aNext i q k v a acc0)) -∗ K ⟨⟩))
      ⊢ wp frame (wpE (defs₀ (F := F)) Variants.none c none) E (cc1__cn_kernel i arg2 harg2 arg3 harg3 arg4 harg4 arg5 harg5 arg6 harg6 arg7 harg7 arg8 harg8 arg9 harg9) K := by
  have hc1 : ¬ (Scalar.cmpi .ne (Scalar.extui (Scalar.cmpi .eq (BitVec.ofNat 32 (i 1).val) 0#32)) 0#32 = 1#1) :=
    fun h => hi0 ((first_test_iff i).mp h)
  have hc2 : ¬ (k1_cond2 i = 1#1) := fun h => hi9 ((last_test_iff i).mp h)
  simp only [cc1__cn_kernel_eq_skeleton]; unfold cc1__cn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    refine (read_writes_whole_block _ _ offsets_zero2 _ _ _).trans ?_
    rw [readAt_whole_block _ _ offsets_zero2, readAt_whole_block _ _ offsets_zero2, readAt_whole_block _ _ offsets_zero2, readAt_whole_block _ _ offsets_zero2]
    rfl
  iexists _; isplitr
  swap; · iexact H9
  ipureintro
  refine (read_writes_whole_block _ _ offsets_zero2 _ _ _).trans ?_
  dsimp only
  rw [readAt_whole_block _ _ offsets_zero2, readAt_whole_block _ _ offsets_zero2, readAt_whole_block _ _ offsets_zero2, readAt_whole_block _ _ offsets_zero2, readAt_whole_block _ _ offsets_zero2]
  rfl

set_option maxHeartbeats 1000000 in
/-- LAST key tile: the row sums and the accumulator are grown by the point's contribution, then the output block is
    stored from the grown accumulator, the grown row sums and the `xf` block. -/
theorem sound_kernel1_last (c : Dev nD) (E : Set ℕ) (i : grid1.Coords) (hi : (i 1).val = 9)
    (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .i32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole)
    (q k v : Vec F S1024x512 .bf16) (a : Vec F S1024x1024 .i32) (xf o : Vec F S1024x512 .f32)
    (l0 : Vec F S1024x1 .f32) (acc0 : Vec F S1024x512 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare a ∗ owns (c : Thread nD τ) arg6 fullShare xf ∗ owns (c : Thread nD τ) arg7 fullShare o
        ∗ owns (c : Thread nD τ) arg8 fullShare l0 ∗ owns (c : Thread nD τ) arg9 fullShare acc0
        ∗ (iprop(owns (c : Thread nD τ) arg2 fullShare q ∗ owns (c : Thread nD τ) arg3 fullShare k ∗ owns (c : Thread nD τ) arg4 fullShare v
            ∗ owns (c : Thread nD τ) arg5 fullShare a ∗ owns (c : Thread nD τ) arg6 fullShare xf ∗ owns (c : Thread nD τ) arg7 fullShare (oNext (aNext i q k v a acc0) (lNext i q k a l0) xf)
            ∗ owns (c : Thread nD τ) arg8 fullShare (lNext i q k a l0) ∗ owns (c : Thread nD τ) arg9 fullShare (aNext i q k v a acc0)) -∗ K ⟨⟩))
      ⊢ wp frame (wpE (defs₀ (F := F)) Variants.none c none) E (cc1__cn_kernel i arg2 harg2 arg3 harg3 arg4 harg4 arg5 harg5 arg6 harg6 arg7 harg7 arg8 harg8 arg9 harg9) K := by
  have hc1 : ¬ (Scalar.cmpi .ne (Scalar.extui (Scalar.cmpi .eq (BitVec.ofNat 32 (i 1).val) 0#32)) 0#32 = 1#1) :=
    fun h => by have := (first_test_iff i).mp h; omega
  have hc2 : k1_cond2 i = 1#1 := (last_test_iff i).mpr hi
  simp only [cc1__cn_kernel_eq_skeleton]; unfold cc1__cn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    refine (read_writes_whole_block _ _ offsets_zero2 _ _ _).trans ?_
    dsimp only
    sl_unfold_run_names
    rw [View.readCov_unit_zero _ offsets_zero2, View.readCov_unit_zero _ offsets_zero2, readAt_whole_block _ _ offsets_zero2, readAt_whole_block _ _ offsets_zero2,
      readAt_whole_block _ _ offsets_zero2, readAt_whole_block _ _ offsets_zero2, readAt_whole_block _ _ offsets_zero2, readAt_whole_block _ _ offsets_zero2, readAt_whole_block _ _ offsets_zero2]
    rfl
  isplitl [H8]
  · iexists _; isplitr
    swap; · iexact H8
    ipureintro
    refine (read_writes_whole_block _ _ offsets_zero2 _ _ _).trans ?_
    rw [readAt_whole_block _ _ offsets_zero2, readAt_whole_block _ _ offsets_zero2, readAt_whole_block _ _ offsets_zero2, readAt_whole_block _ _ offsets_zero2]
    rfl
  iexists _; isplitr
  swap; · iexact H9
  ipureintro
  refine (read_writes_whole_block _ _ offsets_zero2 _ _ _).trans ?_
  dsimp only
  rw [readAt_whole_block _ _ offsets_zero2, readAt_whole_block _ _ offsets_zero2, readAt_whole_block _ _ offsets_zero2, readAt_whole_block _ _ offsets_zero2, readAt_whole_block _ _ offsets_zero2]
  rfl

end Cert.KernelIdeal.Hand

end
-- ==== Proof.KI_R1Step.lean ====
/- One grid point of the second kernel, entry by entry, on the exact reading of float arithmetic. The blocks a point
   reads may overhang the arrays' end, and past the end they hold arbitrary extended reals. The row sums and the
   accumulator of a row inside the array are all the same the closed sums of the specification: a row of a product
   depends only on that row of the left operand, a masked column contributes exactly zero (zero times anything is zero
   on the extended reals), and key positions past the end are masked by the position test. -/
import proofs.«424991_j3564822856140_2_alg».proof.Proof.KI_R1Defs
import proofs.«424991_j3564822856140_2_alg».proof.Proof.KI_R1Spec
import proofs.«424991_j3564822856140_2_alg».proof.Proof.Forms
import proofs.«424991_j3564822856140_2_alg».proof.Proof.SoftmaxLaw
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

noncomputable section

namespace Cert.KernelIdeal.HandValue

open Cert.KernelIdeal Cert.KernelIdeal.Gen Cert.KernelIdeal.Hand Idealize.ShloMosaic Idealize.ShloMosaic.ValueIdx

/-- The row sums are reset to zero at the first key tile. -/
theorem reset_l (r : Fin 1024) : (k1_pay3 (F := Ideal)) (ix2 r 0) = 0 := by
  unfold k1_pay3
  rw [shapeCast_self]
  exact Ideal.ofBits_zero_f32

/-- The accumulator is reset to zero at the first key tile. -/
theorem reset_acc (r : Fin 1024) (d : Fin 512) : (k1_pay4 (F := Ideal)) (ix2 r d) = 0 := by
  unfold k1_pay4
  rw [shapeCast_self]
  exact Ideal.ofBits_zero_f32

/-- The output block at the last key tile, entry by entry: twice the input minus one times the accumulator over the
    row sum of the entry's row. -/
theorem oNext_apply (acc : Vec Ideal S1024x512 .f32) (l : Vec Ideal S1024x1 .f32) (xf : Vec Ideal S1024x512 .f32)
    (r : Fin 1024) (d : Fin 512) :
    oNext acc l xf (ix2 r d) = Cert.Spec.twoW * xf (ix2 r d) - Cert.Spec.oneW * Ideal.div (acc (ix2 r d)) (l (ix2 r 0)) := by
  unfold oNext k1_pay2
  have hb : broadcastTo S1024x512 l broadcasts_S1024x1_S1024x512 (ix2 r d) = l (ix2 r 0) :=
    broadcastTo_apply l broadcasts_S1024x1_S1024x512 (ix2 r d) (ix2 r 0) (fun a => match a with
      | ⟨0, _⟩ => rfl
      | ⟨1, _⟩ => rfl)
  show Cert.Spec.twoW * xf (ix2 r d) - Cert.Spec.oneW * Ideal.div (acc (ix2 r d)) (broadcastTo S1024x512 l broadcasts_S1024x1_S1024x512 (ix2 r d)) = _
  rw [hb]

open Idealize.ShloMosaic.StableHlo.Predicate

/-! ### The position test and the mask bit, as words -/

/-- The word of a key position: tile number times the tile width plus the column, without wrapping. -/
theorem pos_word (ki jj : ℕ) (hki : ki < 10) (hjj : jj < 1024) :
    (IntOp.addi (Scalar.muli (BitVec.ofNat 32 ki) 1024#32) (BitVec.ofNat 32 jj)).toNat = ki * 1024 + jj := by
  show ((BitVec.ofNat 32 ki * 1024#32) + BitVec.ofNat 32 jj).toNat = _
  simp only [BitVec.toNat_add, BitVec.toNat_mul, BitVec.toNat_ofNat]
  omega

/-- The mask bit of a pair: set exactly when the mask word is positive, read signed, or the key position is past the end. -/
theorem mask_bit_iff (ki jj : ℕ) (hki : ki < 10) (hjj : jj < 1024) (x : BitVec 32) :
    IntOp.ori (IntOp.cmpi .sgt x 0#32)
        (IntOp.cmpi .sge (IntOp.addi (Scalar.muli (BitVec.ofNat 32 ki) 1024#32) (BitVec.ofNat 32 jj)) 10000#32) = 1#1
      ↔ (0 < x.toInt ∨ 10000 ≤ ki * 1024 + jj) := by
  rw [IntOp.ori_eq_one]
  refine or_congr ?_ ?_
  · rw [IntOp.cmpi_sgt]; rfl
  · have hw := pos_word ki jj hki hjj
    rw [sge_iff_toNat (by rw [hw]; omega) (by decide), hw]
    rfl

/-! ### The two block products, entry by entry -/

/-- The first product's dimension numbers: scores, queries times transposed keys. -/
abbrev dotS : DotDims S1024x512 S512x1024 S1024x1024 := dot_S1024x512_S512x1024_S1024x1024_1_0_0_1_n_n
/-- The second product's: weights times values. -/
abbrev dotV : DotDims S1024x1024 S1024x512 S1024x512 := dot_S1024x1024_S1024x512_S1024x512_1_0_0_1_n_n

theorem dotS_lhs0 (j : S1024x1024.Idx) (q : dotS.contr.Idx) : (dotS.lhsIdx j q 0).val = (j 0).val := by
  unfold DotDims.lhsIdx
  rw [dif_neg (show ¬(0 : Fin S1024x512.rank) ∈ dotS.lhsBatch by decide),
    dif_pos (show (0 : Fin S1024x512.rank) ∈ dotS.lhsNonContracting by decide)]
  rfl
theorem dotS_lhs1 (j : S1024x1024.Idx) (q : dotS.contr.Idx) : (dotS.lhsIdx j q 1).val = (q ⟨0, by decide⟩).val :=
  dotS.lhsIdx_val_of_single rfl j q
theorem dotS_rhs0 (j : S1024x1024.Idx) (q : dotS.contr.Idx) : (dotS.rhsIdx j q 0).val = (q ⟨0, by decide⟩).val :=
  dotS.rhsIdx_val_of_single rfl j q
theorem dotS_rhs1 (j : S1024x1024.Idx) (q : dotS.contr.Idx) : (dotS.rhsIdx j q 1).val = (j 1).val := by
  unfold DotDims.rhsIdx
  rw [dif_neg (show ¬(1 : Fin S512x1024.rank) ∈ dotS.rhsBatch by decide),
    dif_pos (show (1 : Fin S512x1024.rank) ∈ dotS.rhsNonContracting by decide)]
  rfl

/-- An entry of the first product into the zero block: the sum over the 512 features of the products of the left
    operand's row and the right operand's column. -/
theorem prodS_apply (x : FVec Ideal S1024x512 .bf16) (y : FVec Ideal S512x1024 .bf16) (r jj : Fin 1024) :
    matmul dotS none x y (constant S1024x1024 .f32 0x00000000#32) (ix2 r jj) = ∑ c : Fin 512, x (ix2 r c) * y (ix2 c jj) := by
  show FloatOps.matmul dotS none x y (constant S1024x1024 .f32 0x00000000#32) (ix2 r jj) = _
  rw [Ideal.matmul_constant_zero_apply, ← Equiv.sum_comp (contrEquiv1 dotS 512 rfl rfl).symm]
  refine Finset.sum_congr rfl fun c _ => ?_
  have hc := contrEquiv1_symm_val dotS 512 rfl rfl c
  have el : dotS.lhsIdx (ix2 r jj) ((contrEquiv1 dotS 512 rfl rfl).symm c) = ix2 r c := funext fun a => Fin.ext (by
    match a with
    | ⟨0, _⟩ => exact dotS_lhs0 _ _
    | ⟨1, _⟩ => exact (dotS_lhs1 _ _).trans hc)
  have er : dotS.rhsIdx (ix2 r jj) ((contrEquiv1 dotS 512 rfl rfl).symm c) = ix2 c jj := funext fun a => Fin.ext (by
    match a with
    | ⟨0, _⟩ => exact (dotS_rhs0 _ _).trans hc
    | ⟨1, _⟩ => exact dotS_rhs1 _ _)
  rw [el, er]

theorem dotV_lhs0 (j : S1024x512.Idx) (q : dotV.contr.Idx) : (dotV.lhsIdx j q 0).val = (j 0).val := by
  unfold DotDims.lhsIdx
  rw [dif_neg (show ¬(0 : Fin S1024x1024.rank) ∈ dotV.lhsBatch by decide),
    dif_pos (show (0 : Fin S1024x1024.rank) ∈ dotV.lhsNonContracting by decide)]
  rfl
theorem dotV_lhs1 (j : S1024x512.Idx) (q : dotV.contr.Idx) : (dotV.lhsIdx j q 1).val = (q ⟨0, by decide⟩).val :=
  dotV.lhsIdx_val_of_single rfl j q
theorem dotV_rhs0 (j : S1024x512.Idx) (q : dotV.contr.Idx) : (dotV.rhsIdx j q 0).val = (q ⟨0, by decide⟩).val :=
  dotV.rhsIdx_val_of_single rfl j q
theorem dotV_rhs1 (j : S1024x512.Idx) (q : dotV.contr.Idx) : (dotV.rhsIdx j q 1).val = (j 1).val := by
  unfold DotDims.rhsIdx
  rw [dif_neg (show ¬(1 : Fin S1024x512.rank) ∈ dotV.rhsBatch by decide),
    dif_pos (show (1 : Fin S1024x512.rank) ∈ dotV.rhsNonContracting by decide)]
  rfl

/-- An entry of the second product into the zero block: the sum over the tile's 1024 key columns of the products of
    the left operand's row and the right operand's column. -/
theorem prodV_apply (x : FVec Ideal S1024x1024 .bf16) (y : FVec Ideal S1024x512 .bf16) (r : Fin 1024) (d : Fin 512) :
    matmul dotV none x y (constant S1024x512 .f32 0x00000000#32) (ix2 r d) = ∑ jj : Fin 1024, x (ix2 r jj) * y (ix2 jj d) := by
  show FloatOps.matmul dotV none x y (constant S1024x512 .f32 0x00000000#32) (ix2 r d) = _
  rw [Ideal.matmul_constant_zero_apply, ← Equiv.sum_comp (contrEquiv1 dotV 1024 rfl rfl).symm]
  refine Finset.sum_congr rfl fun c _ => ?_
  have hc := contrEquiv1_symm_val dotV 1024 rfl rfl c
  have el : dotV.lhsIdx (ix2 r d) ((contrEquiv1 dotV 1024 rfl rfl).symm c) = ix2 r c := funext fun a => Fin.ext (by
    match a with
    | ⟨0, _⟩ => exact dotV_lhs0 _ _
    | ⟨1, _⟩ => exact (dotV_lhs1 _ _).trans hc)
  have er : dotV.rhsIdx (ix2 r d) ((contrEquiv1 dotV 1024 rfl rfl).symm c) = ix2 c d := funext fun a => Fin.ext (by
    match a with
    | ⟨0, _⟩ => exact (dotV_rhs0 _ _).trans hc
    | ⟨1, _⟩ => exact dotV_rhs1 _ _)
  rw [el, er]

/-! ### The masked exponentials of a point, entry by entry -/

/-- An entry of a point's masked exponentials, whatever the blocks hold: zero where the mask word is positive or the
    key position is past the end, else the exponential of the row-by-row product of the query and key blocks over
    the temperature one. -/
theorem pay6_apply (i : grid1.Coords) (q k : Vec Ideal S1024x512 .bf16) (a : Vec Ideal S1024x1024 .i32) (r jj : Fin 1024) :
    k1_pay6 i q k a (ix2 r jj)
      = if (0 < (a (ix2 r jj)).toInt ∨ 10000 ≤ (i 1).val * 1024 + jj.val) then 0
        else Ideal.exp (Ideal.div (∑ c : Fin 512, q (ix2 r c) * k (ix2 jj c)) Cert.Spec.oneW) := by
  have hki : (i 1).val < 10 := (i 1).isLt
  have key : k1_pay6 i q k a (ix2 r jj)
      = Scalar.select
          (IntOp.ori (IntOp.cmpi .sgt (a (ix2 r jj)) 0#32)
            (IntOp.cmpi .sge (IntOp.addi (Scalar.muli (BitVec.ofNat 32 (i 1).val) 1024#32)
              (iota .tc S1024x1024 32 [1] iota_S1024x1024_d1_w32 (ix2 r jj))) 10000#32))
          (Ideal.ofBits .f32 0x00000000#32)
          (Ideal.exp (Ideal.div
            (matmul (F := Ideal) (φ₁ := .bf16) (φ₂ := .bf16) dotS none (shapeCast S1024x512 q shapeCasts_S1024x512_S1024x512)
              (transpose S512x1024 [1, 0] (shapeCast S1024x512 k shapeCasts_S1024x512_S1024x512) transposes_S1024x512_p1_0_S512x1024)
              (constant S1024x1024 .f32 0x00000000#32) (ix2 r jj))
            Cert.Spec.oneW)) := rfl
  rw [key, iota_single_apply, prodS_apply, shapeCast_self, shapeCast_self]
  have hT : ∀ c : Fin 512, transpose S512x1024 [1, 0] k transposes_S1024x512_p1_0_S512x1024 (ix2 c jj) = k (ix2 jj c) :=
    fun c => transpose_ix2_apply k transposes_S1024x512_p1_0_S512x1024 c jj
  rw [Finset.sum_congr rfl (fun c _ => by rw [hT c])]
  by_cases hm : (0 < (a (ix2 r jj)).toInt ∨ 10000 ≤ (i 1).val * 1024 + jj.val)
  · rw [if_pos hm, (mask_bit_iff (i 1).val jj.val hki jj.isLt (a (ix2 r jj))).mpr hm, select_one]
    exact Ideal.ofBits_zero_f32
  · rw [if_neg hm, eq_zero_of_ne_one (fun h1 => hm ((mask_bit_iff (i 1).val jj.val hki jj.isLt (a (ix2 r jj))).mp h1)), select_zero]

/-! ### A point's effect on a row inside the array -/

section Valid
variable (NX XV : (⟨2, ![10000, 512]⟩ : Shape).Idx → EReal) (ADJ : (⟨2, ![10000, 10000]⟩ : Shape).Idx → BitVec 32)

/-- The specification's numerator vanishes at a key position past the end. -/
theorem Pn_past_end (m n : ℕ) (hn : ¬ n < 10000) : Cert.Spec.Pn NX ADJ m n = 0 := by
  unfold Cert.Spec.Pn
  rw [dif_neg (fun h => hn h.2)]

/-- On a row inside the array, an entry of a point's masked exponentials is the specification's numerator of the
    pair: the query row, the key rows inside the array and the mask entries inside the array are the arrays' own,
    and a key position past the end is masked whatever the blocks hold there. -/
theorem pay6_valid (i : grid1.Coords) (q k : Vec Ideal S1024x512 .bf16) (a : Vec Ideal S1024x1024 .i32) (r : Fin 1024)
    (hr : (i 0).val * 1024 + r.val < 10000)
    (hq : ∀ c : Fin 512, q (ix2 r c) = NX (ix2 ⟨(i 0).val * 1024 + r.val, hr⟩ c))
    (hk : ∀ (jj : Fin 1024) (hj : (i 1).val * 1024 + jj.val < 10000) (c : Fin 512),
      k (ix2 jj c) = NX (ix2 ⟨(i 1).val * 1024 + jj.val, hj⟩ c))
    (ha : ∀ (jj : Fin 1024) (hj : (i 1).val * 1024 + jj.val < 10000),
      a (ix2 r jj) = ADJ (ix2 ⟨(i 0).val * 1024 + r.val, hr⟩ ⟨(i 1).val * 1024 + jj.val, hj⟩))
    (jj : Fin 1024) :
    k1_pay6 i q k a (ix2 r jj) = Cert.Spec.Pn NX ADJ ((i 0).val * 1024 + r.val) ((i 1).val * 1024 + jj.val) := by
  rw [pay6_apply]
  by_cases hj : (i 1).val * 1024 + jj.val < 10000
  · unfold Cert.Spec.Pn
    rw [dif_pos ⟨hr, hj⟩, ha jj hj]
    by_cases hp : 0 < (ADJ (ix2 ⟨(i 0).val * 1024 + r.val, hr⟩ ⟨(i 1).val * 1024 + jj.val, hj⟩)).toInt
    · rw [if_pos (Or.inl hp), if_pos hp]
    · rw [if_neg (fun h => h.elim hp (fun h' => absurd hj (by omega))), if_neg hp,
        Finset.sum_congr rfl (fun c _ => by rw [hq c, hk jj hj c])]
  · rw [Pn_past_end NX ADJ _ _ hj, if_pos (Or.inr (by omega))]

/-- The row sums after a point, on a row inside the array: the row sum before it plus the specification's numerators
    over the tile's key positions. -/
theorem lNext_valid (i : grid1.Coords) (q k : Vec Ideal S1024x512 .bf16) (a : Vec Ideal S1024x1024 .i32)
    (l : Vec Ideal S1024x1 .f32) (r : Fin 1024)
    (hr : (i 0).val * 1024 + r.val < 10000)
    (hq : ∀ c : Fin 512, q (ix2 r c) = NX (ix2 ⟨(i 0).val * 1024 + r.val, hr⟩ c))
    (hk : ∀ (jj : Fin 1024) (hj : (i 1).val * 1024 + jj.val < 10000) (c : Fin 512),
      k (ix2 jj c) = NX (ix2 ⟨(i 1).val * 1024 + jj.val, hj⟩ c))
    (ha : ∀ (jj : Fin 1024) (hj : (i 1).val * 1024 + jj.val < 10000),
      a (ix2 r jj) = ADJ (ix2 ⟨(i 0).val * 1024 + r.val, hr⟩ ⟨(i 1).val * 1024 + jj.val, hj⟩)) :
    lNext i q k a l (ix2 r 0)
      = l (ix2 r 0) + ∑ jj : Fin 1024, Cert.Spec.Pn NX ADJ ((i 0).val * 1024 + r.val) ((i 1).val * 1024 + jj.val) := by
  have key : lNext i q k a l (ix2 r 0)
      = (shapeCast S1024x1
          (addf (F := Ideal) (φ := .f32) l
            (shapeCast S1024x1
              (multiReduction (F := Ideal) (φ := .f32) .add [1] S1024 (k1_pay6 i q k a) 0x00000000#32 reduces_S1024x1024_S1024 (.inl rfl) rfl)
              shapeCasts_S1024_S1024x1))
          shapeCasts_S1024x1_S1024x1) (ix2 r 0) := rfl
  rw [key, shapeCast_self, addf_apply]
  refine congrArg (l (ix2 r 0) + ·) ?_
  rw [shapeCast_apply _ shapeCasts_S1024_S1024x1 (ix2 r 0) (ix1 r) (by
      rw [Shape.rowMajor_val_one, Shape.rowMajor_val_two]
      show r.val = r.val * 1 + 0
      omega)]
  refine (Ideal.multiReduction_add_single (φ := .f32) (k1_pay6 i q k a) 0x00000000#32 reduces_S1024x1024_S1024 (.inl rfl) rfl (ix1 r)).trans ?_
  show ∑ jj : Fin 1024, k1_pay6 i q k a (reduces_S1024x1024_S1024.lift (ix1 r) jj) = _
  refine Finset.sum_congr rfl fun jj _ => ?_
  have hl : reduces_S1024x1024_S1024.lift (ix1 r) jj = ix2 r jj := funext fun b => Fin.ext (by
    match b with
    | ⟨0, _⟩ => rfl
    | ⟨1, _⟩ => rfl)
  rw [hl]
  exact pay6_valid NX ADJ i q k a r hr hq hk ha jj

/-- The accumulator after a point, on a row inside the array: the entry before it plus the specification's numerators
    times the value rows over the tile's key positions. Past the end the numerator is zero, so whatever the value
    block holds there contributes nothing. -/
theorem aNext_valid (i : grid1.Coords) (q k v : Vec Ideal S1024x512 .bf16) (a : Vec Ideal S1024x1024 .i32)
    (acc : Vec Ideal S1024x512 .f32) (r : Fin 1024) (d : Fin 512)
    (hr : (i 0).val * 1024 + r.val < 10000)
    (hq : ∀ c : Fin 512, q (ix2 r c) = NX (ix2 ⟨(i 0).val * 1024 + r.val, hr⟩ c))
    (hk : ∀ (jj : Fin 1024) (hj : (i 1).val * 1024 + jj.val < 10000) (c : Fin 512),
      k (ix2 jj c) = NX (ix2 ⟨(i 1).val * 1024 + jj.val, hj⟩ c))
    (ha : ∀ (jj : Fin 1024) (hj : (i 1).val * 1024 + jj.val < 10000),
      a (ix2 r jj) = ADJ (ix2 ⟨(i 0).val * 1024 + r.val, hr⟩ ⟨(i 1).val * 1024 + jj.val, hj⟩))
    (hv : ∀ (jj : Fin 1024) (hj : (i 1).val * 1024 + jj.val < 10000),
      v (ix2 jj d) = XV (ix2 ⟨(i 1).val * 1024 + jj.val, hj⟩ d)) :
    aNext i q k v a acc (ix2 r d)
      = acc (ix2 r d) + ∑ jj : Fin 1024,
          Cert.Spec.Pn NX ADJ ((i 0).val * 1024 + r.val) ((i 1).val * 1024 + jj.val) * Cert.Spec.XVn XV ((i 1).val * 1024 + jj.val) d := by
  have key : aNext i q k v a acc (ix2 r d)
      = (shapeCast S1024x512
          (addf (F := Ideal) (φ := .f32) acc
            (matmul (F := Ideal) (φ₁ := .bf16) (φ₂ := .bf16) dotV none
              (truncf (F := Ideal) (φ := .f32) .bf16 (k1_pay6 i q k a) bitsLt_bf16_f32)
              (shapeCast S1024x512 v shapeCasts_S1024x512_S1024x512)
              (constant S1024x512 .f32 0x00000000#32)))
          shapeCasts_S1024x512_S1024x512) (ix2 r d) := rfl
  rw [key, shapeCast_self, addf_apply, prodV_apply, shapeCast_self]
  refine congrArg (acc (ix2 r d) + ·) (Finset.sum_congr rfl fun jj _ => ?_)
  rw [truncf_apply, pay6_valid NX ADJ i q k a r hr hq hk ha jj]
  by_cases hj : (i 1).val * 1024 + jj.val < 10000
  · rw [hv jj hj]
    unfold Cert.Spec.XVn
    rw [dif_pos hj]
  · rw [Pn_past_end NX ADJ _ _ hj, zero_mul, zero_mul]

end Valid

end Cert.KernelIdeal.HandValue

end
-- ==== Proof.KI_R1Blocks.lean ====
/- What each of the second kernel's five input staging buffers holds when the body runs at a point, and what that is on
   the part inside the arrays.

   Every block is cut at the arrays' end (10000 = 9·1024 + 784): a buffer holds its block on the coordinates the transfer
   moves and contents nothing names past them. The key, value and mask blocks are fetched at every point; the query and
   `xf` blocks at the first key tile of each query tile, and stay in place through the other nine. On the moved part a
   block entry is the array's entry at (block index × block size + the coordinate inside the block) on each axis. -/
import proofs.«424991_j3564822856140_2_alg».proof.Proof.KI_R1Dat
import Idealize.ShloMosaic.Lib.Pipeline.FrameBody
import Idealize.ShloMosaic.Lib.ValueIdx

noncomputable section

namespace Cert.KernelIdeal.HandValue

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable (V : (c : Dev nD) → (b : Ref sig .tc) → Buf (Elt Ideal) ((c : Thread nD τ).loc b)) (q1 : Fin 6 → PosShare TreeShare)

/-! ## The point's coordinates -/

/-- The point's two coordinates: the grid is ten by ten and the key axis is the fast one, so point `t` is query
    tile `t / 10`, key tile `t % 10`. -/
theorem coords1 (t : Fin cfg1.N) : (grid1.coords t 0).val = t.val / 10 ∧ (grid1.coords t 1).val = t.val % 10 := by
  have hN : t.val < 100 := lt_of_lt_of_eq t.isLt N_1
  have s0 : grid1.stride 0 = 10 := by decide
  have s1 : grid1.stride 1 = 1 := by decide
  constructor
  · show t.val / grid1.stride 0 % 10 = _
    rw [s0]; omega
  · show t.val / grid1.stride 1 % 10 = _
    rw [s1]; omega

/-! ## What each input buffer holds when the body runs

The key, value and mask windows are fetched at every point. The query window and the `xf` window are fetched only at
the first key tile of a query tile; at the other points their buffers hold what the point before left, which is the
same block: the index map reads the query coordinate alone, and the cut at the array's end is a function of the
block index. Either way the buffer holds the block on the part inside the array and the filler `d` past it. -/

theorem before1_0 (c : Dev nD) (t : Fin cfg1.N) (d) :
    (dat1 V q1 c).before 0 t d = win1_0.fill (grid1.coords t) d (iblk1 V c 0 t) :=
  (dat1 V q1 c).before_in_eq_fetched 0 rfl (fun _ => rfl)
    (fun t t' h => funext fun a => congrArg (fun n => Pipeline.Clip.of n (S1024x512.size a) (S10000x512.size a)) (congrFun h a))
    (fun t => by rw [after1_0]; exact win1_0.cut_fill _ _ _) t d

theorem before1_1 (c : Dev nD) (t : Fin cfg1.N) (d) :
    (dat1 V q1 c).before 1 t d = win1_1.fill (grid1.coords t) d (iblk1 V c 1 t) := by
  unfold Dat.before; rw [if_pos (fetch1_1 t)]; rfl

theorem before1_2 (c : Dev nD) (t : Fin cfg1.N) (d) :
    (dat1 V q1 c).before 2 t d = win1_2.fill (grid1.coords t) d (iblk1 V c 2 t) := by
  unfold Dat.before; rw [if_pos (fetch1_2 t)]; rfl

theorem before1_3 (c : Dev nD) (t : Fin cfg1.N) (d) :
    (dat1 V q1 c).before 3 t d = win1_3.fill (grid1.coords t) d (iblk1 V c 3 t) := by
  unfold Dat.before; rw [if_pos (fetch1_3 t)]; rfl

theorem before1_4 (c : Dev nD) (t : Fin cfg1.N) (d) :
    (dat1 V q1 c).before 4 t d = win1_4.fill (grid1.coords t) d (iblk1 V c 4 t) :=
  (dat1 V q1 c).before_in_eq_fetched 4 rfl (fun _ => rfl)
    (fun t t' h => funext fun a => congrArg (fun n => Pipeline.Clip.of n (S1024x512.size a) (S10000x512.size a)) (congrFun h a))
    (fun t => by rw [after1_4]; exact win1_4.cut_fill _ _ _) t d

/-! ## The blocks on the part inside the arrays

A block's coordinate on an axis is the block index times the block size plus the coordinate inside the block; the
part of the block the transfer moves is, on a cut axis, the coordinates left before the array's end. So a block entry
whose array coordinates lie inside the array is moved, and the buffer holds there the array's entry. The block
indices and the cut sizes are decided once over the grid's hundred points. -/

/-- The query window's block index at a point — the query tile, column block zero — and the sizes of the block's part
    inside the array: the rows left before the array's end, at most 1024, and all 512 columns. -/
theorem idx1_0 : ∀ t : Fin cfg1.N, win1_0.index t 0 = t.val / 10 ∧ win1_0.index t 1 = 0
    ∧ win1_0.xsize (grid1.coords t) 0 = min 1024 (10000 - t.val / 10 * 1024) ∧ win1_0.xsize (grid1.coords t) 1 = 512 :=
  (by decide +kernel : ∀ t : Fin grid1.N, _)

/-- The key window's: the key tile, column block zero; the rows left, all the columns. -/
theorem idx1_1 : ∀ t : Fin cfg1.N, win1_1.index t 0 = t.val % 10 ∧ win1_1.index t 1 = 0
    ∧ win1_1.xsize (grid1.coords t) 0 = min 1024 (10000 - t.val % 10 * 1024) ∧ win1_1.xsize (grid1.coords t) 1 = 512 :=
  (by decide +kernel : ∀ t : Fin grid1.N, _)

/-- The value window's: as the key window's. -/
theorem idx1_2 : ∀ t : Fin cfg1.N, win1_2.index t 0 = t.val % 10 ∧ win1_2.index t 1 = 0
    ∧ win1_2.xsize (grid1.coords t) 0 = min 1024 (10000 - t.val % 10 * 1024) ∧ win1_2.xsize (grid1.coords t) 1 = 512 :=
  (by decide +kernel : ∀ t : Fin grid1.N, _)

/-- The mask window's: the query tile and the key tile; the rows left and the columns left, each at most 1024. -/
theorem idx1_3 : ∀ t : Fin cfg1.N, win1_3.index t 0 = t.val / 10 ∧ win1_3.index t 1 = t.val % 10
    ∧ win1_3.xsize (grid1.coords t) 0 = min 1024 (10000 - t.val / 10 * 1024)
    ∧ win1_3.xsize (grid1.coords t) 1 = min 1024 (10000 - t.val % 10 * 1024) :=
  (by decide +kernel : ∀ t : Fin grid1.N, _)

/-- The `xf` window's: as the query window's. -/
theorem idx1_4 : ∀ t : Fin cfg1.N, win1_4.index t 0 = t.val / 10 ∧ win1_4.index t 1 = 0
    ∧ win1_4.xsize (grid1.coords t) 0 = min 1024 (10000 - t.val / 10 * 1024) ∧ win1_4.xsize (grid1.coords t) 1 = 512 :=
  (by decide +kernel : ∀ t : Fin grid1.N, _)

/-- The query block's row `r`, inside the array, is the normalized array's row `r` of the query tile. -/
theorem q_row (c : Dev nD) (t : Fin cfg1.N) (d) (r : Fin 1024) (hr : (t.val / 10) * 1024 + r.val < 10000) (cc : Fin 512) :
    win1_0.fill (grid1.coords t) d (iblk1 V c 0 t) (ix2 r cc) = NXa V c (ix2 ⟨(t.val / 10) * 1024 + r.val, hr⟩ cc) := by
  obtain ⟨e0, e1, x0, x1⟩ := idx1_0 t
  have hm : win1_0.moved (grid1.coords t) (ix2 r cc) = true := (win1_0.moved_iff _ _).mpr fun a => by
    match a with
    | ⟨0, _⟩ => show r.val < win1_0.xsize (grid1.coords t) 0; rw [x0]; have := r.isLt; omega
    | ⟨1, _⟩ => show cc.val < win1_0.xsize (grid1.coords t) 1; rw [x1]; exact cc.isLt
  unfold Window.fill; rw [dif_pos hm]
  unfold iblk1
  show V c main_v0_0 (((cfg1.win 0).blk t).view.emb _) = V c main_v0_0 (ix2 ⟨(t.val / 10) * 1024 + r.val, hr⟩ cc)
  congr 1
  funext a; apply Fin.ext
  match a with
  | ⟨0, _⟩ => show win1_0.index t 0 * 1024 + 1 * r.val = (t.val / 10) * 1024 + r.val; rw [e0]; omega
  | ⟨1, _⟩ => show win1_0.index t 1 * 512 + 1 * cc.val = cc.val; rw [e1]; omega

/-- The key block's row `r`, inside the array, is the normalized array's row `r` of the key tile. -/
theorem k_row (c : Dev nD) (t : Fin cfg1.N) (d) (r : Fin 1024) (hr : (t.val % 10) * 1024 + r.val < 10000) (cc : Fin 512) :
    win1_1.fill (grid1.coords t) d (iblk1 V c 1 t) (ix2 r cc) = NXa V c (ix2 ⟨(t.val % 10) * 1024 + r.val, hr⟩ cc) := by
  obtain ⟨e0, e1, x0, x1⟩ := idx1_1 t
  have hm : win1_1.moved (grid1.coords t) (ix2 r cc) = true := (win1_1.moved_iff _ _).mpr fun a => by
    match a with
    | ⟨0, _⟩ => show r.val < win1_1.xsize (grid1.coords t) 0; rw [x0]; have := r.isLt; omega
    | ⟨1, _⟩ => show cc.val < win1_1.xsize (grid1.coords t) 1; rw [x1]; exact cc.isLt
  unfold Window.fill; rw [dif_pos hm]
  unfold iblk1
  show V c main_v0_0 (((cfg1.win 1).blk t).view.emb _) = V c main_v0_0 (ix2 ⟨(t.val % 10) * 1024 + r.val, hr⟩ cc)
  congr 1
  funext a; apply Fin.ext
  match a with
  | ⟨0, _⟩ => show win1_1.index t 0 * 1024 + 1 * r.val = (t.val % 10) * 1024 + r.val; rw [e0]; omega
  | ⟨1, _⟩ => show win1_1.index t 1 * 512 + 1 * cc.val = cc.val; rw [e1]; omega

/-- The value block's row `r`, inside the array, is the value array's row `r` of the key tile. -/
theorem v_row (c : Dev nD) (t : Fin cfg1.N) (d) (r : Fin 1024) (hr : (t.val % 10) * 1024 + r.val < 10000) (cc : Fin 512) :
    win1_2.fill (grid1.coords t) d (iblk1 V c 2 t) (ix2 r cc) = XVa V c (ix2 ⟨(t.val % 10) * 1024 + r.val, hr⟩ cc) := by
  obtain ⟨e0, e1, x0, x1⟩ := idx1_2 t
  have hm : win1_2.moved (grid1.coords t) (ix2 r cc) = true := (win1_2.moved_iff _ _).mpr fun a => by
    match a with
    | ⟨0, _⟩ => show r.val < win1_2.xsize (grid1.coords t) 0; rw [x0]; have := r.isLt; omega
    | ⟨1, _⟩ => show cc.val < win1_2.xsize (grid1.coords t) 1; rw [x1]; exact cc.isLt
  unfold Window.fill; rw [dif_pos hm]
  unfold iblk1
  show V c main_v0_1 (((cfg1.win 2).blk t).view.emb _) = V c main_v0_1 (ix2 ⟨(t.val % 10) * 1024 + r.val, hr⟩ cc)
  congr 1
  funext a; apply Fin.ext
  match a with
  | ⟨0, _⟩ => show win1_2.index t 0 * 1024 + 1 * r.val = (t.val % 10) * 1024 + r.val; rw [e0]; omega
  | ⟨1, _⟩ => show win1_2.index t 1 * 512 + 1 * cc.val = cc.val; rw [e1]; omega

/-- The mask block's entry at row `r` and column `jj`, both inside the array, is the mask's entry at row `r` of the
    query tile and column `jj` of the key tile. -/
theorem a_ent (c : Dev nD) (t : Fin cfg1.N) (d) (r jj : Fin 1024) (hr : (t.val / 10) * 1024 + r.val < 10000)
    (hj : (t.val % 10) * 1024 + jj.val < 10000) :
    win1_3.fill (grid1.coords t) d (iblk1 V c 3 t) (ix2 r jj)
      = ADJa V c (ix2 ⟨(t.val / 10) * 1024 + r.val, hr⟩ ⟨(t.val % 10) * 1024 + jj.val, hj⟩) := by
  obtain ⟨e0, e1, x0, x1⟩ := idx1_3 t
  have hm : win1_3.moved (grid1.coords t) (ix2 r jj) = true := (win1_3.moved_iff _ _).mpr fun a => by
    match a with
    | ⟨0, _⟩ => show r.val < win1_3.xsize (grid1.coords t) 0; rw [x0]; have := r.isLt; omega
    | ⟨1, _⟩ => show jj.val < win1_3.xsize (grid1.coords t) 1; rw [x1]; have := jj.isLt; omega
  unfold Window.fill; rw [dif_pos hm]
  unfold iblk1
  show V c main_arg1 (((cfg1.win 3).blk t).view.emb _)
    = V c main_arg1 (ix2 ⟨(t.val / 10) * 1024 + r.val, hr⟩ ⟨(t.val % 10) * 1024 + jj.val, hj⟩)
  congr 1
  funext a; apply Fin.ext
  match a with
  | ⟨0, _⟩ => show win1_3.index t 0 * 1024 + 1 * r.val = (t.val / 10) * 1024 + r.val; rw [e0]; omega
  | ⟨1, _⟩ => show win1_3.index t 1 * 1024 + 1 * jj.val = (t.val % 10) * 1024 + jj.val; rw [e1]; omega

/-- The `xf` block's row `r`, inside the array, is the array `x`'s row `r` of the query tile. -/
theorem xf_row (c : Dev nD) (t : Fin cfg1.N) (d) (r : Fin 1024) (hr : (t.val / 10) * 1024 + r.val < 10000) (cc : Fin 512) :
    win1_4.fill (grid1.coords t) d (iblk1 V c 4 t) (ix2 r cc) = XFa V c (ix2 ⟨(t.val / 10) * 1024 + r.val, hr⟩ cc) := by
  obtain ⟨e0, e1, x0, x1⟩ := idx1_4 t
  have hm : win1_4.moved (grid1.coords t) (ix2 r cc) = true := (win1_4.moved_iff _ _).mpr fun a => by
    match a with
    | ⟨0, _⟩ => show r.val < win1_4.xsize (grid1.coords t) 0; rw [x0]; have := r.isLt; omega
    | ⟨1, _⟩ => show cc.val < win1_4.xsize (grid1.coords t) 1; rw [x1]; exact cc.isLt
  unfold Window.fill; rw [dif_pos hm]
  unfold iblk1
  show V c main_arg0 (((cfg1.win 4).blk t).view.emb _) = V c main_arg0 (ix2 ⟨(t.val / 10) * 1024 + r.val, hr⟩ cc)
  congr 1
  funext a; apply Fin.ext
  match a with
  | ⟨0, _⟩ => show win1_4.index t 0 * 1024 + 1 * r.val = (t.val / 10) * 1024 + r.val; rw [e0]; omega
  | ⟨1, _⟩ => show win1_4.index t 1 * 512 + 1 * cc.val = cc.val; rw [e1]; omega

/-! ## The same over the point's coordinates

The body is run at the coordinates `grid1.coords t`; these restate the five lemmas with the query tile and the key tile
spelt as the point's coordinates. -/

theorem q_row_i (c : Dev nD) (t : Fin cfg1.N) (d) (r : Fin 1024) (hr : (grid1.coords t 0).val * 1024 + r.val < 10000) (cc : Fin 512) :
    win1_0.fill (grid1.coords t) d (iblk1 V c 0 t) (ix2 r cc) = NXa V c (ix2 ⟨(grid1.coords t 0).val * 1024 + r.val, hr⟩ cc) := by
  revert hr; rw [(coords1 t).1]; intro hr; exact q_row V c t d r hr cc

theorem k_row_i (c : Dev nD) (t : Fin cfg1.N) (d) (r : Fin 1024) (hr : (grid1.coords t 1).val * 1024 + r.val < 10000) (cc : Fin 512) :
    win1_1.fill (grid1.coords t) d (iblk1 V c 1 t) (ix2 r cc) = NXa V c (ix2 ⟨(grid1.coords t 1).val * 1024 + r.val, hr⟩ cc) := by
  revert hr; rw [(coords1 t).2]; intro hr; exact k_row V c t d r hr cc

theorem v_row_i (c : Dev nD) (t : Fin cfg1.N) (d) (r : Fin 1024) (hr : (grid1.coords t 1).val * 1024 + r.val < 10000) (cc : Fin 512) :
    win1_2.fill (grid1.coords t) d (iblk1 V c 2 t) (ix2 r cc) = XVa V c (ix2 ⟨(grid1.coords t 1).val * 1024 + r.val, hr⟩ cc) := by
  revert hr; rw [(coords1 t).2]; intro hr; exact v_row V c t d r hr cc

theorem a_ent_i (c : Dev nD) (t : Fin cfg1.N) (d) (r jj : Fin 1024) (hr : (grid1.coords t 0).val * 1024 + r.val < 10000)
    (hj : (grid1.coords t 1).val * 1024 + jj.val < 10000) :
    win1_3.fill (grid1.coords t) d (iblk1 V c 3 t) (ix2 r jj)
      = ADJa V c (ix2 ⟨(grid1.coords t 0).val * 1024 + r.val, hr⟩ ⟨(grid1.coords t 1).val * 1024 + jj.val, hj⟩) := by
  revert hr hj; rw [(coords1 t).1, (coords1 t).2]; intro hr hj; exact a_ent V c t d r jj hr hj

theorem xf_row_i (c : Dev nD) (t : Fin cfg1.N) (d) (r : Fin 1024) (hr : (grid1.coords t 0).val * 1024 + r.val < 10000) (cc : Fin 512) :
    win1_4.fill (grid1.coords t) d (iblk1 V c 4 t) (ix2 r cc) = XFa V c (ix2 ⟨(grid1.coords t 0).val * 1024 + r.val, hr⟩ cc) := by
  revert hr; rw [(coords1 t).1]; intro hr; exact xf_row V c t d r hr cc

end Cert.KernelIdeal.HandValue

end
-- ==== Proof.KI_R1Oblig.lean ====
/- The body obligation of the second kernel for its definite proof data.

   A grid point is a pair (query tile, key tile). What a point reads agrees with the arrays on the parts of its blocks
   inside the arrays; past the arrays' end a staged block holds words nothing names, and they do not matter: a row of
   the point's products depends only on that row of the query block, and a key position past the end is masked. So on
   the rows of the query tile inside the array the two carried buffers, which hold the sums over the key tiles done so
   far (zero after the reset at a first key tile), hold after the point the sums over one key tile more: the invariant
   passes every point that is not a last key tile, and after a last key tile a new query tile starts, of which the
   invariant says nothing. At a last key tile the carried sums are those over all ten key tiles, and the block the
   body stores, twice the input row minus the accumulator over the row sum, is the closed form of the output on the
   part of the block inside the array, which is all that is written back.

   The obligation itself is the three runs of the body (first key tile, last, one between) threaded through the
   invariant: each input buffer is handed back holding its block on the part inside the array; the output buffer is
   handed back as it was found where nothing is stored into it, and at a last key tile at the stored block. -/
import proofs.«424991_j3564822856140_2_alg».proof.Proof.KI_R1Dat
import proofs.«424991_j3564822856140_2_alg».proof.Proof.KI_R1Body
import proofs.«424991_j3564822856140_2_alg».proof.Proof.KI_R1Step
import proofs.«424991_j3564822856140_2_alg».proof.Proof.KI_R1Blocks
import proofs.«424991_j3564822856140_2_alg».proof.Proof.Gen.KernelIdeal.Launch
import proofs.«424991_j3564822856140_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

variable (V : (c : Dev nD) → (b : Ref sig .tc) → Buf (Elt Ideal) ((c : Thread nD τ).loc b)) (q1 : Fin 6 → PosShare TreeShare)

/-! ## One point's step on the carried sums -/

/-- One point grows the row sum and the accumulator of a row inside the array by the point's key tile: if the blocks
    read agree with the arrays on their parts inside, and the carried buffers hold the sums over the first `kj` key
    tiles on that row, then afterwards they hold the sums over `kj + 1`. -/
theorem step_sums (c : Dev nD) (i : grid1.Coords) (qi kj : ℕ) (hqi : (i 0).val = qi) (hkj : (i 1).val = kj)
    (q k v : Vec Ideal S1024x512 .bf16) (a : Vec Ideal S1024x1024 .i32) (l : Vec Ideal S1024x1 .f32) (acc : Vec Ideal S1024x512 .f32)
    (hq : ∀ (r : Fin 1024) (hr : qi * 1024 + r.val < 10000) (cc : Fin 512), q (ix2 r cc) = NXa V c (ix2 ⟨qi * 1024 + r.val, hr⟩ cc))
    (hk : ∀ (jj : Fin 1024) (hj : kj * 1024 + jj.val < 10000) (cc : Fin 512), k (ix2 jj cc) = NXa V c (ix2 ⟨kj * 1024 + jj.val, hj⟩ cc))
    (hv : ∀ (jj : Fin 1024) (hj : kj * 1024 + jj.val < 10000) (cc : Fin 512), v (ix2 jj cc) = XVa V c (ix2 ⟨kj * 1024 + jj.val, hj⟩ cc))
    (ha : ∀ (r : Fin 1024) (hr : qi * 1024 + r.val < 10000) (jj : Fin 1024) (hj : kj * 1024 + jj.val < 10000),
      a (ix2 r jj) = ADJa V c (ix2 ⟨qi * 1024 + r.val, hr⟩ ⟨kj * 1024 + jj.val, hj⟩))
    (r : Fin 1024) (hr : qi * 1024 + r.val < 10000)
    (hl : l (ix2 r 0) = Cert.Spec.Lsum (NXa V c) (ADJa V c) qi kj r)
    (hacc : ∀ d : Fin 512, acc (ix2 r d) = Cert.Spec.Asum (NXa V c) (XVa V c) (ADJa V c) qi kj r d) :
    lNext i q k a l (ix2 r 0) = Cert.Spec.Lsum (NXa V c) (ADJa V c) qi (kj + 1) r
      ∧ ∀ d : Fin 512, aNext i q k v a acc (ix2 r d) = Cert.Spec.Asum (NXa V c) (XVa V c) (ADJa V c) qi (kj + 1) r d := by
  subst hqi hkj
  refine ⟨?_, fun d => ?_⟩
  · rw [lNext_valid (NXa V c) (ADJa V c) i q k a l r hr (hq r hr) hk (ha r hr), hl, Cert.Spec.Lsum_succ]
  · rw [aNext_valid (NXa V c) (XVa V c) (ADJa V c) i q k v a acc r d hr (hq r hr) hk (ha r hr) (fun jj hj => hv jj hj d), hacc d,
      Cert.Spec.Asum_succ]

/-- The four input blocks a point reads agree with the arrays on the parts of the blocks inside the arrays: the query
    rows and the key rows of the normalized array, the value rows, and the mask's tile. -/
structure ReadsAt (c : Dev nD) (t : Fin cfg1.N) (q k v : Vec Ideal S1024x512 .bf16) (a : Vec Ideal S1024x1024 .i32) : Prop where
  hq : ∀ (r : Fin 1024) (hr : t.val / 10 * 1024 + r.val < 10000) (cc : Fin 512), q (ix2 r cc) = NXa V c (ix2 ⟨t.val / 10 * 1024 + r.val, hr⟩ cc)
  hk : ∀ (jj : Fin 1024) (hj : t.val % 10 * 1024 + jj.val < 10000) (cc : Fin 512), k (ix2 jj cc) = NXa V c (ix2 ⟨t.val % 10 * 1024 + jj.val, hj⟩ cc)
  hv : ∀ (jj : Fin 1024) (hj : t.val % 10 * 1024 + jj.val < 10000) (cc : Fin 512), v (ix2 jj cc) = XVa V c (ix2 ⟨t.val % 10 * 1024 + jj.val, hj⟩ cc)
  ha : ∀ (r : Fin 1024) (hr : t.val / 10 * 1024 + r.val < 10000) (jj : Fin 1024) (hj : t.val % 10 * 1024 + jj.val < 10000),
    a (ix2 r jj) = ADJa V c (ix2 ⟨t.val / 10 * 1024 + r.val, hr⟩ ⟨t.val % 10 * 1024 + jj.val, hj⟩)

/-- What the body finds in the four input buffers reads so, whatever lies past the arrays' end. -/
theorem readsAt_found (c : Dev nD) (t : Fin cfg1.N) (d0 d1 d2 d3) :
    ReadsAt V c t (win1_0.fill (grid1.coords t) d0 (iblk1 V c 0 t)) (win1_1.fill (grid1.coords t) d1 (iblk1 V c 1 t))
      (win1_2.fill (grid1.coords t) d2 (iblk1 V c 2 t)) (win1_3.fill (grid1.coords t) d3 (iblk1 V c 3 t)) :=
  ⟨q_row V c t d0, k_row V c t d1, v_row V c t d2, fun r hr jj hj => a_ent V c t d3 r jj hr hj⟩

/-- After point `t` the carried buffers hold, on a row inside the array, the sums over the key tiles up to and
    including `t`'s: from the invariant before the point, the buffers being zero at a first key tile. -/
theorem sums_after (c : Dev nD) (t : Fin cfg1.N) (q k v : Vec Ideal S1024x512 .bf16) (a : Vec Ideal S1024x1024 .i32)
    (l : Vec Ideal S1024x1 .f32) (acc : Vec Ideal S1024x512 .f32) (hR : ReadsAt V c t q k v a)
    (hfirst : t.val % 10 = 0 → ∀ r : Fin 1024, l (ix2 r 0) = 0 ∧ ∀ d : Fin 512, acc (ix2 r d) = 0)
    (hinv : Inv V c t.val l acc) (r : Fin 1024) (hr : t.val / 10 * 1024 + r.val < 10000) :
    lNext (grid1.coords t) q k a l (ix2 r 0) = Cert.Spec.Lsum (NXa V c) (ADJa V c) (t.val / 10) (t.val % 10 + 1) r
      ∧ ∀ d : Fin 512, aNext (grid1.coords t) q k v a acc (ix2 r d)
          = Cert.Spec.Asum (NXa V c) (XVa V c) (ADJa V c) (t.val / 10) (t.val % 10 + 1) r d := by
  have hcur : l (ix2 r 0) = Cert.Spec.Lsum (NXa V c) (ADJa V c) (t.val / 10) (t.val % 10) r
      ∧ ∀ d : Fin 512, acc (ix2 r d) = Cert.Spec.Asum (NXa V c) (XVa V c) (ADJa V c) (t.val / 10) (t.val % 10) r d := by
    rcases hinv with h | h
    · obtain ⟨h1, h2⟩ := hfirst h r
      rw [h]
      exact ⟨by rw [h1, Cert.Spec.Lsum_zero], fun d => by rw [h2 d, Cert.Spec.Asum_zero]⟩
    · exact h r hr
  exact step_sums V c (grid1.coords t) (t.val / 10) (t.val % 10) (coords1 t).1 (coords1 t).2 q k v a l acc
    hR.hq hR.hk hR.hv hR.ha r hr hcur.1 hcur.2

/-- The invariant passes a point that is not a last key tile: the next point is the same query tile's next key tile. -/
theorem inv_step (c : Dev nD) (t : Fin cfg1.N) (h9 : t.val % 10 ≠ 9) (q k v : Vec Ideal S1024x512 .bf16) (a : Vec Ideal S1024x1024 .i32)
    (l : Vec Ideal S1024x1 .f32) (acc : Vec Ideal S1024x512 .f32) (hR : ReadsAt V c t q k v a)
    (hfirst : t.val % 10 = 0 → ∀ r : Fin 1024, l (ix2 r 0) = 0 ∧ ∀ d : Fin 512, acc (ix2 r d) = 0)
    (hinv : Inv V c t.val l acc) :
    Inv V c (t.val + 1) (lNext (grid1.coords t) q k a l) (aNext (grid1.coords t) q k v a acc) := by
  refine Or.inr fun r hr => ?_
  have e1 : (t.val + 1) / 10 = t.val / 10 := by omega
  have e2 : (t.val + 1) % 10 = t.val % 10 + 1 := by omega
  rw [e1] at hr; rw [e1, e2]
  exact sums_after V c t q k v a l acc hR hfirst hinv r hr

/-- After a last key tile the next point starts a query tile, of which the invariant says nothing. -/
theorem inv_step_last (c : Dev nD) (t : Fin cfg1.N) (h9 : t.val % 10 = 9) (l : Vec Ideal S1024x1 .f32) (acc : Vec Ideal S1024x512 .f32) :
    Inv V c (t.val + 1) l acc := Or.inl (by omega)

/-- The reset contents are zero. -/
theorem reset_zero (r : Fin 1024) : (k1_pay3 (F := Ideal)) (ix2 r 0) = 0 ∧ ∀ d : Fin 512, (k1_pay4 (F := Ideal)) (ix2 r d) = 0 :=
  ⟨reset_l r, reset_acc r⟩

/-! ## The output block at a last key tile -/

/-- The part of the output block inside the array: its rows are rows of the array and its indices are the block's. -/
theorem out_rows (t : Fin cfg1.N) (y : (win1_5.xblock (grid1.coords t)).Idx) :
    t.val / 10 * 1024 + (y 0).val < 10000 ∧ (y 0).val < 1024 ∧ (y 1).val < 512 := by
  have hx : ∀ t : Fin grid1.N, t.val / 10 * 1024 + win1_5.xsize (grid1.coords t) 0 ≤ 10000
      ∧ win1_5.xsize (grid1.coords t) 0 ≤ 1024 ∧ win1_5.xsize (grid1.coords t) 1 ≤ 512 := by decide +kernel
  obtain ⟨h0, h1, h2⟩ := hx t
  have y0 : (y 0).val < win1_5.xsize (grid1.coords t) 0 := (y 0).isLt
  have y1 : (y 1).val < win1_5.xsize (grid1.coords t) 1 := (y 1).isLt
  omega

/-- At a last key tile the block the body stores agrees, on its part inside the array, with the closed form at ten
    key tiles: twice the input row minus the accumulator over the row sum. -/
theorem out_block_eq (c : Dev nD) (t : Fin cfg1.N) (h9 : t.val % 10 = 9) (q k v : Vec Ideal S1024x512 .bf16) (a : Vec Ideal S1024x1024 .i32)
    (xf : Vec Ideal S1024x512 .f32) (l : Vec Ideal S1024x1 .f32) (acc : Vec Ideal S1024x512 .f32) (hR : ReadsAt V c t q k v a)
    (hxf : ∀ (r : Fin 1024) (hr : t.val / 10 * 1024 + r.val < 10000) (cc : Fin 512), xf (ix2 r cc) = XFa V c (ix2 ⟨t.val / 10 * 1024 + r.val, hr⟩ cc))
    (hinv : Inv V c t.val l acc) :
    win1_5.cut (grid1.coords t) (oNext (aNext (grid1.coords t) q k v a acc) (lNext (grid1.coords t) q k a l) xf)
      = win1_5.cut (grid1.coords t) ((dat1 V q1 c).after 5 t) := by
  rw [after1_5, Window.cut_fill]
  funext y
  obtain ⟨hrow, h0, h1⟩ := out_rows t y
  have hx : win1_5.xinj (grid1.coords t) y = ix2 (⟨(y 0).val, h0⟩ : Fin 1024) (⟨(y 1).val, h1⟩ : Fin 512) := by
    funext b; match b with
    | ⟨0, _⟩ => rfl
    | ⟨1, _⟩ => rfl
  show oNext _ _ xf (win1_5.xinj (grid1.coords t) y) = _
  rw [hx, oNext_apply]
  obtain ⟨hl, ha⟩ := sums_after V c t q k v a l acc hR (fun h => by omega) hinv ⟨(y 0).val, h0⟩ hrow
  rw [hl, ha, hxf _ hrow, show t.val % 10 + 1 = 10 by omega]
  unfold Cert.Spec.OutN
  rw [dif_pos ⟨h0, h1⟩, (coords1 t).1]
  unfold Cert.Spec.XVn
  rw [dif_pos hrow]

/-! ## The body obligation -/

/-- What the body is called with at point `t`: the invariant, what the core owes, and each window's current buffer at
    what it then holds. -/
def bodyPre1 (c : Dev nD) (t : Fin cfg1.N) : sProp 𝕄 :=
  iprop(Phi1 V c t.castSucc ∗ (dat1 V q1 c).owesAt () t.castSucc
    ∗ (∃ d, owns (c : Thread nD τ) (st1_0 t) fullShare ((dat1 V q1 c).before 0 t d))
    ∗ (∃ d, owns (c : Thread nD τ) (st1_1 t) fullShare ((dat1 V q1 c).before 1 t d))
    ∗ (∃ d, owns (c : Thread nD τ) (st1_2 t) fullShare ((dat1 V q1 c).before 2 t d))
    ∗ (∃ d, owns (c : Thread nD τ) (st1_3 t) fullShare ((dat1 V q1 c).before 3 t d))
    ∗ (∃ d, owns (c : Thread nD τ) (st1_4 t) fullShare ((dat1 V q1 c).before 4 t d))
    ∗ (∃ d, owns (c : Thread nD τ) (st1_5 t) fullShare ((dat1 V q1 c).before 5 t d)))

/-- What it returns at a point that is not a last key tile: each input buffer at its block on the part inside the
    array, the output buffer as it was found. -/
def bodyPostIdle1 (c : Dev nD) (t : Fin cfg1.N) : sProp 𝕄 :=
  iprop(Phi1 V c t.succ ∗ (dat1 V q1 c).owesAt () t.succ
    ∗ (∃ d, owns (c : Thread nD τ) (st1_0 t) fullShare (win1_0.fill (grid1.coords t) d (win1_0.cut (grid1.coords t) ((dat1 V q1 c).after 0 t))))
    ∗ (∃ d, owns (c : Thread nD τ) (st1_1 t) fullShare (win1_1.fill (grid1.coords t) d (win1_1.cut (grid1.coords t) ((dat1 V q1 c).after 1 t))))
    ∗ (∃ d, owns (c : Thread nD τ) (st1_2 t) fullShare (win1_2.fill (grid1.coords t) d (win1_2.cut (grid1.coords t) ((dat1 V q1 c).after 2 t))))
    ∗ (∃ d, owns (c : Thread nD τ) (st1_3 t) fullShare (win1_3.fill (grid1.coords t) d (win1_3.cut (grid1.coords t) ((dat1 V q1 c).after 3 t))))
    ∗ (∃ d, owns (c : Thread nD τ) (st1_4 t) fullShare (win1_4.fill (grid1.coords t) d (win1_4.cut (grid1.coords t) ((dat1 V q1 c).after 4 t))))
    ∗ (∃ d, owns (c : Thread nD τ) (st1_5 t) fullShare ((dat1 V q1 c).before 5 t d)))

/-- What it returns at a last key tile: the output buffer at the closed form on the part inside the array. -/
def bodyPostLast1 (c : Dev nD) (t : Fin cfg1.N) : sProp 𝕄 :=
  iprop(Phi1 V c t.succ ∗ (dat1 V q1 c).owesAt () t.succ
    ∗ (∃ d, owns (c : Thread nD τ) (st1_0 t) fullShare (win1_0.fill (grid1.coords t) d (win1_0.cut (grid1.coords t) ((dat1 V q1 c).after 0 t))))
    ∗ (∃ d, owns (c : Thread nD τ) (st1_1 t) fullShare (win1_1.fill (grid1.coords t) d (win1_1.cut (grid1.coords t) ((dat1 V q1 c).after 1 t))))
    ∗ (∃ d, owns (c : Thread nD τ) (st1_2 t) fullShare (win1_2.fill (grid1.coords t) d (win1_2.cut (grid1.coords t) ((dat1 V q1 c).after 2 t))))
    ∗ (∃ d, owns (c : Thread nD τ) (st1_3 t) fullShare (win1_3.fill (grid1.coords t) d (win1_3.cut (grid1.coords t) ((dat1 V q1 c).after 3 t))))
    ∗ (∃ d, owns (c : Thread nD τ) (st1_4 t) fullShare (win1_4.fill (grid1.coords t) d (win1_4.cut (grid1.coords t) ((dat1 V q1 c).after 4 t))))
    ∗ (∃ d, owns (c : Thread nD τ) (st1_5 t) fullShare (win1_5.fill (grid1.coords t) d (win1_5.cut (grid1.coords t) ((dat1 V q1 c).after 5 t)))))

/-- An input buffer holding its block, whatever past the array's end, is handed back: on the part inside the array
    it holds what the data say. -/
theorem back_0 (c : Dev nD) (t : Fin cfg1.N) (d) :
    (owns (c : Thread nD τ) (st1_0 t) fullShare (win1_0.fill (grid1.coords t) d (iblk1 V c 0 t)) : sProp 𝕄)
      ⊢ iprop(∃ d', owns (c : Thread nD τ) (st1_0 t) fullShare (win1_0.fill (grid1.coords t) d' (win1_0.cut (grid1.coords t) ((dat1 V q1 c).after 0 t)))) := by
  rw [after1_0, Window.cut_fill]; iintro H; iexists d; iexact H
theorem back_1 (c : Dev nD) (t : Fin cfg1.N) (d) :
    (owns (c : Thread nD τ) (st1_1 t) fullShare (win1_1.fill (grid1.coords t) d (iblk1 V c 1 t)) : sProp 𝕄)
      ⊢ iprop(∃ d', owns (c : Thread nD τ) (st1_1 t) fullShare (win1_1.fill (grid1.coords t) d' (win1_1.cut (grid1.coords t) ((dat1 V q1 c).after 1 t)))) := by
  rw [after1_1, Window.cut_fill]; iintro H; iexists d; iexact H
theorem back_2 (c : Dev nD) (t : Fin cfg1.N) (d) :
    (owns (c : Thread nD τ) (st1_2 t) fullShare (win1_2.fill (grid1.coords t) d (iblk1 V c 2 t)) : sProp 𝕄)
      ⊢ iprop(∃ d', owns (c : Thread nD τ) (st1_2 t) fullShare (win1_2.fill (grid1.coords t) d' (win1_2.cut (grid1.coords t) ((dat1 V q1 c).after 2 t)))) := by
  rw [after1_2, Window.cut_fill]; iintro H; iexists d; iexact H
theorem back_3 (c : Dev nD) (t : Fin cfg1.N) (d) :
    (owns (c : Thread nD τ) (st1_3 t) fullShare (win1_3.fill (grid1.coords t) d (iblk1 V c 3 t)) : sProp 𝕄)
      ⊢ iprop(∃ d', owns (c : Thread nD τ) (st1_3 t) fullShare (win1_3.fill (grid1.coords t) d' (win1_3.cut (grid1.coords t) ((dat1 V q1 c).after 3 t)))) := by
  rw [after1_3, Window.cut_fill]; iintro H; iexists d; iexact H
theorem back_4 (c : Dev nD) (t : Fin cfg1.N) (d) :
    (owns (c : Thread nD τ) (st1_4 t) fullShare (win1_4.fill (grid1.coords t) d (iblk1 V c 4 t)) : sProp 𝕄)
      ⊢ iprop(∃ d', owns (c : Thread nD τ) (st1_4 t) fullShare (win1_4.fill (grid1.coords t) d' (win1_4.cut (grid1.coords t) ((dat1 V q1 c).after 4 t)))) := by
  rw [after1_4, Window.cut_fill]; iintro H; iexists d; iexact H

/-- The body at a first key tile. -/
theorem sound_body1_first (c : Dev nD) (t : Fin cfg1.N) (h0 : t.val % 10 = 0) :
    bodyPre1 V q1 c t ⊢ wp frame (wpE (defs₀ (F := Ideal)) Variants.none c none) Set.univ (bodyAt1 t) (fun _ => bodyPostIdle1 V q1 c t) := by
  have hi : (grid1.coords t 1).val = 0 := (coords1 t).2.trans h0
  unfold bodyPre1 bodyPostIdle1 bodyAt1 Phi1
  simp only [before1_0, before1_1, before1_2, before1_3, before1_4]
  rw [show (dat1 V q1 c).owesAt () t.succ = (dat1 V q1 c).owesAt () t.castSucc from rfl]
  iintro ⟨⟨Hp, S0, S1, S2, S3, S4, S5, ⟨%l, %acc, Hl, Ha, %hinv⟩⟩, Ho, ⟨%d0, W0⟩, ⟨%d1, W1⟩, ⟨%d2, W2⟩, ⟨%d3, W3⟩, ⟨%d4, W4⟩, ⟨%d5, W5⟩⟩
  iapply (sound_kernel1_first c Set.univ (grid1.coords t) hi _ _ _ _ _ _ _ _ _ _ _ _ _ _ _ _
    (win1_0.fill (grid1.coords t) d0 (iblk1 V c 0 t)) (win1_1.fill (grid1.coords t) d1 (iblk1 V c 1 t))
    (win1_2.fill (grid1.coords t) d2 (iblk1 V c 2 t)) (win1_3.fill (grid1.coords t) d3 (iblk1 V c 3 t))
    (win1_4.fill (grid1.coords t) d4 (iblk1 V c 4 t)) ((dat1 V q1 c).before 5 t d5) l acc _)
  isplitl [W0]; · iexact W0
  isplitl [W1]; · iexact W1
  isplitl [W2]; · iexact W2
  isplitl [W3]; · iexact W3
  isplitl [W4]; · iexact W4
  isplitl [W5]; · iexact W5
  isplitl [Hl]; · iexact Hl
  isplitl [Ha]; · iexact Ha
  iintro ⟨W0, W1, W2, W3, W4, W5, Hl, Ha⟩
  isplitl [Hp S0 S1 S2 S3 S4 S5 Hl Ha]
  · isplitl [Hp]; · iexact Hp
    isplitl [S0]; · iexact S0
    isplitl [S1]; · iexact S1
    isplitl [S2]; · iexact S2
    isplitl [S3]; · iexact S3
    isplitl [S4]; · iexact S4
    isplitl [S5]; · iexact S5
    iexists _, _
    isplitl [Hl]; · iexact Hl
    isplitl [Ha]; · iexact Ha
    ipureintro
    exact inv_step V c t (by omega) _ _ _ _ _ _ (readsAt_found V c t d0 d1 d2 d3) (fun _ r => reset_zero r) (Or.inl h0)
  isplitl [Ho]; · iexact Ho
  isplitl [W0]; · iapply (back_0 V q1 c t d0); iexact W0
  isplitl [W1]; · iapply (back_1 V q1 c t d1); iexact W1
  isplitl [W2]; · iapply (back_2 V q1 c t d2); iexact W2
  isplitl [W3]; · iapply (back_3 V q1 c t d3); iexact W3
  isplitl [W4]; · iapply (back_4 V q1 c t d4); iexact W4
  iexists d5; iexact W5

/-- The body at a key tile that is neither first nor last. -/
theorem sound_body1_mid (c : Dev nD) (t : Fin cfg1.N) (h0 : t.val % 10 ≠ 0) (h9 : t.val % 10 ≠ 9) :
    bodyPre1 V q1 c t ⊢ wp frame (wpE (defs₀ (F := Ideal)) Variants.none c none) Set.univ (bodyAt1 t) (fun _ => bodyPostIdle1 V q1 c t) := by
  have hi0 : (grid1.coords t 1).val ≠ 0 := fun h => h0 ((coords1 t).2.symm.trans h)
  have hi9 : (grid1.coords t 1).val ≠ 9 := fun h => h9 ((coords1 t).2.symm.trans h)
  unfold bodyPre1 bodyPostIdle1 bodyAt1 Phi1
  simp only [before1_0, before1_1, before1_2, before1_3, before1_4]
  rw [show (dat1 V q1 c).owesAt () t.succ = (dat1 V q1 c).owesAt () t.castSucc from rfl]
  iintro ⟨⟨Hp, S0, S1, S2, S3, S4, S5, ⟨%l, %acc, Hl, Ha, %hinv⟩⟩, Ho, ⟨%d0, W0⟩, ⟨%d1, W1⟩, ⟨%d2, W2⟩, ⟨%d3, W3⟩, ⟨%d4, W4⟩, ⟨%d5, W5⟩⟩
  iapply (sound_kernel1_mid c Set.univ (grid1.coords t) hi0 hi9 _ _ _ _ _ _ _ _ _ _ _ _ _ _ _ _
    (win1_0.fill (grid1.coords t) d0 (iblk1 V c 0 t)) (win1_1.fill (grid1.coords t) d1 (iblk1 V c 1 t))
    (win1_2.fill (grid1.coords t) d2 (iblk1 V c 2 t)) (win1_3.fill (grid1.coords t) d3 (iblk1 V c 3 t))
    (win1_4.fill (grid1.coords t) d4 (iblk1 V c 4 t)) ((dat1 V q1 c).before 5 t d5) l acc _)
  isplitl [W0]; · iexact W0
  isplitl [W1]; · iexact W1
  isplitl [W2]; · iexact W2
  isplitl [W3]; · iexact W3
  isplitl [W4]; · iexact W4
  isplitl [W5]; · iexact W5
  isplitl [Hl]; · iexact Hl
  isplitl [Ha]; · iexact Ha
  iintro ⟨W0, W1, W2, W3, W4, W5, Hl, Ha⟩
  isplitl [Hp S0 S1 S2 S3 S4 S5 Hl Ha]
  · isplitl [Hp]; · iexact Hp
    isplitl [S0]; · iexact S0
    isplitl [S1]; · iexact S1
    isplitl [S2]; · iexact S2
    isplitl [S3]; · iexact S3
    isplitl [S4]; · iexact S4
    isplitl [S5]; · iexact S5
    iexists _, _
    isplitl [Hl]; · iexact Hl
    isplitl [Ha]; · iexact Ha
    ipureintro
    exact inv_step V c t h9 _ _ _ _ _ _ (readsAt_found V c t d0 d1 d2 d3) (fun h => absurd h h0) hinv
  isplitl [Ho]; · iexact Ho
  isplitl [W0]; · iapply (back_0 V q1 c t d0); iexact W0
  isplitl [W1]; · iapply (back_1 V q1 c t d1); iexact W1
  isplitl [W2]; · iapply (back_2 V q1 c t d2); iexact W2
  isplitl [W3]; · iapply (back_3 V q1 c t d3); iexact W3
  isplitl [W4]; · iapply (back_4 V q1 c t d4); iexact W4
  iexists d5; iexact W5

/-- The body at a last key tile: the stored block is the closed form at ten key tiles on the part inside the array. -/
theorem sound_body1_last (c : Dev nD) (t : Fin cfg1.N) (h9 : t.val % 10 = 9) :
    bodyPre1 V q1 c t ⊢ wp frame (wpE (defs₀ (F := Ideal)) Variants.none c none) Set.univ (bodyAt1 t) (fun _ => bodyPostLast1 V q1 c t) := by
  have hi : (grid1.coords t 1).val = 9 := (coords1 t).2.trans h9
  unfold bodyPre1 bodyPostLast1 bodyAt1 Phi1
  simp only [before1_0, before1_1, before1_2, before1_3, before1_4]
  rw [show (dat1 V q1 c).owesAt () t.succ = (dat1 V q1 c).owesAt () t.castSucc from rfl]
  iintro ⟨⟨Hp, S0, S1, S2, S3, S4, S5, ⟨%l, %acc, Hl, Ha, %hinv⟩⟩, Ho, ⟨%d0, W0⟩, ⟨%d1, W1⟩, ⟨%d2, W2⟩, ⟨%d3, W3⟩, ⟨%d4, W4⟩, ⟨%d5, W5⟩⟩
  iapply (sound_kernel1_last c Set.univ (grid1.coords t) hi _ _ _ _ _ _ _ _ _ _ _ _ _ _ _ _
    (win1_0.fill (grid1.coords t) d0 (iblk1 V c 0 t)) (win1_1.fill (grid1.coords t) d1 (iblk1 V c 1 t))
    (win1_2.fill (grid1.coords t) d2 (iblk1 V c 2 t)) (win1_3.fill (grid1.coords t) d3 (iblk1 V c 3 t))
    (win1_4.fill (grid1.coords t) d4 (iblk1 V c 4 t)) ((dat1 V q1 c).before 5 t d5) l acc _)
  isplitl [W0]; · iexact W0
  isplitl [W1]; · iexact W1
  isplitl [W2]; · iexact W2
  isplitl [W3]; · iexact W3
  isplitl [W4]; · iexact W4
  isplitl [W5]; · iexact W5
  isplitl [Hl]; · iexact Hl
  isplitl [Ha]; · iexact Ha
  iintro ⟨W0, W1, W2, W3, W4, W5, Hl, Ha⟩
  isplitl [Hp S0 S1 S2 S3 S4 S5 Hl Ha]
  · isplitl [Hp]; · iexact Hp
    isplitl [S0]; · iexact S0
    isplitl [S1]; · iexact S1
    isplitl [S2]; · iexact S2
    isplitl [S3]; · iexact S3
    isplitl [S4]; · iexact S4
    isplitl [S5]; · iexact S5
    iexists _, _
    isplitl [Hl]; · iexact Hl
    isplitl [Ha]; · iexact Ha
    ipureintro
    exact inv_step_last V c t h9 _ _
  isplitl [Ho]; · iexact Ho
  isplitl [W0]; · iapply (back_0 V q1 c t d0); iexact W0
  isplitl [W1]; · iapply (back_1 V q1 c t d1); iexact W1
  isplitl [W2]; · iapply (back_2 V q1 c t d2); iexact W2
  isplitl [W3]; · iapply (back_3 V q1 c t d3); iexact W3
  isplitl [W4]; · iapply (back_4 V q1 c t d4); iexact W4
  iexists _
  rw [Window.fill_congr_cut win1_5 (grid1.coords t) (out_block_eq V q1 c t h9 _ _ _ _ _ l acc (readsAt_found V c t d0 d1 d2 d3) (xf_row V c t d4) hinv)]
  iexact W5

/-- The library's body obligation, at every point: by the key tile, first, last or between; the output window is idle
    exactly where the last-tile test fails, and is written back exactly at the last key tiles. -/
theorem body_obligation1 (c : Dev nD) : BodyObligationLoose (dat1 V q1 c) (defs₀ (F := Ideal)) Variants.none () Set.univ := fun t => by
  rw [Gen.bigSep_W1, Gen.bigSep_W1]
  simp only
  by_cases h9 : t.val % 10 = 9
  · have hidle : idle1 5 (grid1.coords t) = false := by
      have hc : k1_cond2 (grid1.coords t) = 1#1 := (last_test_iff (grid1.coords t)).mpr ((coords1 t).2.trans h9)
      show (!(k1_cond2 (grid1.coords t) == 1#1)) = false
      rw [hc]; rfl
    simp only [hidle]
    exact sound_body1_last V q1 c t h9
  · have hidle : idle1 5 (grid1.coords t) = true := by
      have hc : ¬ k1_cond2 (grid1.coords t) = 1#1 := fun h => h9 ((coords1 t).2.symm.trans ((last_test_iff (grid1.coords t)).mp h))
      show (!(k1_cond2 (grid1.coords t) == 1#1)) = true
      rw [Bool.not_eq_true', beq_eq_false_iff_ne]; exact hc
    have hfl : (win1 5).flush t = false := by
      have := Gen.flush1_5 t
      cases hf : (win1 5).flush t
      · rfl
      · exact absurd (this.mp hf) h9
    simp only [hidle, hfl]
    by_cases h0 : t.val % 10 = 0
    · exact sound_body1_first V q1 c t h0
    · exact sound_body1_mid V q1 c t h0 h9

/-- The relational body obligation the launch takes. -/
theorem rd1_body (c : Dev nD) : (dat1 V q1 c).toR.BodyObligation (defs₀ (F := Ideal)) Variants.none () Set.univ :=
  (body_obligation1 V q1 c).toR

end Cert.KernelIdeal.HandValue

end
-- ==== Proof.KI_R0Value.lean ====
/-
  What REGION 0 leaves in its two output arrays, index by index, at the extended reals: the second output is the float
  operand itself (narrowing the format changes nothing there), the first is the operand with each row divided by its
  clamped Euclidean norm — the body multiplies by the reciprocal of the clamp, which for real entries is the division.
-/
import proofs.«424991_j3564822856140_2_alg».proof.Proof.KI_R0
import proofs.«424991_j3564822856140_2_alg».proof.Proof.Forms
import proofs.«424991_j3564822856140_2_alg».proof.Proof.SoftmaxLaw
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx (ix1 ix2 eq_ix1 eq_ix2)
open scoped BigOperators

/-! ## The two payloads at an index of the block -/

/-- The second payload is the block itself: narrowing the format is the identity on extended reals. -/
theorem pay2_apply (x : Vec Ideal S2000x512 .f32) (j : S2000x512.Idx) : k0_pay2 x j = x j := rfl

/-- Inserting coordinate `k` on the reduced axis of the row index `r` gives the block index `(r, k)`. -/
theorem lift_row (r : Fin 2000) (k : Fin 512) :
    reduces_S2000x512_S2000.lift (ix1 r) k = ix2 r k := by
  funext a
  match a with
  | ⟨0, _⟩ => exact Fin.ext rfl
  | ⟨1, _⟩ => exact Fin.ext rfl

/-- The first payload at `(r, cc)`: the entry times the reciprocal of the clamped root of the row's sum of squares. -/
theorem pay1_apply (x : Vec Ideal S2000x512 .f32) (r : Fin 2000) (cc : Fin 512) :
    k0_pay1 x (ix2 r cc)
      = x (ix2 r cc) * Ideal.div Cert.Spec.oneW (max (Ideal.sqrt (∑ k : Fin 512, x (ix2 r k) * x (ix2 r k))) Cert.Spec.epsW) := by
  unfold k0_pay1
  show (x (ix2 r cc) : EReal) * (broadcastTo S2000x512 _ broadcasts_S2000x1_S2000x512 (ix2 r cc)) = _
  -- the reciprocal column, broadcast along the row, is read at column 0
  rw [broadcastTo_apply _ broadcasts_S2000x1_S2000x512 (ix2 r cc) (ix2 r (0 : Fin 1)) (fun a => by
    match a with
    | ⟨0, _⟩ => rfl
    | ⟨1, _⟩ => rfl)]
  show (x (ix2 r cc) : EReal) * Ideal.div Cert.Spec.oneW
      (max (Ideal.sqrt (shapeCast S2000x1 _ shapeCasts_S2000_S2000x1 (ix2 r (0 : Fin 1)))) Cert.Spec.epsW) = _
  -- the column of row sums is the vector of row sums, entry `r`
  rw [shapeCast_apply _ shapeCasts_S2000_S2000x1 (ix2 r (0 : Fin 1)) (ix1 r) (by
    rw [Shape.rowMajor_val_one, Shape.rowMajor_val_two]
    show r.val = r.val * 1 + 0
    omega)]
  -- which is the sum over the row's 512 lanes of the squares
  have hsum := Ideal.multiReduction_add_single (mulf x x) 0x00000000#32 reduces_S2000x512_S2000 (.inl rfl) rfl (ix1 r)
  refine congrArg (fun s : EReal => (x (ix2 r cc) : EReal) * Ideal.div Cert.Spec.oneW (max (Ideal.sqrt s) Cert.Spec.epsW))
    (hsum.trans ?_)
  refine Finset.sum_congr rfl fun k _ => ?_
  show x (reduces_S2000x512_S2000.lift (ix1 r) k) * x (reduces_S2000x512_S2000.lift (ix1 r) k) = _
  rw [lift_row r k]

/-! ## Real entries: the reciprocal of the clamped norm -/

/-- For a real entry `y` of a row of reals `f`, multiplying by the reciprocal of the clamped norm of the row is dividing
    by it: the sum of squares is a real that is not negative, its root a real, and the clamp a positive real. -/
theorem scale_eq_div (f : Fin 512 → ℝ) (y : ℝ) :
    (y : EReal) * Ideal.div Cert.Spec.oneW
        (max (Ideal.sqrt (∑ k, ((f k : ℝ) : EReal) * ((f k : ℝ) : EReal))) Cert.Spec.epsW)
      = Ideal.div (y : EReal) (max (Ideal.sqrt (∑ k, ((f k : ℝ) : EReal) * ((f k : ℝ) : EReal))) Cert.Spec.epsW) := by
  obtain ⟨e, he, hE⟩ := Cert.Spec.epsW_pos
  have hs : (∑ k, ((f k : ℝ) : EReal) * ((f k : ℝ) : EReal)) = ((∑ k, f k * f k : ℝ) : EReal) := by
    rw [Cert.Spec.coe_sum]
    exact Finset.sum_congr rfl fun k _ => (EReal.coe_mul _ _).symm
  have hnn : 0 ≤ ∑ k, f k * f k := Finset.sum_nonneg fun k _ => mul_self_nonneg _
  have hmax : max ((Real.sqrt (∑ k, f k * f k) : ℝ) : EReal) ((e : ℝ) : EReal)
      = ((max (Real.sqrt (∑ k, f k * f k)) e : ℝ) : EReal) := (EReal.coe_strictMono.monotone.map_max).symm
  rw [hs, Cert.Spec.sqrt_coe_nonneg _ hnn, hE, hmax, Cert.Spec.oneW_eq, EReal.coe_one]
  exact Cert.Spec.mul_inv_eq_div y _ (lt_max_of_lt_right he)

/-! ## Where a block sits in its array -/

variable (V : (c : Dev nD) → (b : Ref sig .tc) → Buf (Elt Ideal) ((c : Thread nD τ).loc b))

/-- The grid has five points. -/
theorem point_lt (t : Fin cfg0.N) : t.val < 5 := lt_of_lt_of_eq t.isLt N_0

/-- All three windows take, at point `t`, block `t` along the rows and block 0 along the lanes. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `r` of the block of point `t` is row `2000 t + r` of the array. -/
def rowOf (t : Fin cfg0.N) (r : Fin 2000) : Fin 10000 := ⟨t.val * 2000 + r.val, by have := point_lt t; have := r.isLt; omega⟩

/-- Entry `(r, k)` of window 0's block at `t` is entry `(2000 t + r, k)` of its array; -/
theorem emb0 (t : Fin cfg0.N) (r : Fin 2000) (k : Fin 512) :
    ((cfg0.win 0).blk t).view.emb (ix2 r k) = ix2 (rowOf t r) k := by
  obtain ⟨e0, e1, -⟩ := index_facts t
  funext a
  apply Fin.ext
  match a with
  | ⟨0, _⟩ => show win0_0.index t (0 : Fin 2) * 2000 + 1 * r.val = t.val * 2000 + r.val; omega
  | ⟨1, _⟩ => show win0_0.index t (1 : Fin 2) * 512 + 1 * k.val = k.val; omega

/-- likewise window 1's -/
theorem emb1 (t : Fin cfg0.N) (r : Fin 2000) (k : Fin 512) :
    ((cfg0.win 1).blk t).view.emb (ix2 r k) = ix2 (rowOf t r) k := by
  obtain ⟨-, -, e0, e1, -⟩ := index_facts t
  funext a
  apply Fin.ext
  match a with
  | ⟨0, _⟩ => show win0_1.index t (0 : Fin 2) * 2000 + 1 * r.val = t.val * 2000 + r.val; omega
  | ⟨1, _⟩ => show win0_1.index t (1 : Fin 2) * 512 + 1 * k.val = k.val; omega

/-- and window 2's. -/
theorem emb2 (t : Fin cfg0.N) (r : Fin 2000) (k : Fin 512) :
    ((cfg0.win 2).blk t).view.emb (ix2 r k) = ix2 (rowOf t r) k := by
  obtain ⟨-, -, -, -, e0, e1⟩ := index_facts t
  funext a
  apply Fin.ext
  match a with
  | ⟨0, _⟩ => show win0_2.index t (0 : Fin 2) * 2000 + 1 * r.val = t.val * 2000 + r.val; omega
  | ⟨1, _⟩ => show win0_2.index t (1 : Fin 2) * 512 + 1 * k.val = k.val; omega

/-- The input block at `t`, entry `(r, k)`, is the operand at `(2000 t + r, k)`. -/
theorem iblk0_apply (c : Dev nD) (t : Fin cfg0.N) (r : Fin 2000) (k : Fin 512) :
    iblk0 V c 0 t (ix2 r k) = V c main_arg0 (ix2 (rowOf t r) k) := by
  show V c main_arg0 (((cfg0.win 0).blk t).view.emb (ix2 r k)) = _
  rw [emb0]

/-! ## The five blocks cover the arrays -/

/-- An index of the array, split as block `row / 2000` and row `row % 2000` within it. -/
theorem split_row (i : S10000x512.Idx) :
    ∃ (t : Fin cfg0.N) (r : Fin 2000) (k : Fin 512), i = ix2 (rowOf t r) k := by
  have hi : (i 0).val < 10000 := (i 0).isLt
  refine ⟨⟨(i 0).val / 2000, by rw [show cfg0.N = 5 from N_0]; omega⟩, ⟨(i 0).val % 2000, Nat.mod_lt _ (by norm_num)⟩,
    (show Fin 512 from i 1), ?_⟩
  have hrow : rowOf ⟨(i 0).val / 2000, by rw [show cfg0.N = 5 from N_0]; omega⟩ ⟨(i 0).val % 2000, Nat.mod_lt _ (by norm_num)⟩ = i 0 :=
    Fin.ext (by show (i 0).val / 2000 * 2000 + (i 0).val % 2000 = (i 0).val; omega)
  rw [hrow]
  exact eq_ix2 i

/-- Every index of window 1's array is in the block some point writes back; -/
theorem cover1 (i : S10000x512.Idx) :
    ∃ t : Fin cfg0.N, (cfg0.win 1).flush t = true ∧ i ∈ ((cfg0.win 1).blk t).view.set := by
  obtain ⟨t, r, k, hi⟩ := split_row i
  refine ⟨t, flush0_1 t, ?_⟩
  rw [hi, ← emb1]
  exact ((cfg0.win 1).blk t).view.emb_mem_set _

/-- and every index of window 2's. -/
theorem cover2 (i : S10000x512.Idx) :
    ∃ t : Fin cfg0.N, (cfg0.win 2).flush t = true ∧ i ∈ ((cfg0.win 2).blk t).view.set := by
  obtain ⟨t, r, k, hi⟩ := split_row i
  refine ⟨t, flush0_2 t, ?_⟩
  rw [hi, ← emb2]
  exact ((cfg0.win 2).blk t).view.emb_mem_set _

/-! ## What each point writes back -/

/-- Point `t` writes back, into window 2's array, block `t` of the float operand. -/
theorem flushed2_eq (c : Dev nD) (t : Fin cfg0.N) :
    (dat0 (F := Ideal) V c).flushed 2 t = ((cfg0.win 2).blk t).view.read (Elt Ideal) (V c main_arg0) := by
  show (cfg0.win 2).cut (grid0.coords t) ((dat0 (F := Ideal) V c).after 2 t) = _
  rw [after0_2, out0_2_eq]
  funext j
  obtain ⟨r, k, rfl⟩ : ∃ r k, j = ix2 r k := ⟨j 0, j 1, eq_ix2 j⟩
  show k0_pay2 (iblk0 V c 0 t) (ix2 r k) = V c main_arg0 (((cfg0.win 2).blk t).view.emb (ix2 r k))
  rw [pay2_apply, iblk0_apply, emb2]

/-- The float operand as the region finds it, read as a matrix of extended reals. -/
abbrev xarr (c : Dev nD) : Fin 10000 → Fin 512 → EReal := fun a b => V c main_arg0 (ix2 a b)

/-- Point `t` writes back, into window 1's array, block `t` of the normalised rows — when the operand's entries are real
    numbers: within the block the row's sum of squares runs over all 512 lanes of the array's row, and multiplying by the
    reciprocal of the clamped norm is then dividing by it. -/
theorem flushed1_eq (c : Dev nD) (hx : ∀ idx, ∃ r : ℝ, V c main_arg0 idx = ((r : ℝ) : EReal)) (t : Fin cfg0.N) :
    (dat0 (F := Ideal) V c).flushed 1 t = ((cfg0.win 1).blk t).view.read (Elt Ideal)
      (fun i : S10000x512.Idx => Cert.Spec.nx (fun a b => V c main_arg0 (ix2 a b)) (i 0) (i 1)) := by
  show (cfg0.win 1).cut (grid0.coords t) ((dat0 (F := Ideal) V c).after 1 t) = _
  rw [after0_1, out0_1_eq]
  funext j
  obtain ⟨r, k, rfl⟩ : ∃ r k, j = ix2 r k := ⟨j 0, j 1, eq_ix2 j⟩
  show k0_pay1 (iblk0 V c 0 t) (ix2 r k)
    = (fun i : S10000x512.Idx => Cert.Spec.nx (fun a b => V c main_arg0 (ix2 a b)) (i 0) (i 1))
        (((cfg0.win 1).blk t).view.emb (ix2 r k))
  rw [pay1_apply, emb1]
  simp only [iblk0_apply]
  show _ = Ideal.div (xarr V c (rowOf t r) k)
    (max (Ideal.sqrt (∑ k' : Fin 512, xarr V c (rowOf t r) k' * xarr V c (rowOf t r) k')) Cert.Spec.epsW)
  choose f hf using hx
  simp only [xarr, hf]
  exact scale_eq_div (fun k' => f (ix2 (rowOf t r) k')) (f (ix2 (rowOf t r) k))

/-! ## The two output arrays after the region -/

/-- The second output array ends holding the float operand, entry by entry. -/
theorem arr0_2 (c : Dev nD) (i : Fin 10000) (cc : Fin 512) :
    (dat0 (F := Ideal) V c).arrAt 2 cfg0.N (ix2 i cc) = V c main_arg0 (ix2 i cc) :=
  congrFun ((dat0 (F := Ideal) V c).arrAt_eq_of_cover 2 (V c main_arg0) (fun t _ => flushed2_eq V c t) cover2) (ix2 i cc)

/-- The first output array ends holding the normalised rows, entry by entry, when the operand's entries are real. -/
theorem arr0_1 (c : Dev nD) (hx : ∀ idx, ∃ r : ℝ, V c main_arg0 idx = ((r : ℝ) : EReal)) (i : Fin 10000) (cc : Fin 512) :
    (dat0 (F := Ideal) V c).arrAt 1 cfg0.N (ix2 i cc) = Cert.Spec.nx (fun a b => V c main_arg0 (ix2 a b)) i cc :=
  congrFun ((dat0 (F := Ideal) V c).arrAt_eq_of_cover 1
    (fun i : S10000x512.Idx => Cert.Spec.nx (fun a b => V c main_arg0 (ix2 a b)) (i 0) (i 1))
    (fun t _ => flushed1_eq V c hx t) cover1) (ix2 i cc)

end Cert.KernelIdeal.HandValue

end
-- ==== Proof.KI_R1Arr.lean ====
/- What the output array holds after the second kernel's run, read at an index.

   The output window's block is written back at the last key tile of each query tile: the ten points `10·qi + 9`. The
   block at such a point is rows `1024·qi …` of the array and all 512 columns, cut at row 10000 for the last query tile
   (784 rows). What is written back is the part inside the array of what the body left there: the closed form `OutN` at
   ten key tiles, at query tile `qi` and the block's own row. The block's row `y` is the array's row `1024·qi + y`, so
   every written block is ONE whole-array function (`G5`: at row `i`, `OutN` at query tile `i / 1024` and row
   `i % 1024`) read through the block; and the ten blocks cover the array (row `i` lies in the block of query tile
   `i / 1024`). So after the run the array is that function. -/
import proofs.«424991_j3564822856140_2_alg».proof.Proof.KI_R1Dat
import Idealize.ShloMosaic.Lib.Pipeline.Value

noncomputable section

namespace Cert.KernelIdeal.HandValue

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Idealize.ShloMosaic.Pipeline (Dat Cfg Window)

variable (V : (c : Dev nD) → (b : Ref sig .tc) → Buf (Elt Ideal) ((c : Thread nD τ).loc b)) (q1 : Fin 6 → PosShare TreeShare)

/-- The output array's index type is the 10000 x 512 one. -/
abbrev G5 (c : Dev nD) : Buf (Elt Ideal) ((cfg1.win 5).arr.view.loc (c : Thread nD τ)) :=
  fun idx => Cert.Spec.OutN (NXa V c) (XVa V c) (ADJa V c) (XFa V c) ((idx 0).val / 1024) ((idx 0).val % 1024) (idx 1).val

theorem idx_facts5 : ∀ t : Fin cfg1.N, win1_5.index t (0 : Fin 2) = t.val / 10
    ∧ win1_5.index t (1 : Fin 2) = 0
    ∧ (grid1.coords t 0).val = t.val / 10
    ∧ win1_5.xsize (grid1.coords t) (0 : Fin 2) = min 1024 (10000 - 1024 * (t.val / 10))
    ∧ win1_5.xsize (grid1.coords t) (1 : Fin 2) = 512 :=
  (by decide +kernel : ∀ t : Fin grid1.N, _)

/-- WHAT POINT `t` WRITES BACK: the rows inside the array of what the body left, which is the closed form read
    through the point's block (the block's row `y` is row `1024 * (t / 10) + y` of the array). -/
theorem flushed5_eq (c : Dev nD) (t : Fin cfg1.N) :
    (dat1 V q1 c).flushed 5 t = ((cfg1.win 5).blk t).view.read (Elt Ideal) (G5 V c) := by
  show (cfg1.win 5).cut (grid1.coords t) ((dat1 V q1 c).after 5 t) = _
  rw [after1_5]
  show win1_5.cut (grid1.coords t) (win1_5.fill (grid1.coords t) _ _) = _
  rw [Window.cut_fill]
  obtain ⟨e0, e1, e2, e3, e4⟩ := idx_facts5 t
  funext y
  show Cert.Spec.OutN _ _ _ _ (grid1.coords t 0).val (y 0).val (y 1).val = G5 V c (((cfg1.win 5).blk t).view.emb y)
  have hy0 : (y 0).val < win1_5.xsize (grid1.coords t) (0 : Fin 2) := (y 0).isLt
  have h0 : ((((cfg1.win 5).blk t).view.emb y) 0).val = win1_5.index t (0 : Fin 2) * 1024 + 1 * (y 0).val := rfl
  have h1 : ((((cfg1.win 5).blk t).view.emb y) 1).val = win1_5.index t (1 : Fin 2) * 512 + 1 * (y 1).val := rfl
  show _ = Cert.Spec.OutN _ _ _ _ (((((cfg1.win 5).blk t).view.emb y) 0).val / 1024)
    (((((cfg1.win 5).blk t).view.emb y) 0).val % 1024) ((((cfg1.win 5).blk t).view.emb y) 1).val
  rw [h0, h1, e0, e1, e2]
  rw [e3] at hy0
  have a0 : (t.val / 10 * 1024 + 1 * (y 0).val) / 1024 = t.val / 10 := by omega
  have a1 : (t.val / 10 * 1024 + 1 * (y 0).val) % 1024 = (y 0).val := by omega
  have a2 : 0 * 512 + 1 * (y 1).val = (y 1).val := by omega
  rw [a0, a1, a2]

/-- An index of the array is in point `t`'s block iff each coordinate is in the block's range, cut at the array's end. -/
theorem mem_blk5 (t : Fin cfg1.N) (i : S10000x512.Idx) :
    i ∈ ((cfg1.win 5).blk t).view.set ↔ ∀ a : Fin 2, win1_5.index t a * S1024x512.size a ≤ (i a).val
      ∧ (i a).val < win1_5.index t a * S1024x512.size a + win1_5.xsize (grid1.coords t) a := by
  show i ∈ ((View.whole main_v1).slice (win1_5.rect t)).set ↔ _
  rw [View.set_slice_whole, Rect.mem_set_unit]
  exact Iff.rfl

/-- Every index of the array is in the block written back at the last key tile of its row's query tile. -/
theorem cover5 (i : S10000x512.Idx) :
    ∃ t : Fin cfg1.N, (cfg1.win 5).flush t = true ∧ i ∈ ((cfg1.win 5).blk t).view.set := by
  have hi0 : (i 0).val < 10000 := (i 0).isLt
  have hi1 : (i 1).val < 512 := (i 1).isLt
  have hN : 10 * ((i 0).val / 1024) + 9 < cfg1.N := by
    show _ < grid1.N
    rw [N_1]; omega
  refine ⟨⟨10 * ((i 0).val / 1024) + 9, hN⟩, (flush1_5 _).mpr (by show (10 * ((i 0).val / 1024) + 9) % 10 = 9; omega), ?_⟩
  rw [mem_blk5]
  obtain ⟨e0, e1, e2, e3, e4⟩ := idx_facts5 ⟨10 * ((i 0).val / 1024) + 9, hN⟩
  intro a
  match a with
  | ⟨0, _⟩ =>
    show win1_5.index _ (0 : Fin 2) * 1024 ≤ (i 0).val
      ∧ (i 0).val < win1_5.index _ (0 : Fin 2) * 1024 + win1_5.xsize (grid1.coords _) (0 : Fin 2)
    rw [e0, e3]
    show (10 * ((i 0).val / 1024) + 9) / 10 * 1024 ≤ (i 0).val
      ∧ (i 0).val < (10 * ((i 0).val / 1024) + 9) / 10 * 1024 + min 1024 (10000 - 1024 * ((10 * ((i 0).val / 1024) + 9) / 10))
    omega
  | ⟨1, _⟩ =>
    show win1_5.index _ (1 : Fin 2) * 512 ≤ (i 1).val
      ∧ (i 1).val < win1_5.index _ (1 : Fin 2) * 512 + win1_5.xsize (grid1.coords _) (1 : Fin 2)
    rw [e1, e4]
    omega

/-- THE OUTPUT ARRAY after the run, read at an index: the closed form at ten key tiles, at the row's query tile and
    its row inside the tile. -/
theorem arr1_5 (c : Dev nD) (i : Fin 10000) (d : Fin 512) :
    (dat1 V q1 c).arrAt 5 cfg1.N (ix2 i d) = Cert.Spec.OutN (NXa V c) (XVa V c) (ADJa V c) (XFa V c) (i.val / 1024) (i.val % 1024) d.val := by
  rw [(dat1 V q1 c).arrAt_eq_of_cover 5 (G5 V c) (fun t _ => flushed5_eq V q1 c t) cover5]
  rfl

end Cert.KernelIdeal.HandValue

end
-- ==== Proof.OutEqG.lean ====
/- The second kernel's carried sums, once all ten key tiles are in, are the specification's sums over the row, and the
   output built from them is the specification's function G: a row number splits into tile and offset and recombines,
   ten tiles of 1024 columns cover the 10000 columns (the columns past the end contribute zero), and on the arrays'
   own range the kernel's numerators are the specification's. Identities of sums: no finiteness is used. -/
import proofs.«424991_j3564822856140_2_alg».proof.Proof.KI_R1Spec
import proofs.«424991_j3564822856140_2_alg».proof.Proof.Forms
import proofs.«424991_j3564822856140_2_alg».proof.Proof.SoftmaxLaw

noncomputable section

namespace Cert.Spec

open Idealize.ShloMosaic Idealize.ShloMosaic.ValueIdx

section Helpers

variable (NX XV : (⟨2, ![10000, 512]⟩ : Shape).Idx → EReal) (ADJ : (⟨2, ![10000, 10000]⟩ : Shape).Idx → BitVec 32)
  (x : Fin 10000 → Fin 512 → EReal) (adj : Fin 10000 → Fin 10000 → BitVec 32)

/-- Row i of the softmax numerators, read at a natural column, zero past the end. -/
def gP (i : Fin 10000) (j : ℕ) : EReal := if h : j < 10000 then pw x adj i ⟨j, h⟩ else 0

/-- Row i of the weighted values at column d, read at a natural column, zero past the end. -/
def gA (i : Fin 10000) (d : Fin 512) (j : ℕ) : EReal := if h : j < 10000 then pw x adj i ⟨j, h⟩ * x ⟨j, h⟩ d else 0

/-- A row number split into its tile and its offset in the tile recombines. -/
theorem tile_split (i : ℕ) : i / 1024 * 1024 + i % 1024 = i := Nat.div_add_mod' i 1024

/-- Over the arrays as found, the numerator of an in-range row at a natural column is the specification's, zero past
    the end. -/
theorem Pn_eq (hNX : ∀ i c, NX (ix2 i c) = nx x i c) (hADJ : ∀ i j, ADJ (ix2 i j) = adj i j) (i : Fin 10000) (j : ℕ) :
    Pn NX ADJ i.val j = if j < 10000 then gP x adj i j else 0 := by
  by_cases hj : j < 10000
  · rw [if_pos hj, gP, dif_pos hj, Pn, dif_pos ⟨i.isLt, hj⟩]
    simp only [hNX, hADJ]
    show (if 0 < (adj i ⟨j, hj⟩).toInt then (0 : EReal) else Ideal.exp (sim x i ⟨j, hj⟩)) = pw x adj i ⟨j, hj⟩
    unfold pw
    by_cases hm : masked adj i ⟨j, hj⟩
    · rw [if_pos hm, if_pos (show 0 < (adj i ⟨j, hj⟩).toInt from hm)]
    · rw [if_neg hm, if_neg (show ¬ 0 < (adj i ⟨j, hj⟩).toInt from hm)]
  · rw [if_neg hj, Pn, dif_neg (fun h => hj h.2)]

/-- The weighted value likewise. -/
theorem PnXVn_eq (hNX : ∀ i c, NX (ix2 i c) = nx x i c) (hXV : ∀ i d, XV (ix2 i d) = x i d)
    (hADJ : ∀ i j, ADJ (ix2 i j) = adj i j) (i : Fin 10000) (d : Fin 512) (j : ℕ) :
    Pn NX ADJ i.val j * XVn XV j d = if j < 10000 then gA x adj i d j else 0 := by
  rw [Pn_eq NX ADJ x adj hNX hADJ i j]
  by_cases hj : j < 10000
  · rw [if_pos hj, if_pos hj, gP, dif_pos hj, gA, dif_pos hj, XVn, dif_pos hj, hXV]
  · rw [if_neg hj, if_neg hj, zero_mul]

end Helpers

/-- THE ROW SUMS after all ten key tiles: the total weight of the row. -/
theorem Lsum_ten (NX : (⟨2, ![10000, 512]⟩ : Shape).Idx → EReal) (ADJ : (⟨2, ![10000, 10000]⟩ : Shape).Idx → BitVec 32)
    (x : Fin 10000 → Fin 512 → EReal) (adj : Fin 10000 → Fin 10000 → BitVec 32)
    (hNX : ∀ i c, NX (ix2 i c) = nx x i c) (hADJ : ∀ i j, ADJ (ix2 i j) = adj i j) (i : Fin 10000) :
    Lsum NX ADJ (i.val / 1024) 10 ⟨i.val % 1024, Nat.mod_lt _ (by norm_num)⟩ = ∑ j, pw x adj i j := by
  show ∑ k' ∈ Finset.range 10, ∑ jj : Fin 1024, Pn NX ADJ (i.val / 1024 * 1024 + i.val % 1024) (k' * 1024 + jj.val) = _
  rw [tile_split, Finset.sum_range]
  simp only [Pn_eq NX ADJ x adj hNX hADJ i]
  rw [sum_tiles (gP x adj i)]
  exact Finset.sum_congr rfl fun j _ => by rw [gP, dif_pos j.isLt]

/-- THE ACCUMULATOR after all ten key tiles: the weighted sum of the rows of x at column d. -/
theorem Asum_ten (NX XV : (⟨2, ![10000, 512]⟩ : Shape).Idx → EReal) (ADJ : (⟨2, ![10000, 10000]⟩ : Shape).Idx → BitVec 32)
    (x : Fin 10000 → Fin 512 → EReal) (adj : Fin 10000 → Fin 10000 → BitVec 32)
    (hNX : ∀ i c, NX (ix2 i c) = nx x i c) (hXV : ∀ i d, XV (ix2 i d) = x i d)
    (hADJ : ∀ i j, ADJ (ix2 i j) = adj i j) (i : Fin 10000) (d : Fin 512) :
    Asum NX XV ADJ (i.val / 1024) 10 ⟨i.val % 1024, Nat.mod_lt _ (by norm_num)⟩ d = ∑ j, pw x adj i j * x j d := by
  show ∑ k' ∈ Finset.range 10, ∑ jj : Fin 1024,
      Pn NX ADJ (i.val / 1024 * 1024 + i.val % 1024) (k' * 1024 + jj.val) * XVn XV (k' * 1024 + jj.val) d = _
  rw [tile_split, Finset.sum_range]
  simp only [PnXVn_eq NX XV ADJ x adj hNX hXV hADJ i d]
  rw [sum_tiles (gA x adj i d)]
  exact Finset.sum_congr rfl fun j _ => by rw [gA, dif_pos j.isLt]

/-- THE OUTPUT IS G: two times the row of x minus one times the weighted average. -/
theorem OutN_eq_G (NX XV : (⟨2, ![10000, 512]⟩ : Shape).Idx → EReal) (ADJ : (⟨2, ![10000, 10000]⟩ : Shape).Idx → BitVec 32)
    (XF : (⟨2, ![10000, 512]⟩ : Shape).Idx → EReal)
    (x : Fin 10000 → Fin 512 → EReal) (adj : Fin 10000 → Fin 10000 → BitVec 32)
    (hNX : ∀ i c, NX (ix2 i c) = nx x i c) (hXV : ∀ i d, XV (ix2 i d) = x i d)
    (hXF : ∀ i d, XF (ix2 i d) = x i d) (hADJ : ∀ i j, ADJ (ix2 i j) = adj i j) (i : Fin 10000) (d : Fin 512) :
    OutN NX XV ADJ XF (i.val / 1024) (i.val % 1024) d.val = G x adj i d := by
  have hr : i.val % 1024 < 1024 := Nat.mod_lt _ (by norm_num)
  rw [OutN, dif_pos ⟨hr, d.isLt⟩, tile_split]
  show twoW * XVn XF i.val d - oneW * Ideal.div (Asum NX XV ADJ (i.val / 1024) 10 ⟨i.val % 1024, hr⟩ d)
      (Lsum NX ADJ (i.val / 1024) 10 ⟨i.val % 1024, hr⟩) = _
  rw [Asum_ten NX XV ADJ x adj hNX hXV hADJ i d, Lsum_ten NX ADJ x adj hNX hADJ i, XVn, dif_pos i.isLt, hXF]
  rfl

end Cert.Spec

end
-- ==== Proof.KI_Value.lean ====
/- THE KERNEL'S RESULT IS G. What the second region leaves in the output array is the closed form at ten key tiles over
   the arrays as that region finds them; those arrays are what the first region leaves (the normalized rows and the
   rows themselves) and the two arguments untouched; and the closed form over such arrays is the specification's G. -/
import proofs.«424991_j3564822856140_2_alg».proof.Proof.KI_R1Dat
import proofs.«424991_j3564822856140_2_alg».proof.Proof.KI_R0
import proofs.«424991_j3564822856140_2_alg».proof.Proof.KI_LaunchDefs
import proofs.«424991_j3564822856140_2_alg».proof.Proof.KI_R0Value
import proofs.«424991_j3564822856140_2_alg».proof.Proof.KI_R1Arr
import proofs.«424991_j3564822856140_2_alg».proof.Proof.OutEqG

noncomputable section

namespace Cert.KernelIdeal.HandValue

open Cert.KernelIdeal Cert.KernelIdeal.Gen
open Idealize.ShloMosaic Idealize.ShloMosaic.TcCoe Idealize.ShloMosaic.ValueIdx
open Idealize.SL Idealize.SL.Sem

/-- The output array after the second region, at row i and column d, is G of the two arguments: the region's arrays
    are the first region's normalized rows (real entries make them the specification's), its rows of x, and the two
    arguments as they were. -/
theorem kernel_out (m : (ℓ : Loc nD τ sig) → Buf (Elt Ideal) ℓ) (c : Dev nD)
    (hx : ∀ idx, ∃ r : ℝ, m ((c : Thread nD τ).loc main_arg0) idx = ((r : ℝ) : EReal)) (i : Fin 10000) (d : Fin 512) :
    (dat1 (Hand.V1 m) Hand.q1 c).arrAt 5 cfg1.N (ValueIdx.ix2 i d)
      = Cert.Spec.G (fun a b => m ((c : Thread nD τ).loc main_arg0) (ValueIdx.ix2 a b)) (fun a b => m ((c : Thread nD τ).loc main_arg1) (ValueIdx.ix2 a b)) i d := by
  rw [arr1_5]
  refine Cert.Spec.OutN_eq_G _ _ _ _ _ _ ?_ ?_ ?_ ?_ i d
  · intro i cc
    exact (congrFun (Hand.V1_arr m c 1) (ix2 i cc)).trans (arr0_1 (Hand.V0 m) c hx i cc)
  · intro i dd
    exact (congrFun (Hand.V1_arr m c 2) (ix2 i dd)).trans (arr0_2 (Hand.V0 m) c i dd)
  · intro i dd
    exact congrFun (Hand.V1_main_arg0 m c) (ix2 i dd)
  · intro i j
    exact congrFun (Hand.V1_main_arg1 m c) (ix2 i j)

end Cert.KernelIdeal.HandValue

end
-- ==== Proof.K_R0.lean ====
/-
  REGION 0 of the program: the call that normalises the rows of the float operand, on a grid of five row blocks of
  2000 rows, stated at the contents `V` the TensorCore's buffers hold when the region is entered. The body loads the
  block of window 0 whole and stores two whole blocks: into window 1 the rows scaled by the reciprocal of their clamped
  Euclidean norm, into window 2 the rows themselves, both narrowed to bf16. Below: each window's block at a point, what the
  body leaves in the two output buffers, the body's triple, the pipeline's proof data and its body obligation.
-/
import proofs.«424991_j3564822856140_2_alg».proof.Proof.Gen.Kernel.Launch
import proofs.«424991_j3564822856140_2_alg».proof.Proof.Gen.Kernel.Skeleton
import proofs.«424991_j3564822856140_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The one rectangle the body reads and writes through -/

/-- The whole 2000 × 512 block, as the rectangle at offsets (0, 0) of the block's own extents. -/
abbrev wholeBlock : Rect S2000x512 := Rect.unit (s := S2000x512) ![0, 0] S2000x512.size inb_S2000x512_S2000x512_0_0

/-- Its offsets are zero on both axes. -/
theorem wholeBlock_off : (![0, 0] : Fin S2000x512.rank → Nat) = fun _ => 0 := by
  funext a
  match a with
  | ⟨0, _⟩ => rfl
  | ⟨1, _⟩ => rfl

/-- A single store through it covers every index of the block. -/
theorem wholeBlock_covers {e : EltTy} (w : wholeBlock.shape.Idx → Elt F e) (y : S2000x512.Idx) :
    ∃ pc ∈ ([⟨wholeBlock, w⟩] : List (View.Piece (Elt F) S2000x512 e)), y ∈ pc.1.set :=
  ⟨_, List.mem_singleton_self _, View.mem_set_unit_zero wholeBlock_off inb_S2000x512_S2000x512_0_0 y⟩

/-! ## What the body leaves in each output window's buffer -/

/-- Window 1's buffer after the body: its one store, of the normalised rows narrowed to bf16, over the input block. -/
def out0_1 (x0 : Vec F S2000x512 .f32) : Vec F S2000x512 .bf16 :=
  View.canon [⟨wholeBlock, k0_pay1 (View.ld x0 wholeBlock)⟩]

/-- Window 2's buffer after the body: its one store, of the input block narrowed to bf16. -/
def out0_2 (x0 : Vec F S2000x512 .f32) : Vec F S2000x512 .bf16 :=
  View.canon [⟨wholeBlock, k0_pay2 (View.ld x0 wholeBlock)⟩]

/-- The store is whole and the load is whole: window 1 ends at the first payload of the block, -/
theorem out0_1_eq (x0 : Vec F S2000x512 .f32) : out0_1 x0 = k0_pay1 x0 := by
  unfold out0_1
  rw [View.canon_unit_zero wholeBlock_off, View.ld_unit_zero wholeBlock_off]

/-- and window 2 at the second. -/
theorem out0_2_eq (x0 : Vec F S2000x512 .f32) : out0_2 x0 = k0_pay2 x0 := by
  unfold out0_2
  rw [View.canon_unit_zero wholeBlock_off, View.ld_unit_zero wholeBlock_off]

/-! ## The body's triple -/

set_option maxHeartbeats 1000000 in
/-- The body on three whole staging memrefs — the input's at read contents `x0`, the two outputs' at anything — runs to
    a continuation that holds the input's as it was, the first output's at `out0_1 x0` and the second's at `out0_2 x0`. -/
theorem sound_kernel0 (c : Dev nD) (E : Set ℕ) (i : grid0.Coords)
    (src : Memref sig .tc .vmem S2000x512 .f32) (hsrc : src.IsWhole)
    (dstN : Memref sig .tc .vmem S2000x512 .bf16) (hdstN : dstN.IsWhole)
    (dstX : Memref sig .tc .vmem S2000x512 .bf16) (hdstX : dstX.IsWhole)
    (x0 : Vec F S2000x512 .f32) (K : PUnit → sProp 𝕄) :
    iprop(owns (c : Thread nD τ) src fullShare x0 ∗ (∃ d, owns (c : Thread nD τ) dstN fullShare d)
        ∗ (∃ d, owns (c : Thread nD τ) dstX fullShare d)
        ∗ (iprop(owns (c : Thread nD τ) src fullShare x0 ∗ owns (c : Thread nD τ) dstN fullShare (out0_1 x0)
            ∗ owns (c : Thread nD τ) dstX fullShare (out0_2 x0)) -∗ K ⟨⟩))
      ⊢ wp frame (wpE (defs₀ (F := F)) Variants.none c none) E (cc0__norm_kernel i src hsrc dstN hdstN dstX hdstX) K := by
  simp only [cc0__norm_kernel_eq_skeleton]; unfold cc0__norm_kernel_skel
  unfold owns
  iintro ⟨⟨%fS, %hS, HS⟩, ⟨%dN, %fN, -, HN⟩, ⟨%dX, %fX, -, HX⟩, Hk⟩
  subst hS
  sl_exec
  sl_step
  iapply Hk
  -- the input's buffer was only read; each output's holds one covering store over whatever it held
  isplitl [HS]
  · iexists fS; isplitr
    · ipureintro; rfl
    · iexact HS
  isplitl [HN]
  · iexists _; isplitr
    on_goal 2 => iexact HN
    ipureintro
    exact View.read_writes_eq_canon dstN.view fN _ (wholeBlock_covers _)
  · iexists _; isplitr
    on_goal 2 => iexact HX
    ipureintro
    exact View.read_writes_eq_canon dstX.view fX _ (wholeBlock_covers _)

/-! ## The pipeline's proof data -/

/-- The proof data of the region's pipeline on core `c`: the arrays as the region finds them; after the body at point
    `t` the input's buffer still at its block, window 1's at `out0_1` of that block and window 2's at `out0_2` of it;
    the invariant is the untouched rest of the core's scoped memory and its generator register; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- Its arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input window is fetched at every one of the five points and its blocks are uncut, so its current buffer holds
    its block whenever the body runs, whatever the buffer held before. -/
theorem before0_0 (c : Dev nD) (t : Fin cfg0.N) (d) : (dat0 V c).before 0 t d = iblk0 V c 0 t := by
  rw [(dat0 V c).before_fetched 0 t (fetch0_0 t) d]
  unfold Dat.fetched Dat.blockOf iblk0
  rw [A_eq0]
  rfl

/-! ## The body obligation -/

/-- The body at point `t`, called on the three current staging memrefs: from the invariant, the core's debt and the three
    buffers as the pipeline hands them over, to the same invariant and debt and the three buffers at what the proof data
    says the body leaves. The invariant and the debt do not depend on the point and pass through untouched. -/
theorem sound_point0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t))) := by
  have hinv : (dat0 V c).Φ t.succ = (dat0 V c).Φ t.castSucc := rfl
  have hdebt : (dat0 V c).owesAt () t.succ = (dat0 V c).owesAt () t.castSucc := rfl
  rw [hinv, hdebt]
  simp only [before0_0, after0_0, after0_1, after0_2]
  iintro ⟨Hinv, Hdebt, ⟨%d0, Hsrc⟩, ⟨%d1, HdstN⟩, ⟨%d2, HdstX⟩⟩
  iapply (sound_kernel0 c Set.univ (grid0.coords t) _ _ _ _ _ _ (iblk0 V c 0 t) _)
  isplitl [Hsrc]; · iexact Hsrc
  isplitl [HdstN]; · iexists _; iexact HdstN
  isplitl [HdstX]; · iexists _; iexact HdstX
  iintro ⟨Hsrc, HdstN, HdstX⟩
  isplitl [Hinv]; · iexact Hinv
  isplitl [Hdebt]; · iexact Hdebt
  isplitl [Hsrc]; · iexact Hsrc
  isplitl [HdstN]; · iexact HdstN
  iexact HdstX

/-- The library's body obligation, at every point. -/
theorem body_obligation0 (c : Dev nD) : BodyObligation (dat0 (F := F) V c) (defs₀ (F := F)) Variants.none () Set.univ := fun t => by
  rw [bigSep_W0, bigSep_W0]
  exact sound_point0 V c t

end Cert.Kernel.Hand

end
-- ==== Proof.K_LaunchDefs.lean ====
/-
  The buffers' contents at the boundary between the two regions of the program, and the shares at which the second
  region holds its input arrays. Region 0 leaves its three arrays at what its pipeline's write-backs make of them (its
  input as launched) and touches no other buffer; region 1 reads the normalised rows through two windows, each of which
  holds one half of the full share of that array.
-/
import proofs.«424991_j3564822856140_2_alg».proof.Proof.Gen.Kernel.Launch
import proofs.«424991_j3564822856140_2_alg».proof.Proof.K_R0
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.ShloMosaic.Pipeline (Dat RDat Cfg Window)

variable {F : FTy → Type} [FloatOps F]

variable (m : (ℓ : Loc nD τ sig) → Buf (Elt F) ℓ)

/-! ## The buffers' contents at the two region boundaries -/

/-- What the TensorCore's buffers hold at launch, read at its references. -/
abbrev V0 : (c : Dev nD) → (b : Ref sig .tc) → Buf (Elt F) ((c : Thread nD τ).loc b) := fun c b => m ((c : Thread nD τ).loc b)

/-- Every buffer of core `c` when region 1 is entered: region 0's three arrays at what its pipeline leaves (the input as
    launched, each output's write-backs folded), every other buffer as launched. -/
def W1 (c : Dev nD) : Valuation τ sig (Elt F) :=
  Pipeline.withArrays spec0 c (fun b => m (c, b)) fun w => (dat0 (V0 m) c).arrAt w cfg0.N

/-- The same read at the TensorCore's references. -/
abbrev V1 : (c : Dev nD) → (b : Ref sig .tc) → Buf (Elt F) ((c : Thread nD τ).loc b) := fun c b => W1 m c b

/-- Each array of region 0 holds what the pipeline leaves in it. -/
theorem V1_arr (c : Dev nD) (w : Fin cfg0.W) : V1 m c (Pipeline.arrRef spec0 w) = (dat0 (V0 m) c).arrAt w cfg0.N :=
  Pipeline.withArrays_arr spec0 launch0.win.arr_inj c _ _ w

/-- A buffer that is no array of region 0 is as launched. -/
theorem V1_of_ne (c : Dev nD) (b : Ref sig .tc) (hb : ∀ w, Pipeline.arrRef spec0 w ≠ b) :
    V1 m c b = m ((c : Thread nD τ).loc b) :=
  Pipeline.withArrays_of_ne spec0 c _ _ b hb

/-- The integer operand is no array of region 0. -/
theorem V1_main_arg1 (c : Dev nD) : V1 m c main_arg1 = m ((c : Thread nD τ).loc main_arg1) :=
  V1_of_ne m c main_arg1 (by decide)

/-- The float operand is region 0's input: never written back, so as launched. -/
theorem V1_main_arg0 (c : Dev nD) : V1 m c main_arg0 = m ((c : Thread nD τ).loc main_arg0) :=
  (V1_arr m c 0).trans (((dat0 (V0 m) c).arrAt_in 0 rfl _).trans (A_eq0 (V0 m) c 0))

/-! ## The shares of region 1's input arrays -/

/-- Windows 0 and 1 read one array, the normalised rows: each holds a half of the full share of it. Every other window's
    array is held whole. -/
def q1 : Fin 6 → PosShare TreeShare := fun w =>
  if w = 0 then fullShare.left else if w = 1 then fullShare.right else fullShare

/-- The two halves make the full share. -/
theorem q1_halves : fullShare ∈ PCS.op (q1 0) (q1 1) := PosShare.mem_left_op_right fullShare

end Cert.Kernel.Hand

end
-- ==== Proof.K_Launch.lean ====
/-
  THE LAUNCH of the program's two regions, for any relational proof data of region 1. @main is the two kernel regions
  and nothing else. Between them core `c` holds every unscoped buffer whole — at the launch contents before region 0, at
  `W1` after it, and after region 1 at `W1` but for the output buffer, which holds some contents region 1's data allow
  after every write-back — beside its generator register at some state and its `owes` at nothing. Region 0's three
  arrays are distinct buffers. Region 1's six arrays stand on five buffers, all the unscoped buffers the core has: the
  normalised rows are read through two windows, each holding one half of the full share; the halves are split at the
  region's entry and rejoined at its exit, and an input array is never written, so every input buffer leaves as it came.
-/
import proofs.«424991_j3564822856140_2_alg».proof.Proof.Gen.Kernel.Launch
import proofs.«424991_j3564822856140_2_alg».proof.Proof.Gen.Kernel.Regions
import proofs.«424991_j3564822856140_2_alg».proof.Proof.K_R0
import proofs.«424991_j3564822856140_2_alg».proof.Proof.K_LaunchDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

variable (rd1 : (c : Dev nD) → RDat τ (Elt F) Unit ℕ (UR sig nD τ) ℕ cfg1 c)

/-- Every pipeline's proof data: region 0's exact data at the launch contents, read relationally; region 1's the given
    relational data. -/
def rdats : (p : Fin 2) → (c : Dev nD) → RDat τ (Elt F) Unit ℕ (UR sig nD τ) ℕ (Pipeline.pin (pcfgs (F := F)) adm p) c
  | ⟨0, _⟩ => fun c => (dat0 (V0 m) c).toR
  | ⟨1, _⟩ => fun c => rd1 c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through both regions: the core's generator register at some state and its `owes`, at
    nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every buffer of core `c` when region 1 is left, if its output array then holds `F5`: that array at `F5`, every other
    buffer as region 1 found it. -/
def W2 (c : Dev nD) (F5 : Buf (Elt F) ((c : Thread nD τ).loc main_v1)) : Valuation τ sig (Elt F) :=
  Function.update (W1 m c) main_v1 F5

abbrev V2 (c : Dev nD) (F5 : Buf (Elt F) ((c : Thread nD τ).loc main_v1)) : (b : Ref sig .tc) → Buf (Elt F) ((c : Thread nD τ).loc b) :=
  fun b => W2 m c F5 b

theorem V2_main_v1 (c : Dev nD) (F5) : V2 m c F5 main_v1 = F5 := by
  show Function.update (W1 m c) (Proc.devRef .tc main_v1) F5 (Proc.devRef .tc main_v1) = F5
  exact Function.update_self ..

theorem V2_of_ne (c : Dev nD) (F5) (b : Ref sig .tc) (h : b ≠ main_v1) : V2 m c F5 b = V1 m c b := by
  show Function.update (W1 m c) (Proc.devRef .tc main_v1) F5 (Proc.devRef .tc b) = W1 m c (Proc.devRef .tc b)
  exact Function.update_of_ne (StableHlo.devRef_ne_of_ne h) ..

/-- The last thread state without the `owes`: region 1's output array at some contents it may hold after every
    write-back, every other unscoped buffer as region 1 found it, the generator register at some state. -/
abbrev Tₙ (c : Dev nD) : sProp 𝕄 :=
  iprop(∃ F5, ⌜(rd1 c).ArrAt 5 cfg1.N F5⌝ ∗ StableHlo.held (c : Thread nD τ) (Pipeline.ucRefs τ sig) (W2 m c F5) ∗ ∃ r, prngReg c r)

/-! ## The thread states as the launch's unscoped buffers -/

theorem held_launch (c : Dev nD) :
    (StableHlo.held (c : Thread nD τ) (Pipeline.ucRefs τ sig) (fun b => m (c, b)) : sProp 𝕄)
      = unscopedBufs (Ix := Unit) (Name := ℕ) (U := UR sig nD τ) (Lvl := ℕ) c (V0 m c) :=
  (Pipeline.unscopedBufs_held c (fun b => m (c, b))).symm

theorem held_W1 (c : Dev nD) :
    (StableHlo.held (c : Thread nD τ) (Pipeline.ucRefs τ sig) (W1 m c) : sProp 𝕄)
      = unscopedBufs (Ix := Unit) (Name := ℕ) (U := UR sig nD τ) (Lvl := ℕ) c (V1 m c) :=
  (Pipeline.unscopedBufs_held c (W1 m c)).symm

theorem held_W2 (c : Dev nD) (F5) :
    (StableHlo.held (c : Thread nD τ) (Pipeline.ucRefs τ sig) (W2 m c F5) : sProp 𝕄)
      = unscopedBufs (Ix := Unit) (Name := ℕ) (U := UR sig nD τ) (Lvl := ℕ) c (V2 m c F5) :=
  (Pipeline.unscopedBufs_held c (W2 m c F5)).symm

/-! ## The regions as segments -/

/-- At region 0's exit each of its arrays holds what the pipeline leaves and every other buffer what it held at launch. -/
theorem hF0 (c : Dev nD) (w : Fin cfg0.W) : (dat0 (V0 m) c).arrAt w cfg0.N = V1 m c (Pipeline.arrRef spec0 w) :=
  (V1_arr m c w).symm
theorem hrest0 (c : Dev nD) : ∀ b, b ∉ Finset.univ.image (Pipeline.arrRef spec0) → V1 m c b = V0 m c b :=
  fun b hb => V1_of_ne m c b fun w e => hb (Finset.mem_image.mpr ⟨w, Finset.mem_univ _, e⟩)

set_option backward.isDefEq.respectTransparency.types false in
/-- REGION 0 over the thread state: entered from every unscoped buffer as launched, left at `W1`. Its three arrays are
    distinct buffers, split out of the unscoped buffers at entry and put back at the exit contents; the generator register
    goes into the pipeline's invariant and comes back; nothing is owed; the kernel has no semaphore of its own. -/
def reg0 : Pipeline.RDat.RegionSeg (pcfgs (F := F)) adm (rdats m rd1) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).toR
  hwaits := Pipeline.RDat.hwaits_of_owed_zero _ _ _ _ L lv 0 fun _ _ => rfl
  pre c := iprop(StableHlo.held (c : Thread nD τ) (Pipeline.ucRefs τ sig) (fun b => m (c, b)) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none, held_launch]
    have hsplit := Pipeline.RDat.arrays_of_unscopedBufs (p := 0) (pcfgs (F := F)) adm (rdats m rd1) launch0.win launch0.arr_whole c
      ((dat0 (V0 m) c).share_full fun _ => rfl) (V0 m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m rd1 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m rd1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (P := Unit) (p := ()) (fun _ => pcfgs (F := F) 0) (fun _ => adm 0)
      (Ix := Unit) (Name := ℕ) (U := UR sig nD τ) (Lvl := ℕ)
      launch0.win launch0.arr_whole c (fun _ c => dat0 (V0 m) c) ((dat0 (V0 m) c).share_full fun _ => rfl)
      (V0 m c) (V1 m c) ((dat0 (V0 m) c).arrAt · cfg0.N) (hF0 m c) (hrest0 m c)
    have e : (rdats m rd1 0 c).arraysAt (Pipeline.pin (pcfgs (F := F)) adm 0).N
        = ((dat0 (V0 m) c).arrays ((dat0 (V0 m) c).arrAt · cfg0.N) : sProp 𝕄) := (dat0 (V0 m) c).toR_arraysAt_eq cfg0.N
    rw [held_W1, e]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## Region 1's arrays and the buffers behind them -/

/-- The distinct buffers behind region 1's six arrays are five: the normalised rows (read through windows 0 and 1), the
    narrowed rows, the integer operand, the float operand and the output. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0_0) ↦{fullShare} V main_v0_0) ∗ (((c : Thread nD τ).loc main_v0_1) ↦{fullShare} V main_v0_1)
          ∗ (((c : Thread nD τ).loc main_arg1) ↦{fullShare} V main_arg1) ∗ (((c : Thread nD τ).loc main_arg0) ↦{fullShare} V main_arg0)
          ∗ (((c : Thread nD τ).loc main_v1) ↦{fullShare} V main_v1)) := by
  unfold Pipeline.arrBufs
  exact bigSep_eq_bigSepL_of_eq [main_v0_0, main_v0_1, main_arg1, main_arg0, main_v1] (by decide) (by decide) _

/-- They are all the unscoped buffers the TensorCore has. -/
theorem unscopedBufs1_eq (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_v0_0) ↦{fullShare} V main_v0_0) ∗ (((c : Thread nD τ).loc main_v0_1) ↦{fullShare} V main_v0_1)
          ∗ (((c : Thread nD τ).loc main_arg1) ↦{fullShare} V main_arg1) ∗ (((c : Thread nD τ).loc main_arg0) ↦{fullShare} V main_arg0)
          ∗ (((c : Thread nD τ).loc main_v1) ↦{fullShare} V main_v1)) := by
  have h := Pipeline.unscopedBufs_split₀ cfgs 1 winFacts₀1.arr_unscoped (Ix := Unit) (Name := ℕ) (U := UR sig nD τ) (Lvl := ℕ) (Val := Elt F) c V
  have h' : (unscopedBufs (Ix := Unit) (Name := ℕ) (U := UR sig nD τ) (Lvl := ℕ) c V : sProp 𝕄)
      = iprop(Pipeline.arrBufs spec1 c V ∗ Pipeline.unscopedRest spec1 c V) := h
  rw [h', unscopedRest1_eq, arrBufs1_eq]
  exact equiv_iff.mp sep_emp

/-- Window `w`'s array, held by the proof data at its share, is a points-to on the whole buffer behind it: at the
    window's share of `q1` for an input, at the full share for the output. -/
theorem arr1_pt (hq : ∀ c, (rd1 c).q = q1) (c : Dev nD) (w : Fin cfg1.W)
    (G : Buf (Elt F) ((cfg1.win w).arr.view.loc (c : Thread nD τ))) :
    ((cfg1.win w).arr.view.loc (c : Thread nD τ) ↦[(cfg1.win w).arr.view.set]{(rd1 c).share w} G : sProp 𝕄)
      = (((c : Thread nD τ).loc (Pipeline.arrRef spec1 w)) ↦{if (cfg1.win w).isOut then fullShare else q1 w} G) := by
  have hwh : (cfg1.win w).arr.IsWhole := arr_whole1 w
  rw [hwh.set_eq_univ]; unfold RDat.share; rw [hq c]

/-- ENTRY of region 1, the arrays' part: the five buffers, whole at the contents region 1 is entered at, make the proof
    data's six arrays at their entry contents — the normalised rows' buffer split into its two half shares, one for each
    of the two windows that read it. -/
theorem arrays_entry1 (hA : ∀ c w, (rd1 c).A w = V1 m c (Pipeline.arrRef spec1 w)) (hq : ∀ c, (rd1 c).q = q1) (c : Dev nD) :
    (unscopedBufs (Ix := Unit) (Name := ℕ) (U := UR sig nD τ) (Lvl := ℕ) c (V1 m c) : sProp 𝕄)
      ⊢ (rd1 c).arrays (rd1 c).A := by
  rw [unscopedBufs1_eq]; unfold RDat.arrays; rw [bigSep_W1]
  rw [arr1_pt rd1 hq c 0, arr1_pt rd1 hq c 1, arr1_pt rd1 hq c 2, arr1_pt rd1 hq c 3, arr1_pt rd1 hq c 4, arr1_pt rd1 hq c 5,
    hA c 0, hA c 1, hA c 2, hA c 3, hA c 4, hA c 5]
  iintro ⟨H00, H01, Ha1, Ha0, Hv1⟩
  ihave H := (pointsTo_share q1_halves).1 $$ H00
  icases H with ⟨Hl, Hr⟩
  isplitl [Hl]; · iexact Hl
  isplitl [Hr]; · iexact Hr
  isplitl [H01]; · iexact H01
  isplitl [Ha1]; · iexact Ha1
  isplitl [Ha0]; · iexact Ha0
  iexact Hv1

/-- An input window's array after every write-back is the buffer behind it, at the window's share, as region 1 found it:
    an input array is never written. -/
theorem arr1_in_exit (hA : ∀ c w, (rd1 c).A w = V1 m c (Pipeline.arrRef spec1 w)) (hq : ∀ c, (rd1 c).q = q1) (c : Dev nD)
    (w : Fin cfg1.W) (hin : (cfg1.win w).isOut = false) :
    (iprop(∃ G, ⌜(rd1 c).ArrAt w cfg1.N G⌝ ∗ (cfg1.win w).arr.view.loc (c : Thread nD τ) ↦[(cfg1.win w).arr.view.set]{(rd1 c).share w} G) : sProp 𝕄)
      ⊢ (((c : Thread nD τ).loc (Pipeline.arrRef spec1 w)) ↦{q1 w} V1 m c (Pipeline.arrRef spec1 w)) := by
  have e := arr1_pt rd1 hq c w ((rd1 c).A w)
  rw [if_neg (by rw [hin]; exact Bool.false_ne_true)] at e
  rw [← hA c w]
  iintro ⟨%G, %hG, H⟩
  rw [(rd1 c).ArrAt_in w hin] at hG
  subst hG
  iapply (Entails.of_eq e); iexact H

/-- EXIT of region 1, the arrays' part: the six arrays after every write-back are the five buffers whole again — the two
    halves of the normalised rows' buffer rejoined, every input buffer as region 1 found it, the output buffer at some
    contents `F5` it may hold after the write-backs. -/
theorem arrays_exit1 (hA : ∀ c w, (rd1 c).A w = V1 m c (Pipeline.arrRef spec1 w)) (hq : ∀ c, (rd1 c).q = q1) (c : Dev nD) :
    (rd1 c).arraysAt cfg1.N
      ⊢ (iprop(∃ F5, ⌜(rd1 c).ArrAt 5 cfg1.N F5⌝ ∗ unscopedBufs (Ix := Unit) (Name := ℕ) (U := UR sig nD τ) (Lvl := ℕ) c (V2 m c F5)) : sProp 𝕄) := by
  have hV2 : ∀ F5, (unscopedBufs (Ix := Unit) (Name := ℕ) (U := UR sig nD τ) (Lvl := ℕ) c (V2 m c F5) : sProp 𝕄)
      = iprop((((c : Thread nD τ).loc main_v0_0) ↦{fullShare} V1 m c main_v0_0) ∗ (((c : Thread nD τ).loc main_v0_1) ↦{fullShare} V1 m c main_v0_1)
          ∗ (((c : Thread nD τ).loc main_arg1) ↦{fullShare} V1 m c main_arg1) ∗ (((c : Thread nD τ).loc main_arg0) ↦{fullShare} V1 m c main_arg0)
          ∗ (((c : Thread nD τ).loc main_v1) ↦{fullShare} F5)) := fun F5 => by
    rw [unscopedBufs1_eq, V2_of_ne m c F5 main_v0_0 (by decide), V2_of_ne m c F5 main_v0_1 (by decide),
      V2_of_ne m c F5 main_arg1 (by decide), V2_of_ne m c F5 main_arg0 (by decide), V2_main_v1]
  have h5 : ∀ F5, ((cfg1.win 5).arr.view.loc (c : Thread nD τ) ↦[(cfg1.win 5).arr.view.set]{(rd1 c).share 5} F5 : sProp 𝕄)
      = (((c : Thread nD τ).loc main_v1) ↦{fullShare} F5) := fun F5 => arr1_pt rd1 hq c 5 F5
  unfold RDat.arraysAt; rw [bigSep_W1]
  iintro ⟨H0, H1, H2, H3, H4, ⟨%F5, %hF5, H5⟩⟩
  ihave H0' := arr1_in_exit m rd1 hA hq c 0 rfl $$ H0
  ihave H1' := arr1_in_exit m rd1 hA hq c 1 rfl $$ H1
  ihave H2' := arr1_in_exit m rd1 hA hq c 2 rfl $$ H2
  ihave H3' := arr1_in_exit m rd1 hA hq c 3 rfl $$ H3
  ihave H4' := arr1_in_exit m rd1 hA hq c 4 rfl $$ H4
  ihave H5' := (Entails.of_eq (h5 F5)) $$ H5
  iexists F5
  isplitr; · ipureintro; exact hF5
  iapply (Entails.of_eq (hV2 F5).symm)
  isplitl [H0' H1']
  · iapply (pointsTo_share q1_halves).2; isplitl [H0'] <;> iassumption
  isplitl [H2']; · iexact H2'
  isplitl [H3']; · iexact H3'
  isplitl [H4']; · iexact H4'
  iexact H5'

/-! ## What the core owes around region 1 -/

/-- The core enters region 1 owing nothing, whatever pairs its waits have recorded. -/
theorem owes_entry1 (howed : ∀ c t, (rd1 c).owed t = 0) (hrec : ∀ c, (rd1 c).recorded 0 = Set.univ) (c : Dev nD) :
    (iprop(∃ W, owes (c : Thread nD τ) (0 : CellTallies nD τ sig Unit) W) : sProp 𝕄) ⊢ (rd1 c).owesAt () 0 := by
  unfold RDat.owesAt Pipeline.owesWithin RDat.bound
  rw [howed c 0, hrec c]
  iintro ⟨%W, HO⟩; iexists W; isplitr; · ipureintro; exact fun _ _ => Or.inl trivial
  iexact HO

/-- It leaves region 1 owing nothing. -/
theorem owes_exit1 (howed : ∀ c t, (rd1 c).owed t = 0) (c : Dev nD) :
    (rd1 c).owesAt () (Fin.last cfg1.N) ⊢ (iprop(∃ W, owes (c : Thread nD τ) (0 : CellTallies nD τ sig Unit) W) : sProp 𝕄) := by
  unfold RDat.owesAt Pipeline.owesWithin
  rw [howed c (Fin.last cfg1.N)]
  iintro ⟨%W, -, HO⟩; iexists W; iexact HO

set_option backward.isDefEq.respectTransparency.types false in
/-- REGION 1 over the thread state: entered from every unscoped buffer at `W1`, left with the output buffer at some
    contents it may hold after every write-back and every other buffer as found. Its six arrays stand on five buffers,
    which are all the unscoped buffers the core has: nothing bypasses the region. The generator register goes into the
    region's invariant and comes back; nothing is owed; the kernel has no semaphore of its own. -/
def reg1 (hA : ∀ c w, (rd1 c).A w = V1 m c (Pipeline.arrRef spec1 w))
    (hq : ∀ c, (rd1 c).q = q1) (howed : ∀ c t, (rd1 c).owed t = 0)
    (hΦ0 : ∀ c, iprop((∃ r, prngReg c r) ∗ Pipeline.scopedRest spec1 c) ⊢ (rd1 c).Φ 0)
    (hΦN : ∀ c, (rd1 c).Φ (Fin.last cfg1.N) ⊢ iprop((∃ r, prngReg c r) ∗ Pipeline.scopedRest spec1 c))
    (hbody : ∀ c, (rd1 c).BodyObligation (defs₀ (F := F)) Variants.none () Set.univ)
    (hrec : ∀ c, (rd1 c).recorded 0 = Set.univ) :
    Pipeline.RDat.RegionSeg (pcfgs (F := F)) adm (rdats m rd1) () defs₀ 𝒱₀ L lv 1 where
  win := winFacts₀1
  block_pos := block_pos1
  stage_whole := stage_whole1
  K := PEmpty
  osem k := k.elim
  ho := Pipeline.OwnSemFacts.none _
  hbody := hbody
  hwaits := Pipeline.RDat.hwaits_of_owed_zero _ _ _ _ L lv 1 howed
  pre c := iprop(StableHlo.held (c : Thread nD τ) (Pipeline.ucRefs τ sig) (W1 m c) ∗ R c)
  post c := iprop(Tₙ m rd1 c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none, held_W1]
    iintro ⟨⟨Hub, Hp, HO⟩, -, -⟩
    ihave Ha := arrays_entry1 m rd1 hA hq c $$ Hub
    ihave HO' := owes_entry1 rd1 howed hrec c $$ HO
    imodintro
    isplitl [Ha]; · iexact Ha
    isplitr; · unfold Pipeline.prefHeld; rw [show (Finset.univ : Finset (Fin 0)) = ∅ from rfl, BI.bigSep_empty]; iempintro
    isplitl [HO']; · iexact HO'
    isplitl [Hp]; · iexact Hp
    iempintro
  hin c := by
    refine BIBase.Entails.trans ?_ (hΦ0 c)
    iintro ⟨Hp, -, Hr⟩
    isplitl [Hp]; · iexact Hp
    iexact Hr
  hout c := by
    rw [Pipeline.ownSems0_none]
    refine BIBase.Entails.trans (hΦN c) ?_
    iintro ⟨Hp, Hr⟩
    isplitl [Hp]; · iexact Hp
    isplitr; · iempintro
    iexact Hr
  hexit c := by
    have hx : (rdats m rd1 1 c).arraysAt (Pipeline.pin (pcfgs (F := F)) adm 1).N
        ⊢ (iprop(∃ F5, ⌜(rd1 c).ArrAt 5 cfg1.N F5⌝ ∗ unscopedBufs (Ix := Unit) (Name := ℕ) (U := UR sig nD τ) (Lvl := ℕ) c (V2 m c F5)) : sProp 𝕄) :=
      arrays_exit1 m rd1 hA hq c
    have ho : (rdats m rd1 1 c).owesAt () (Fin.last (Pipeline.pin (pcfgs (F := F)) adm 1).N)
        ⊢ (iprop(∃ W, owes (c : Thread nD τ) (0 : CellTallies nD τ sig Unit) W) : sProp 𝕄) := owes_exit1 rd1 howed c
    iintro ⟨Ha, HO, HY, -⟩
    ihave Ha' := hx $$ Ha
    icases Ha' with ⟨%F5, %hF5, Hub⟩
    ihave HO' := ho $$ HO
    imodintro
    isplitl [Hub HY]
    · iexists F5
      isplitr; · ipureintro; exact hF5
      isplitl [Hub]; · iapply (Entails.of_eq (held_W2 m c F5).symm); iexact Hub
      iexact HY
    iexact HO'

/-! ## @main as segments, and the launch -/

/-- @main's two segments: the two regions in order, no host operation between them. -/
abbrev segs (hA : ∀ c w, (rd1 c).A w = V1 m c (Pipeline.arrRef spec1 w))
    (hq : ∀ c, (rd1 c).q = q1) (howed : ∀ c t, (rd1 c).owed t = 0)
    (hΦ0 : ∀ c, iprop((∃ r, prngReg c r) ∗ Pipeline.scopedRest spec1 c) ⊢ (rd1 c).Φ 0)
    (hΦN : ∀ c, (rd1 c).Φ (Fin.last cfg1.N) ⊢ iprop((∃ r, prngReg c r) ∗ Pipeline.scopedRest spec1 c))
    (hbody : ∀ c, (rd1 c).BodyObligation (defs₀ (F := F)) Variants.none () Set.univ)
    (hrec : ∀ c, (rd1 c).recorded 0 = Set.univ) :
    List (Pipeline.RDat.Seg (pcfgs (F := F)) adm (rdats m rd1) () defs₀ 𝒱₀ L lv) :=
  [ .region (reg0 m rd1), .region (reg1 m rd1 hA hq howed hΦ0 hΦN hbody hrec) ]

/-- @main IS the run of the segments. -/
theorem main_run (hA : ∀ c w, (rd1 c).A w = V1 m c (Pipeline.arrRef spec1 w))
    (hq : ∀ c, (rd1 c).q = q1) (howed : ∀ c t, (rd1 c).owed t = 0)
    (hΦ0 : ∀ c, iprop((∃ r, prngReg c r) ∗ Pipeline.scopedRest spec1 c) ⊢ (rd1 c).Φ 0)
    (hΦN : ∀ c, (rd1 c).Φ (Fin.last cfg1.N) ⊢ iprop((∃ r, prngReg c r) ∗ Pipeline.scopedRest spec1 c))
    (hbody : ∀ c, (rd1 c).BodyObligation (defs₀ (F := F)) Variants.none () Set.univ)
    (hrec : ∀ c, (rd1 c).recorded 0 = Set.univ) (c : Dev nD) :
    main (F := F) c = Pipeline.RDat.Seg.run (segs m rd1 hA hq howed hΦ0 hΦN hbody hrec) :=
  (main_chain c).trans (by chain_rfl)

set_option backward.isDefEq.respectTransparency.types false in
/-- THE LAUNCH of the two regions, for any relational proof data of region 1 that starts from the contents region 0
    leaves, holds the shared array by halves, owes nothing, takes the generator register and the scoped rest into its
    invariant and gives them back, and meets its body obligation: from any memory with zero counters every weakly fair
    execution of @main terminates, and in every final memory the output array holds some contents region 1's data allow
    after every write-back while the two operands hold what they held at launch. -/
theorem run_of (hA : ∀ c w, (rd1 c).A w = V1 m c (Pipeline.arrRef spec1 w))
    (hq : ∀ c, (rd1 c).q = q1) (howed : ∀ c t, (rd1 c).owed t = 0)
    (hΦ0 : ∀ c, iprop((∃ r, prngReg c r) ∗ Pipeline.scopedRest spec1 c) ⊢ (rd1 c).Φ 0)
    (hΦN : ∀ c, (rd1 c).Φ (Fin.last cfg1.N) ⊢ iprop((∃ r, prngReg c r) ∗ Pipeline.scopedRest spec1 c))
    (hbody : ∀ c, (rd1 c).BodyObligation (defs₀ (F := F)) Variants.none () Set.univ)
    (hrec : ∀ c, (rd1 c).recorded 0 = Set.univ) :
    θ_run defs (onTc (τ := τ) (main (F := F))) ⟨m, fun _ => 0, ρ⟩ (fun r => ∀ c : Dev nD,
      (∃ F5, (rd1 c).ArrAt 5 cfg1.N F5 ∧ r.2.mem ((cfg1.win 5).arr.view.loc (c : Thread nD τ)) = F5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.RDat.θ_run_regions_kit (pcfgs (F := F)) adm (rdats m rd1) () cellOf_inj emb₁ defs₀ 𝒱₀ L lv m ρ main (segs m rd1 hA hq howed hΦ0 hΦN hbody hrec)
    (fun c Q => by rw [main_run m rd1 hA hq howed hΦ0 hΦN hbody hrec c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c)) (Tₙ := Tₙ m rd1)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∃ F5, (rd1 c).ArrAt 5 cfg1.N F5 ∧ ∀ b ∈ Pipeline.ucRefs τ sig, s.mem (((c : Thread nD τ)).1, b) = W2 m c F5 b)
    (hfin := fun c s' => by
      iintro ⟨⟨%F5, %hF5, Hh, -⟩, HSI⟩
      ihave Hr := (pointsTo_read_all (Pipeline.ucRefs τ sig) (fun b => (((c : Thread nD τ)).1, b)) (W2 m c F5) s') $$ [Hh HSI]
      · isplitl [Hh]; · unfold StableHlo.held; iexact Hh
        iexact HSI
      icases Hr with ⟨%h, HSI⟩
      imodintro
      isplitr
      · ipureintro; exact ⟨F5, hF5, h⟩
      iexact HSI)
    (hQ := fun s h c => by
      obtain ⟨F5, hF5, hb⟩ := h c
      refine ⟨⟨F5, hF5, ?_⟩, ?_, ?_⟩
      · exact (hb _ (mem_uc main_v1 (by decide))).trans (V2_main_v1 m c F5)
      · exact (hb _ (mem_uc main_arg0 (by decide))).trans ((V2_of_ne m c F5 main_arg0 (by decide)).trans (V1_main_arg0 m c))
      · exact (hb _ (mem_uc main_arg1 (by decide))).trans ((V2_of_ne m c F5 main_arg1 (by decide)).trans (V1_main_arg1 m c)))

end Cert.Kernel.Hand

end
-- ==== Proof.K_R1Defs.lean ====
/- What one grid point of the second kernel makes of its two carried buffers and, at the last key tile, of its
   output block, as pure functions of what the point reads: the row sums `l` grow by the point's masked
   exponentials' row sums, the accumulator `acc` by their product with the point's value block, and the output block
   is `2·xf − 1·(acc / l)`. -/
import proofs.«424991_j3564822856140_2_alg».proof.Proof.Gen.Kernel.Skeleton

noncomputable section

namespace Cert.Kernel.Hand

open Cert.Kernel Cert.Kernel.Gen Idealize.ShloMosaic

variable {F : FTy → Type} [FloatOps F]

/-- The row sums after a point, from the query block `q`, the key block `k`, the mask block `a` and the row sums before it. -/
def lNext (i : grid1.Coords) (q k : Vec F S1024x512 .bf16) (a : Vec F S1024x1024 .i32) (l : Vec F S1024x1 .f32) : Vec F S1024x1 .f32 :=
  k1_pay7 i q k a l

/-- The accumulator after a point, from the same and the value block `v`. -/
def aNext (i : grid1.Coords) (q k v : Vec F S1024x512 .bf16) (a : Vec F S1024x1024 .i32) (acc : Vec F S1024x512 .f32) : Vec F S1024x512 .f32 :=
  k1_pay1 (k1_pay5 v) (k1_pay6 i q k a) acc

/-- The output block stored at the last key tile. -/
def oNext (acc : Vec F S1024x512 .f32) (l : Vec F S1024x1 .f32) (xf : Vec F S1024x512 .f32) : Vec F S1024x512 .f32 :=
  k1_pay2 acc l xf

end Cert.Kernel.Hand

end
-- ==== Proof.K_R1Body.lean ====
/- The body of the second kernel at one grid point, run symbolically, once per case of the key coordinate: at the
   FIRST key tile the two carried buffers (the row sums and the accumulator) are reset to zero and then grown by the
   point's contribution; at a MIDDLE key tile they are only grown; at the LAST key tile they are grown and the output
   block is stored from them. In each case every input block is left as found, and what the carried buffers and the
   output block hold afterwards is a plain function of what the point read: the row sums `lNext`, the accumulator
   `aNext`, the output block `oNext`.

   The two tests of the key coordinate are chains "equal to a literal, widened to 32 bits, not zero" over the
   coordinate's word; each holds exactly when the coordinate is that literal, the coordinate being below ten. Every
   access is of a whole buffer through the rectangle at zero offsets, so a store leaves its payload and a load after it
   reads the payload back. -/
import proofs.«424991_j3564822856140_2_alg».proof.Proof.Gen.Kernel.Skeleton
import proofs.«424991_j3564822856140_2_alg».proof.Proof.K_R1Defs
import Idealize.ShloMosaic.Lib.Pipeline.FrameBody
import Idealize.ShloMosaic.Lib.Pipeline.Value
import Idealize.ShloMosaic.Lib.Affine
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The two tests of the key coordinate -/

/-- A one-bit word widened to 32 bits differs from zero exactly when the bit is set. -/
theorem widened_ne_zero_iff (c : BitVec 1) : Scalar.cmpi .ne (Scalar.extui c) 0#32 = 1#1 ↔ c = 1#1 := by
  revert c; decide

/-- The printed test of a coordinate against a literal — the two words compared for equality, the bit widened,
    the result compared with zero — holds exactly when the two naturals are equal, both being below `2 ^ 32`
    (so that neither wraps as a word). -/
theorem coord_test_iff (x n : Nat) (hx : x < 2 ^ 32) (hn : n < 2 ^ 32) :
    Scalar.cmpi .ne (Scalar.extui (Scalar.cmpi .eq (BitVec.ofNat 32 x) (BitVec.ofNat 32 n))) 0#32 = 1#1 ↔ x = n := by
  rw [widened_ne_zero_iff]
  show IntOp.cmpi .eq _ _ = 1#1 ↔ _
  rw [IntOp.cmpi_eq]
  constructor
  · intro h
    have := congrArg BitVec.toNat h
    rwa [BitVec.toNat_ofNat, BitVec.toNat_ofNat, Nat.mod_eq_of_lt hx, Nat.mod_eq_of_lt hn] at this
  · rintro rfl; rfl

/-- The key coordinate is below ten: the grid has ten key tiles. -/
theorem key_coord_lt (i : grid1.Coords) : (i 1).val < 10 := (i 1).isLt

/-- The reset test holds exactly at the first key tile. -/
theorem first_test_iff (i : grid1.Coords) :
    Scalar.cmpi .ne (Scalar.extui (Scalar.cmpi .eq (BitVec.ofNat 32 (i 1).val) 0#32)) 0#32 = 1#1 ↔ (i 1).val = 0 :=
  coord_test_iff (i 1).val 0 (by have := key_coord_lt i; omega) (by decide)

/-- The output test holds exactly at the last key tile. -/
theorem last_test_iff (i : grid1.Coords) : k1_cond2 i = 1#1 ↔ (i 1).val = 9 :=
  coord_test_iff (i 1).val 9 (by have := key_coord_lt i; omega) (by decide)

/-! ## Whole-buffer accesses at zero offsets -/

/-- The printed zero offsets of a rank-2 access are the zero function. -/
theorem offsets_zero2 : (![0, 0] : Fin 2 → Nat) = fun _ => 0 := funext fun a => by fin_cases a <;> rfl

section WholeAccess
variable {Val : EltTy → Type} [∀ e, Nonempty (Val e)] {sg : RefSig} {κ : Kind} {sp : Space} {S : Shape} {e : EltTy}

/-- A load through the whole-shape rectangle at zero offsets reads what the view reads. -/
theorem readAt_whole_block (v : View sg κ sp S e) (f : v.ty.Contents Val) {off : Fin S.rank → Nat} (hz : off = fun _ => 0)
    (inb : ∀ a, off a + S.size a ≤ S.size a) :
    v.readAt Val (Rect.unit off S.size inb).toLoadRect f = v.read Val f :=
  (View.readAt_eq_ld v f _).trans (View.ld_unit_zero hz inb _)

/-- After a store through the whole-shape rectangle at zero offsets, made last, the view reads the stored payload,
    whatever was stored before it and whatever the buffer held. -/
theorem read_writes_whole_block (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero hz inb y⟩).trans
    (View.canon_cons_unit_zero hz inb w L)

end WholeAccess

/-! ## The body's triple, case by case

In each case the two tests are decided from the hypothesis on the key coordinate, the body runs through the
branches so chosen, and at the return each buffer is handed to the continuation: an input block at the contents it
was found with, a buffer the body stored into at the payload of its last store (the loads inside that payload read
back either the buffer's contents at entry or, after a store of this run, that store's payload). -/

set_option maxHeartbeats 1000000 in
/-- FIRST key tile: the row sums and the accumulator are reset to zero, then grown by the point's contribution; the
    output block is not touched. -/
theorem sound_kernel1_first (c : Dev nD) (E : Set ℕ) (i : grid1.Coords) (hi : (i 1).val = 0)
    (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .i32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole)
    (q k v : Vec F S1024x512 .bf16) (a : Vec F S1024x1024 .i32) (xf o : Vec F S1024x512 .f32)
    (l0 : Vec F S1024x1 .f32) (acc0 : Vec F S1024x512 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare a ∗ owns (c : Thread nD τ) arg6 fullShare xf ∗ owns (c : Thread nD τ) arg7 fullShare o
        ∗ owns (c : Thread nD τ) arg8 fullShare l0 ∗ owns (c : Thread nD τ) arg9 fullShare acc0
        ∗ (iprop(owns (c : Thread nD τ) arg2 fullShare q ∗ owns (c : Thread nD τ) arg3 fullShare k ∗ owns (c : Thread nD τ) arg4 fullShare v
            ∗ owns (c : Thread nD τ) arg5 fullShare a ∗ owns (c : Thread nD τ) arg6 fullShare xf ∗ owns (c : Thread nD τ) arg7 fullShare o
            ∗ owns (c : Thread nD τ) arg8 fullShare (lNext i q k a k1_pay3) ∗ owns (c : Thread nD τ) arg9 fullShare (aNext i q k v a k1_pay4)) -∗ K ⟨⟩))
      ⊢ wp frame (wpE (defs₀ (F := F)) Variants.none c none) E (cc1__cn_kernel i arg2 harg2 arg3 harg3 arg4 harg4 arg5 harg5 arg6 harg6 arg7 harg7 arg8 harg8 arg9 harg9) K := by
  have hc1 : Scalar.cmpi .ne (Scalar.extui (Scalar.cmpi .eq (BitVec.ofNat 32 (i 1).val) 0#32)) 0#32 = 1#1 :=
    (first_test_iff i).mpr hi
  have hc2 : ¬ (k1_cond2 i = 1#1) := fun h => by have := (last_test_iff i).mp h; omega
  simp only [cc1__cn_kernel_eq_skeleton]; unfold cc1__cn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    refine (read_writes_whole_block _ _ offsets_zero2 _ _ _).trans ?_
    sl_unfold_run_names
    rw [View.readCov_unit_zero _ offsets_zero2, readAt_whole_block _ _ offsets_zero2, readAt_whole_block _ _ offsets_zero2, readAt_whole_block _ _ offsets_zero2]
    rfl
  iexists _; isplitr
  swap; · iexact H9
  ipureintro
  refine (read_writes_whole_block _ _ offsets_zero2 _ _ _).trans ?_
  dsimp only
  sl_unfold_run_names
  rw [View.readCov_unit_zero _ offsets_zero2, readAt_whole_block _ _ offsets_zero2, readAt_whole_block _ _ offsets_zero2, readAt_whole_block _ _ offsets_zero2, readAt_whole_block _ _ offsets_zero2]
  rfl

set_option maxHeartbeats 1000000 in
/-- MIDDLE key tile: the row sums and the accumulator are grown by the point's contribution; nothing is reset and
    the output block is not touched. -/
theorem sound_kernel1_mid (c : Dev nD) (E : Set ℕ) (i : grid1.Coords) (hi0 : (i 1).val ≠ 0) (hi9 : (i 1).val ≠ 9)
    (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .i32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole)
    (q k v : Vec F S1024x512 .bf16) (a : Vec F S1024x1024 .i32) (xf o : Vec F S1024x512 .f32)
    (l0 : Vec F S1024x1 .f32) (acc0 : Vec F S1024x512 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare a ∗ owns (c : Thread nD τ) arg6 fullShare xf ∗ owns (c : Thread nD τ) arg7 fullShare o
        ∗ owns (c : Thread nD τ) arg8 fullShare l0 ∗ owns (c : Thread nD τ) arg9 fullShare acc0
        ∗ (iprop(owns (c : Thread nD τ) arg2 fullShare q ∗ owns (c : Thread nD τ) arg3 fullShare k ∗ owns (c : Thread nD τ) arg4 fullShare v
            ∗ owns (c : Thread nD τ) arg5 fullShare a ∗ owns (c : Thread nD τ) arg6 fullShare xf ∗ owns (c : Thread nD τ) arg7 fullShare o
            ∗ owns (c : Thread nD τ) arg8 fullShare (lNext i q k a l0) ∗ owns (c : Thread nD τ) arg9 fullShare (aNext i q k v a acc0)) -∗ K ⟨⟩))
      ⊢ wp frame (wpE (defs₀ (F := F)) Variants.none c none) E (cc1__cn_kernel i arg2 harg2 arg3 harg3 arg4 harg4 arg5 harg5 arg6 harg6 arg7 harg7 arg8 harg8 arg9 harg9) K := by
  have hc1 : ¬ (Scalar.cmpi .ne (Scalar.extui (Scalar.cmpi .eq (BitVec.ofNat 32 (i 1).val) 0#32)) 0#32 = 1#1) :=
    fun h => hi0 ((first_test_iff i).mp h)
  have hc2 : ¬ (k1_cond2 i = 1#1) := fun h => hi9 ((last_test_iff i).mp h)
  simp only [cc1__cn_kernel_eq_skeleton]; unfold cc1__cn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    refine (read_writes_whole_block _ _ offsets_zero2 _ _ _).trans ?_
    rw [readAt_whole_block _ _ offsets_zero2, readAt_whole_block _ _ offsets_zero2, readAt_whole_block _ _ offsets_zero2, readAt_whole_block _ _ offsets_zero2]
    rfl
  iexists _; isplitr
  swap; · iexact H9
  ipureintro
  refine (read_writes_whole_block _ _ offsets_zero2 _ _ _).trans ?_
  dsimp only
  rw [readAt_whole_block _ _ offsets_zero2, readAt_whole_block _ _ offsets_zero2, readAt_whole_block _ _ offsets_zero2, readAt_whole_block _ _ offsets_zero2, readAt_whole_block _ _ offsets_zero2]
  rfl

set_option maxHeartbeats 1000000 in
/-- LAST key tile: the row sums and the accumulator are grown by the point's contribution, then the output block is
    stored from the grown accumulator, the grown row sums and the `xf` block. -/
theorem sound_kernel1_last (c : Dev nD) (E : Set ℕ) (i : grid1.Coords) (hi : (i 1).val = 9)
    (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .i32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole)
    (q k v : Vec F S1024x512 .bf16) (a : Vec F S1024x1024 .i32) (xf o : Vec F S1024x512 .f32)
    (l0 : Vec F S1024x1 .f32) (acc0 : Vec F S1024x512 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare a ∗ owns (c : Thread nD τ) arg6 fullShare xf ∗ owns (c : Thread nD τ) arg7 fullShare o
        ∗ owns (c : Thread nD τ) arg8 fullShare l0 ∗ owns (c : Thread nD τ) arg9 fullShare acc0
        ∗ (iprop(owns (c : Thread nD τ) arg2 fullShare q ∗ owns (c : Thread nD τ) arg3 fullShare k ∗ owns (c : Thread nD τ) arg4 fullShare v
            ∗ owns (c : Thread nD τ) arg5 fullShare a ∗ owns (c : Thread nD τ) arg6 fullShare xf ∗ owns (c : Thread nD τ) arg7 fullShare (oNext (aNext i q k v a acc0) (lNext i q k a l0) xf)
            ∗ owns (c : Thread nD τ) arg8 fullShare (lNext i q k a l0) ∗ owns (c : Thread nD τ) arg9 fullShare (aNext i q k v a acc0)) -∗ K ⟨⟩))
      ⊢ wp frame (wpE (defs₀ (F := F)) Variants.none c none) E (cc1__cn_kernel i arg2 harg2 arg3 harg3 arg4 harg4 arg5 harg5 arg6 harg6 arg7 harg7 arg8 harg8 arg9 harg9) K := by
  have hc1 : ¬ (Scalar.cmpi .ne (Scalar.extui (Scalar.cmpi .eq (BitVec.ofNat 32 (i 1).val) 0#32)) 0#32 = 1#1) :=
    fun h => by have := (first_test_iff i).mp h; omega
  have hc2 : k1_cond2 i = 1#1 := (last_test_iff i).mpr hi
  simp only [cc1__cn_kernel_eq_skeleton]; unfold cc1__cn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    refine (read_writes_whole_block _ _ offsets_zero2 _ _ _).trans ?_
    dsimp only
    sl_unfold_run_names
    rw [View.readCov_unit_zero _ offsets_zero2, View.readCov_unit_zero _ offsets_zero2, readAt_whole_block _ _ offsets_zero2, readAt_whole_block _ _ offsets_zero2,
      readAt_whole_block _ _ offsets_zero2, readAt_whole_block _ _ offsets_zero2, readAt_whole_block _ _ offsets_zero2, readAt_whole_block _ _ offsets_zero2, readAt_whole_block _ _ offsets_zero2]
    rfl
  isplitl [H8]
  · iexists _; isplitr
    swap; · iexact H8
    ipureintro
    refine (read_writes_whole_block _ _ offsets_zero2 _ _ _).trans ?_
    rw [readAt_whole_block _ _ offsets_zero2, readAt_whole_block _ _ offsets_zero2, readAt_whole_block _ _ offsets_zero2, readAt_whole_block _ _ offsets_zero2]
    rfl
  iexists _; isplitr
  swap; · iexact H9
  ipureintro
  refine (read_writes_whole_block _ _ offsets_zero2 _ _ _).trans ?_
  dsimp only
  rw [readAt_whole_block _ _ offsets_zero2, readAt_whole_block _ _ offsets_zero2, readAt_whole_block _ _ offsets_zero2, readAt_whole_block _ _ offsets_zero2, readAt_whole_block _ _ offsets_zero2]
  rfl

end Cert.Kernel.Hand

end
-- ==== Proof.K_R1Frame.lean ====
/- The second call's proof data with EVERY WINDOW FORGOTTEN, for the frame of the program.

   The second call walks a 10 × 10 grid of (query tile, key tile) with blocks of 1024 rows over arrays of 10000 rows:
   the last tile overhangs the arrays, so a staged block is cut at the array's end, and past the cut a staging buffer
   holds words that no array names. Nothing can therefore be said of a window's contents that holds at every point,
   and the frame needs nothing said: each window's buffer is handed to the body at SOME contents and taken back at SOME
   contents. The body carries two buffers of its own across the key axis — the row sums (1024 × 1) and the accumulator
   (1024 × 512) —; they are among the core's scoped buffers that are no staging buffer of this call, so the region's
   invariant (the scoped rest, each buffer whole at some contents, beside the generator register) already holds them, at
   some contents, before and after every point.

   What is proved: the body at any grid coordinates runs from any contents of its eight memrefs to some contents
   (by the three cases of the key coordinate: first tile, last tile, a tile between); hence the loose body obligation
   with all six windows forgotten; hence the relational proof data's obligation, with the data's entry arrays, shares,
   tallies and the invariant's two ends read off. -/
import proofs.«424991_j3564822856140_2_alg».proof.Proof.Gen.Kernel.Launch
import proofs.«424991_j3564822856140_2_alg».proof.Proof.Gen.Kernel.Skeleton
import proofs.«424991_j3564822856140_2_alg».proof.Proof.Gen.Kernel.Points
import proofs.«424991_j3564822856140_2_alg».proof.Proof.K_R1Defs
import proofs.«424991_j3564822856140_2_alg».proof.Proof.K_R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! # Region 1 with every window forgotten -/

section Region1

/-- Eight memrefs each held at named contents are each held at some contents. -/
theorem anyOf8 (c : Dev nD) (arg2 : Memref sig .tc .vmem S1024x512 .bf16) (arg3 : Memref sig .tc .vmem S1024x512 .bf16) (arg4 : Memref sig .tc .vmem S1024x512 .bf16) (arg5 : Memref sig .tc .vmem S1024x1024 .i32) (arg6 : Memref sig .tc .vmem S1024x512 .f32) (arg7 : Memref sig .tc .vmem S1024x512 .f32) (arg8 : Memref sig .tc .vmem S1024x1 .f32) (arg9 : Memref sig .tc .vmem S1024x512 .f32)
    (q k v : Vec F S1024x512 .bf16) (a : Vec F S1024x1024 .i32) (xf o : Vec F S1024x512 .f32) (l : Vec F S1024x1 .f32) (acc : Vec F S1024x512 .f32) :
    (iprop(owns (c : Thread nD τ) arg2 fullShare q ∗ owns (c : Thread nD τ) arg3 fullShare k ∗ owns (c : Thread nD τ) arg4 fullShare v ∗ owns (c : Thread nD τ) arg5 fullShare a ∗ owns (c : Thread nD τ) arg6 fullShare xf ∗ owns (c : Thread nD τ) arg7 fullShare o ∗ owns (c : Thread nD τ) arg8 fullShare l ∗ owns (c : Thread nD τ) arg9 fullShare acc) : sProp 𝕄)
      ⊢ iprop((∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X)) := by
  iintro ⟨H2, H3, H4, H5, H6, H7, H8, H9⟩
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

/-- The body of the second call at any grid coordinates, on whole memrefs at ANY contents, runs to the continuation
    holding each memref at some contents: by the key coordinate — the first key tile (the carried buffers are reset), the
    last (the output block is stored), or one between — it is one of the three triples of the body, with what each
    leaves forgotten. -/
theorem sound_any_at (c : Dev nD) (E : Set ℕ) (i : grid1.Coords)
    (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .i32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (K : PUnit → sProp 𝕄) :
    iprop((∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X)
        ∗ (iprop((∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X)) -∗ K ⟨⟩))
      ⊢ wp frame (wpE (defs₀ (F := F)) Variants.none c none) E (cc1__cn_kernel i arg2 harg2 arg3 harg3 arg4 harg4 arg5 harg5 arg6 harg6 arg7 harg7 arg8 harg8 arg9 harg9) K := by
  iintro ⟨⟨%q, H2⟩, ⟨%k, H3⟩, ⟨%v, H4⟩, ⟨%a, H5⟩, ⟨%xf, H6⟩, ⟨%o, H7⟩, ⟨%l0, H8⟩, ⟨%acc0, H9⟩, Hk⟩
  by_cases h0 : (i 1).val = 0
  · -- the first key tile
    iapply (sound_kernel1_first c E i h0 arg2 harg2 arg3 harg3 arg4 harg4 arg5 harg5 arg6 harg6 arg7 harg7 arg8 harg8 arg9 harg9 q k v a xf o l0 acc0 K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro H
    iapply Hk
    iapply (anyOf8 c arg2 arg3 arg4 arg5 arg6 arg7 arg8 arg9 _ _ _ _ _ _ _ _)
    iexact H
  by_cases h9 : (i 1).val = 9
  · -- the last key tile
    iapply (sound_kernel1_last c E i h9 arg2 harg2 arg3 harg3 arg4 harg4 arg5 harg5 arg6 harg6 arg7 harg7 arg8 harg8 arg9 harg9 q k v a xf o l0 acc0 K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro H
    iapply Hk
    iapply (anyOf8 c arg2 arg3 arg4 arg5 arg6 arg7 arg8 arg9 _ _ _ _ _ _ _ _)
    iexact H
  · -- a key tile between
    iapply (sound_kernel1_mid c E i h0 h9 arg2 harg2 arg3 harg3 arg4 harg4 arg5 harg5 arg6 harg6 arg7 harg7 arg8 harg8 arg9 harg9 q k v a xf o l0 acc0 K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro H
    iapply Hk
    iapply (anyOf8 c arg2 arg3 arg4 arg5 arg6 arg7 arg8 arg9 _ _ _ _ _ _ _ _)
    iexact H

/-- The same at a point `t` of the grid, on what the pipeline calls the body with there: the six windows' current
    staging memrefs and the two carried buffers whole. -/
theorem sound_any (c : Dev nD) (t : Fin cfg1.N) (K : PUnit → sProp 𝕄) :
    iprop((∃ X, owns (c : Thread nD τ) (Gen.st1_0 t) fullShare X) ∗ (∃ X, owns (c : Thread nD τ) (Gen.st1_1 t) fullShare X) ∗ (∃ X, owns (c : Thread nD τ) (Gen.st1_2 t) fullShare X) ∗ (∃ X, owns (c : Thread nD τ) (Gen.st1_3 t) fullShare X) ∗ (∃ X, owns (c : Thread nD τ) (Gen.st1_4 t) fullShare X) ∗ (∃ X, owns (c : Thread nD τ) (Gen.st1_5 t) fullShare X) ∗ (∃ X, owns (c : Thread nD τ) (Memref.whole cc1_scratch0) fullShare X) ∗ (∃ X, owns (c : Thread nD τ) (Memref.whole cc1_scratch1) fullShare X)
        ∗ (iprop((∃ X, owns (c : Thread nD τ) (Gen.st1_0 t) fullShare X) ∗ (∃ X, owns (c : Thread nD τ) (Gen.st1_1 t) fullShare X) ∗ (∃ X, owns (c : Thread nD τ) (Gen.st1_2 t) fullShare X) ∗ (∃ X, owns (c : Thread nD τ) (Gen.st1_3 t) fullShare X) ∗ (∃ X, owns (c : Thread nD τ) (Gen.st1_4 t) fullShare X) ∗ (∃ X, owns (c : Thread nD τ) (Gen.st1_5 t) fullShare X) ∗ (∃ X, owns (c : Thread nD τ) (Memref.whole cc1_scratch0) fullShare X) ∗ (∃ X, owns (c : Thread nD τ) (Memref.whole cc1_scratch1) fullShare X)) -∗ K ⟨⟩))
      ⊢ wp frame (wpE (defs₀ (F := F)) Variants.none c none) Set.univ (Gen.bodyAt1 t) K :=
  sound_any_at c Set.univ (grid1.coords t) _ _ _ _ _ _ _ _ _ _ _ _ _ _ _ _ K

variable (V : (c : Dev nD) → (b : Ref sig .tc) → Buf (Elt F) ((c : Thread nD τ).loc b)) (q1 : Fin 6 → PosShare TreeShare)

/-- The proof data of pipeline 1 on core `c` naming no contents: the arrays as the region finds them (`V`); what the
    body leaves in a window's buffer unnamed; the invariant the scoped rest (which lists the two carried buffers, each whole
    at some contents) and the generator register; nothing owed; the shares `q1`. -/
def dat1F (c : Dev nD) : Dat τ (Elt F) Unit ℕ (UR sig nD τ) ℕ cfg1 c where
  A w := V c (Pipeline.arrRef spec1 w)
  after := Dat.unnamed
  Φ _ := Pipeline.ΦA spec1 c
  q := q1
  owed _ := 0

/-- A whole buffer held as a whole memref at some contents is the buffer at some contents. -/
theorem ownsWhole_some_eq (c : Dev nD) (b : Ref sig .tc) :
    (iprop(∃ X, owns (c : Thread nD τ) (Memref.whole b) fullShare X) : sProp 𝕄)
      = iprop(∃ f : Buf (Elt F) ((c : Thread nD τ).loc b), ((c : Thread nD τ).loc b) ↦{fullShare} f) := by
  simp only [owns_whole]

/-- The body obligation with every window forgotten: the six windows' current buffers come at some contents, the two
    carried buffers out of the invariant's scoped rest at some contents; the body runs from any contents to some contents
    (`sound_any`); each buffer goes back where it came from. The invariant and what the core owes do not depend on
    the point. -/
theorem body_obligation1F (c : Dev nD) :
    BodyObligationLoose (dat1F V q1 c) (defs₀ (F := F)) Variants.none () Set.univ (fun _ => true) := fun t => by
  rw [Gen.bigSep_W1]
  simp only
  rw [show (dat1F V q1 c).Φ t.succ = Pipeline.ΦA spec1 c from rfl,
    show (dat1F V q1 c).Φ t.castSucc = Pipeline.ΦA spec1 c from rfl,
    show (dat1F V q1 c).owesAt () t.succ = (dat1F V q1 c).owesAt () t.castSucc from rfl]
  unfold Pipeline.ΦA
  rw [Gen.scopedRest1_eq, ← ownsWhole_some_eq c cc1_scratch0, ← ownsWhole_some_eq c cc1_scratch1]
  show _ ⊢ wp frame _ Set.univ (Gen.bodyAt1 t) _
  iintro ⟨⟨⟨S0, S1, S2, S3, S4, S5, Hl, Ha⟩, Hp⟩, Ho, W0, W1, W2, W3, W4, W5⟩
  iapply (sound_any c t _)
  isplitl [W0]; · iexact W0
  isplitl [W1]; · iexact W1
  isplitl [W2]; · iexact W2
  isplitl [W3]; · iexact W3
  isplitl [W4]; · iexact W4
  isplitl [W5]; · iexact W5
  isplitl [Hl]; · iexact Hl
  isplitl [Ha]; · iexact Ha
  iintro ⟨W0, W1, W2, W3, W4, W5, Hl, Ha⟩
  isplitl [S0 S1 S2 S3 S4 S5 Hl Ha Hp]
  · isplitr [Hp]
    · isplitl [S0]; · iexact S0
      isplitl [S1]; · iexact S1
      isplitl [S2]; · iexact S2
      isplitl [S3]; · iexact S3
      isplitl [S4]; · iexact S4
      isplitl [S5]; · iexact S5
      isplitl [Hl]; · iexact Hl
      iexact Ha
    · iexact Hp
  isplitl [Ho]; · iexact Ho
  isplitl [W0]; · iexact W0
  isplitl [W1]; · iexact W1
  isplitl [W2]; · iexact W2
  isplitl [W3]; · iexact W3
  isplitl [W4]; · iexact W4
  iexact W5

/-! ## The relational proof data -/

/-- The same data read relationally, every window's relation saying nothing. -/
def rd1F (c : Dev nD) : RDat τ (Elt F) Unit ℕ (UR sig nD τ) ℕ cfg1 c := (dat1F V q1 c).toRForget (fun _ => true)

/-- Its entry arrays are the region-entry contents, -/
theorem rd1F_A (c : Dev nD) (w : Fin cfg1.W) : (rd1F V q1 c).A w = V c (Pipeline.arrRef spec1 w) := rfl

/-- its shares the given ones, -/
theorem rd1F_q (c : Dev nD) : (rd1F V q1 c).q = q1 := rfl

/-- and it owes nothing at any point. -/
theorem rd1F_owed (c : Dev nD) (t : Fin (cfg1.N + 1)) : (rd1F V q1 c).owed t = 0 := rfl

/-- The generator register at some state and the scoped rest give the invariant before the first point, -/
theorem rd1F_Φ0 (c : Dev nD) :
    (iprop((∃ r, prngReg c r) ∗ Pipeline.scopedRest (Ix := Unit) (Name := ℕ) (U := UR sig nD τ) (Lvl := ℕ) (Val := Elt F) spec1 c) : sProp 𝕄)
      ⊢ (rd1F V q1 c).Φ 0 := by
  rw [show (rd1F V q1 c).Φ 0 = Pipeline.ΦA spec1 c from rfl]; unfold Pipeline.ΦA
  iintro ⟨Hp, Hr⟩
  isplitl [Hr]; · iexact Hr
  iexact Hp

/-- and the invariant after the last point gives them back. -/
theorem rd1F_ΦN (c : Dev nD) :
    (rd1F V q1 c).Φ (Fin.last cfg1.N)
      ⊢ (iprop((∃ r, prngReg c r) ∗ Pipeline.scopedRest (Ix := Unit) (Name := ℕ) (U := UR sig nD τ) (Lvl := ℕ) (Val := Elt F) spec1 c) : sProp 𝕄) := by
  rw [show (rd1F V q1 c).Φ (Fin.last cfg1.N) = Pipeline.ΦA spec1 c from rfl]; unfold Pipeline.ΦA
  iintro ⟨Hr, Hp⟩
  isplitl [Hp]; · iexact Hp
  iexact Hr

/-- The relational body obligation: the loose obligation with every window forgotten, read relationally. -/
theorem rd1F_body (c : Dev nD) : (rd1F V q1 c).BodyObligation (defs₀ (F := F)) Variants.none () Set.univ :=
  (body_obligation1F V q1 c).toRForget

end Region1

end Cert.Kernel.Hand

end
-- ==== Proof.lean ====
/- The certificate's claims, assembled.

   Both programs compute, for x : [10000, 512] and an integer mask adj : [10000, 10000] no row of which is masked whole,
       G_id = 2·x_id − 1·((Σ_j p_ij · x_jd) / (Σ_j p_ij)),   p_ij = 0 where adj_ij > 0, else exp (⟨x_i/‖x_i‖, x_j/‖x_j‖⟩ / 1)
   (Forms.lean). The reference normalizes the rows, masks the similarities with −∞ and takes a softmax along each row,
   shifted by the row's maximum; the kernel keeps the shift at 0 and accumulates numerator and denominator apart over
   ten key tiles, whose last overhangs the arrays and is masked by position. The two agree because a softmax does not
   depend on its shift, as long as the row has an unmasked entry — which the precondition says — and every entry of x
   is a real number — which it also says.

   * The reference's result is G: RefValue.lean, over the reference's run read back one operation at a time.
   * The kernel's result is G: KI_Value.lean — the first call leaves the normalized rows (KI_R0Value.lean), the second,
     on the rows inside the array, the sums over the key tiles done so far (KI_R1Oblig.lean over KI_R1Step.lean), and
     its write-backs tile the result (KI_R1Arr.lean).
   * The frames: the program runs to the end as two pipelines one after the other (KI_Launch.lean); at the bit-exact
     instance nothing is said of what the second one's buffers hold (K_R1Frame.lean). -/
import proofs.«424991_j3564822856140_2_alg».proof.Defs
import proofs.«424991_j3564822856140_2_alg».proof.Proof.Gen.Kernel
import proofs.«424991_j3564822856140_2_alg».proof.Proof.Gen.KernelIdeal
import proofs.«424991_j3564822856140_2_alg».proof.Proof.Gen.ReferenceIdeal
import proofs.«424991_j3564822856140_2_alg».proof.Proof.Gen.Pre_finite_inputs
import proofs.«424991_j3564822856140_2_alg».proof.Proof.RefRun
import proofs.«424991_j3564822856140_2_alg».proof.Proof.RefRead
import proofs.«424991_j3564822856140_2_alg».proof.Proof.RefValue
import proofs.«424991_j3564822856140_2_alg».proof.Proof.PreDecode
import proofs.«424991_j3564822856140_2_alg».proof.Proof.KI_Launch
import proofs.«424991_j3564822856140_2_alg».proof.Proof.KI_R1Phi
import proofs.«424991_j3564822856140_2_alg».proof.Proof.KI_R1Oblig
import proofs.«424991_j3564822856140_2_alg».proof.Proof.KI_Value
import proofs.«424991_j3564822856140_2_alg».proof.Proof.K_Launch
import proofs.«424991_j3564822856140_2_alg».proof.Proof.K_R1Frame
import Idealize.ShloMosaic.Adequacy
import Idealize.ShloMosaic.Init

noncomputable section

namespace Cert.Proof

open Idealize.ShloMosaic Idealize.ShloMosaic.TcCoe Idealize.SL.Sem Idealize.ShloMosaic.ValueIdx

/-- x and the mask as functions of two coordinates, off core `c`'s argument buffers. -/
abbrev xOf (m : (ℓ : Loc Cert.KernelIdeal.nD Cert.KernelIdeal.τ Cert.KernelIdeal.sig) → Buf (Elt Ideal) ℓ) (c : Dev Cert.KernelIdeal.nD) :
    Fin 10000 → Fin 512 → EReal :=
  fun a b => m ((c.tc : Thread Cert.KernelIdeal.nD Cert.KernelIdeal.τ).loc Cert.KernelIdeal.main_arg0) (ix2 a b)
abbrev adjOf (m : (ℓ : Loc Cert.KernelIdeal.nD Cert.KernelIdeal.τ Cert.KernelIdeal.sig) → Buf (Elt Ideal) ℓ) (c : Dev Cert.KernelIdeal.nD) :
    Fin 10000 → Fin 10000 → BitVec 32 :=
  fun a b => m ((c.tc : Thread Cert.KernelIdeal.nD Cert.KernelIdeal.τ).loc Cert.KernelIdeal.main_arg1) (ix2 a b)

/-- The common result as the result buffer's contents. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v1) :=
  fun idx => Cert.Spec.G (xOf m c) (adjOf m c) (idx 0) (idx 1)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The reference's run ends at the common result, from a memory that agrees with the kernel's on the arguments. -/
theorem ref_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v29) = result m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  haveI := Cert.Pre_finite_inputs.Gen.facts
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2]
  funext idx
  obtain ⟨p, d, rfl⟩ : ∃ (p : Fin 10000) (d : Fin 512), idx = ix2 p d := ⟨idx 0, idx 1, eq_ix2 idx⟩
  have hp := hpre c
  exact Cert.RefValue.ref_eq_G _ _ (fun i => Cert.PreDecode.x_real _ _ hp i) (fun p => Cert.PreDecode.row_open _ _ hp p) p d

/-! ## The kernel's two programs -/

section Kernel

open Cert.KernelIdeal.HandValue in
/-- The idealized kernel's run ends at the common result: the launch of its two pipelines with the second one's definite
    proof data, whose output array is read back and found to be `G`. -/
theorem kernel_run (m : (ℓ : Loc Cert.KernelIdeal.nD Cert.KernelIdeal.τ Cert.KernelIdeal.sig) → Buf (Elt Ideal) ℓ) (ρ : Dev Cert.KernelIdeal.nD → PrngReg)
    (hpre : Cert.Pre_KernelIdeal (hPre_finite_inputs := Cert.Pre_finite_inputs.Gen.facts) m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1) = result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) := by
  haveI := Cert.Pre_finite_inputs.Gen.facts
  refine (θ_run Cert.KernelIdeal.defs _ _).mono (fun r h c => ?_)
    (Cert.KernelIdeal.Hand.run_of (F := Ideal) m ρ
      (fun c => (dat1 (Cert.KernelIdeal.Hand.V1 m) Cert.KernelIdeal.Hand.q1 c).toR)
      (fun c w => rd1_A _ _ c w) (fun c => rd1_q _ _ c) (fun c t => rd1_owed _ _ c t)
      (fun c => rd1_Φ0 _ _ c) (fun c => rd1_ΦN _ _ c) (fun c => rd1_body _ _ c) (fun c => rd1_rec _ _ c))
  obtain ⟨⟨F5, hF5, hmem⟩, h0, h1⟩ := h c
  refine ⟨?_, h0, h1⟩
  have hF : F5 = (dat1 (Cert.KernelIdeal.Hand.V1 m) Cert.KernelIdeal.Hand.q1 c).arrAt 5 Cert.KernelIdeal.cfg1.N :=
    Idealize.ShloMosaic.Pipeline.Dat.toR_arrAt _ 5 _ F5 hF5
  refine (hmem.trans hF).trans ?_
  funext idx
  obtain ⟨p, d, rfl⟩ : ∃ (p : Fin 10000) (d : Fin 512), idx = ix2 p d := ⟨idx 0, idx 1, eq_ix2 idx⟩
  exact kernel_out m c (fun i => Cert.PreDecode.x_real _ _ (hpre c) i) p d

theorem frame_ki : Cert.frame_KernelIdeal (hKernelIdeal := Cert.KernelIdeal.Gen.facts) (hPre_finite_inputs := Cert.Pre_finite_inputs.Gen.facts) := fun m ρ hpre =>
  (θ_run Cert.KernelIdeal.defs _ _).mono (fun _ h c => (h c).2) (kernel_run m ρ hpre)

open Cert.Kernel.Hand in
/-- The printed kernel runs to the end and leaves its arguments as they were: the same launch at the bit-exact instance,
    nothing said of what the second pipeline's buffers hold. -/
theorem frame_k : Cert.frame_Kernel (hKernel := Cert.Kernel.Gen.facts) (hPre_finite_inputs := Cert.Pre_finite_inputs.Gen.facts) := fun m ρ _ =>
  (θ_run Cert.Kernel.defs _ _).mono (fun _ h c => (h c).2)
    (run_of (F := Bits) m ρ (fun c => rd1F (V1 m) q1 c)
      (fun c w => rd1F_A _ _ c w) (fun c => rd1F_q _ _ c) (fun c t => rd1F_owed _ _ c t)
      (fun c => rd1F_Φ0 _ _ c) (fun c => rd1F_ΦN _ _ c) (fun c => rd1F_body _ _ c) (fun _ => rfl))

end Kernel

/-- Both idealized programs end at the common result. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := fun m ρ m' ρ' hpre hagree =>
  ⟨result m, kernel_run m ρ hpre, ref_run m m' ρ' hpre hagree⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
